-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S3x128x128 : Shape := ⟨3, ![3, 128, 128]⟩
abbrev S128x128 : Shape := ⟨2, ![128, 128]⟩
abbrev S128 : Shape := ⟨1, ![128]⟩
abbrev S3x128x64 : Shape := ⟨3, ![3, 128, 64]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x64 : S_.BroadcastsInDim S3x128x64 (![] : Fin 0 → Fin S3x128x64.rank)
  reducesTo_S3x128x64_S_d0_1_2 : S3x128x64.ReducesTo [0, 1, 2] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x800000 : S_.BroadcastsInDim S2x800000 (![] : Fin 0 → Fin S2x800000.rank)
  reducesTo_S2x800000_S_d0_1 : S2x800000.ReducesTo [0, 1] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S2x800000 32) (main_arg2 : IVec S800000 32) (main_v33 : IVec S_ 1) : IVec S_ 1 :=
  let main_c_12 : IVec S_ 32 := constantI S_ 32 0#32
  let main_v34 : IVec S2x800000 32 := broadcastInDim S2x800000 ![] bcast_S_S2x800000 main_c_12
  let main_v35 : IVec S2x800000 1 := cmpi .sge main_arg1 main_v34
  let main_c_13 : IVec S_ 1 := constantI S_ 1 1#1
  let main_v36 : IVec S_ 1 := (fun x v => Host.reduce IntOp.andi x v reducesTo_S2x800000_S_d0_1 h_S_) main_v35 main_c_13
  let main_v37 : IVec S_ 1 := andi main_v33 main_v36
  let main_c_14 : IVec S_ 32 := constantI S_ 32 50000#32
  let main_v38 : IVec S2x800000 32 := broadcastInDim S2x800000 ![] bcast_S_S2x800000 main_c_14
  let main_v39 : IVec S2x800000 1 := cmpi .slt main_arg1 main_v38
  let main_c_15 : IVec S_ 1 := constantI S_ 1 1#1
  let main_v40 : IVec S_ 1 := (fun x v => Host.reduce IntOp.andi x v reducesTo_S2x800000_S_d0_1 h_S_) main_v39 main_c_15
  let main_v41 : IVec S_ 1 := andi main_v37 main_v40
  let main_c_16 : IVec S_ 32 := constantI S_ 32 0#32
  let main_v42 : IVec S800000 32 := broadcastInDim S800000 ![] bcast_S_S800000 main_c_16
  let main_v43 : IVec S800000 1 := cmpi .sge main_arg2 main_v42
  let main_c_17 : IVec S_ 1 := constantI S_ 1 1#1
  let main_v44 : IVec S_ 1 := (fun x v => Host.reduce IntOp.andi x v reducesTo_S800000_S_d0 h_S_) main_v43 main_c_17
  let main_v45 : IVec S_ 1 := andi main_v41 main_v44
  let main_c_18 : IVec S_ 32 := constantI S_ 32 3#32
  let main_v46 : IVec S800000 32 := broadcastInDim S800000 ![] bcast_S_S800000 main_c_18
  let main_v47 : IVec S800000 1 := cmpi .slt main_arg2 main_v46
  let main_c_19 : IVec S_ 1 := constantI S_ 1 1#1
  let main_v48 : IVec S_ 1 := (fun x v => Host.reduce IntOp.andi x v reducesTo_S800000_S_d0 h_S_) main_v47 main_c_19
  let main_v49 : IVec S_ 1 := andi main_v45 main_v48
  main_v49

def fn_part1 {F : FTy → Type} [FloatOps F] (main_arg1 : IVec S2x800000 32) (main_arg2 : IVec S800000 32) (main_arg6 : FVec F S3x128x64 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x128x64 .f32 := Host.absf main_arg6
  let main_cst_6 : FVec F S_ .f32 := constant S_ .f32 0x7F800000#32
  let main_v20 : FVec F S3x128x64 .f32 := broadcastInDim S3x128x64 ![] bcast_S_S3x128x64 main_cst_6
  let main_v21 : IVec S3x128x64 1 := cmpf .olt main_v19 main_v20
  let main_c_7 : IVec S_ 1 := constantI S_ 1 1#1
  let main_v22 : IVec S_ 1 := (fun x v => Host.reduce IntOp.andi x v reducesTo_S3x128x64_S_d0_1_2 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg2 main_v33

def fn {F : FTy → Type} [FloatOps F] (main_arg0 : FVec F S50000x128 .f32) (main_arg1 : IVec S2x800000 32) (main_arg2 : IVec S800000 32) (main_arg3 : FVec F S3x128x128 .f32) (main_arg4 : FVec F S128x128 .f32) (main_arg5 : FVec F S128 .f32) (main_arg6 : FVec F S3x128x64 .f32) (main_arg7 : FVec F S128x64 .f32) (main_arg8 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg2 main_arg6 main_arg7 main_arg8 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S3x128x128 : Shape := ⟨3, ![3, 128, 128]⟩
abbrev S128x128 : Shape := ⟨2, ![128, 128]⟩
abbrev S128 : Shape := ⟨1, ![128]⟩
abbrev S3x128x64 : Shape := ⟨3, ![3, 128, 64]⟩
abbrev S128x64 : Shape := ⟨2, ![128, 64]⟩
abbrev S64 : Shape := ⟨1, ![64]⟩
abbrev S1x800000 : Shape := ⟨2, ![1, 800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S150000x128 : Shape := ⟨2, ![150000, 128]⟩
abbrev S150000 : Shape := ⟨1, ![150000]⟩
abbrev S150000x1 : Shape := ⟨2, ![150000, 1]⟩
abbrev S50000x384 : Shape := ⟨2, ![50000, 384]⟩
abbrev S50000x512 : Shape := ⟨2, ![50000, 512]⟩
abbrev S1x128x128 : Shape := ⟨3, ![1, 128, 128]⟩
abbrev S512x128 : Shape := ⟨2, ![512, 128]⟩
abbrev S1x128 : Shape := ⟨2, ![1, 128]⟩
abbrev S5000x512 : Shape := ⟨2, ![5000, 512]⟩
abbrev S5000x128 : Shape := ⟨2, ![5000, 128]⟩
abbrev S1x128x64 : Shape := ⟨3, ![1, 128, 64]⟩
abbrev S512x64 : Shape := ⟨2, ![512, 64]⟩
abbrev S50000x64 : Shape := ⟨2, ![50000, 64]⟩

abbrev nBuf : Space → Nat
  | .hbm => 136
  | .vmem => 12
  | .smem => 0
  | _ => 0

abbrev hbmTy0_0 (i : Nat) : BufTy := match i % 128 with
  | 0 => ⟨S50000x128, .f32⟩
  | 1 => ⟨S2x800000, .i32⟩
  | 2 => ⟨S800000, .i32⟩
  | 3 => ⟨S3x128x128, .f32⟩
  | 4 => ⟨S128x128, .f32⟩
  | 5 => ⟨S128, .f32⟩
  | 6 => ⟨S3x128x64, .f32⟩
  | 7 => ⟨S128x64, .f32⟩
  | 8 => ⟨S64, .f32⟩
  | 9 => ⟨S1x800000, .i32⟩
  | 10 => ⟨S800000, .i32⟩
  | 11 => ⟨S1x800000, .i32⟩
  | 12 => ⟨S800000, .i32⟩
  | 13 => ⟨S_, .i32⟩
  | 14 => ⟨S800000, .i32⟩
  | 15 => ⟨S800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S1, .i32⟩
  | 26 => ⟨S_, .i32⟩
  | 27 => ⟨S800000x1, .i32⟩
  | 28 => ⟨S800000x1, .i1⟩
  | 29 => ⟨S1x1, .i32⟩
  | 30 => ⟨S800000x1, .i32⟩
  | 31 => ⟨S800000x1, .i1⟩
  | 32 => ⟨S800000x1, .i1⟩
  | 33 => ⟨S_, .i1⟩
  | 34 => ⟨S800000, .i1⟩
  | 35 => ⟨S800000x128, .f32⟩
  | 36 => ⟨S800000x128, .i1⟩
  | 37 => ⟨S_, .f32⟩
  | 38 => ⟨S800000x128, .f32⟩
  | 39 => ⟨S800000x128, .f32⟩
  | 40 => ⟨S_, .f32⟩
  | 41 => ⟨S150000x128, .f32⟩
  | 42 => ⟨S800000x1, .i32⟩
  | 43 => ⟨S150000x128, .f32⟩
  | 44 => ⟨S_, .f32⟩
  | 45 => ⟨S800000, .f32⟩
  | 46 => ⟨S_, .f32⟩
  | 47 => ⟨S150000, .f32⟩
  | 48 => ⟨S800000x1, .i32⟩
  | 49 => ⟨S150000, .f32⟩
  | 50 => ⟨S_, .f32⟩
  | 51 => ⟨S150000, .f32⟩
  | 52 => ⟨S150000, .f32⟩
  | 53 => ⟨S150000x1, .f32⟩
  | 54 => ⟨S150000x128, .f32⟩
  | 55 => ⟨S150000x128, .f32⟩
  | 56 => ⟨S50000x384, .f32⟩
  | 57 => ⟨S50000x512, .f32⟩
  | 58 => ⟨S50000x512, .bf16⟩
  | 59 => ⟨S1x128x128, .f32⟩
  | 60 => ⟨S128x128, .f32⟩
  | 61 => ⟨S1x128x128, .f32⟩
  | 62 => ⟨S128x128, .f32⟩
  | 63 => ⟨S1x128x128, .f32⟩
  | 64 => ⟨S128x128, .f32⟩
  | 65 => ⟨S512x128, .f32⟩
  | 66 => ⟨S512x128, .bf16⟩
  | 67 => ⟨S1x128, .f32⟩
  | 68 => ⟨S50000x128, .f32⟩
  | 69 => ⟨S1x800000, .i32⟩
  | 70 => ⟨S800000, .i32⟩
  | 71 => ⟨S1x800000, .i32⟩
  | 72 => ⟨S800000, .i32⟩
  | 73 => ⟨S_, .i32⟩
  | 74 => ⟨S800000, .i32⟩
  | 75 => ⟨S800000, .i32⟩
  | 76 => ⟨S800000, .i32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S1, .i32⟩
  | 86 => ⟨S_, .i32⟩
  | 87 => ⟨S800000x1, .i32⟩
  | 88 => ⟨S800000x1, .i1⟩
  | 89 => ⟨S1x1, .i32⟩
  | 90 => ⟨S800000x1, .i32⟩
  | 91 => ⟨S800000x1, .i1⟩
  | 92 => ⟨S800000x1, .i1⟩
  | 93 => ⟨S_, .i1⟩
  | 94 => ⟨S800000, .i1⟩
  | 95 => ⟨S800000x128, .f32⟩
  | 96 => ⟨S800000x128, .i1⟩
  | 97 => ⟨S_, .f32⟩
  | 98 => ⟨S800000x128, .f32⟩
  | 99 => ⟨S800000x128, .f32⟩
  | 100 => ⟨S_, .f32⟩
  | 101 => ⟨S150000x128, .f32⟩
  | 102 => ⟨S800000x1, .i32⟩
  | 103 => ⟨S150000x128, .f32⟩
  | 104 => ⟨S_, .f32⟩
  | 105 => ⟨S800000, .f32⟩
  | 106 => ⟨S_, .f32⟩
  | 107 => ⟨S150000, .f32⟩
  | 108 => ⟨S800000x1, .i32⟩
  | 109 => ⟨S150000, .f32⟩
  | 110 => ⟨S_, .f32⟩
  | 111 => ⟨S150000, .f32⟩
  | 112 => ⟨S150000, .f32⟩
  | 113 => ⟨S150000x1, .f32⟩
  | 114 => ⟨S150000x128, .f32⟩
  | 115 => ⟨S150000x128, .f32⟩
  | 116 => ⟨S50000x384, .f32⟩
  | 117 => ⟨S50000x512, .f32⟩
  | 118 => ⟨S50000x512, .bf16⟩
  | 119 => ⟨S1x128x64, .f32⟩
  | 120 => ⟨S128x64, .f32⟩
  | 121 => ⟨S1x128x64, .f32⟩
  | 122 => ⟨S128x64, .f32⟩
  | 123 => ⟨S1x128x64, .f32⟩
  | 124 => ⟨S128x64, .f32⟩
  | 125 => ⟨S512x64, .f32⟩
  | 126 => ⟨S_, .i32⟩
  | 127 => ⟨S_, .f32⟩
  | _ => ⟨S50000x128, .f32⟩

abbrev hbmTy0_1 (i : Nat) : BufTy := match i % 128 with
  | 0 => ⟨S512x128, .f32⟩
  | 1 => ⟨S_, .i32⟩
  | 2 => ⟨S_, .f32⟩
  | 3 => ⟨S128, .f32⟩
  | 4 => ⟨S512x128, .bf16⟩
  | 5 => ⟨S1x128, .f32⟩
  | 6 => ⟨S50000x128, .f32⟩
  | 7 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x512, .bf16⟩
  | .local _ .vmem, ⟨1, _⟩ => ⟨S5000x512, .bf16⟩
  | .local _ .vmem, ⟨2, _⟩ => ⟨S512x128, .bf16⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x512, .bf16⟩
  | .local _ .vmem, ⟨7, _⟩ => ⟨S5000x512, .bf16⟩
  | .local _ .vmem, ⟨8, _⟩ => ⟨S512x128, .bf16⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v7 : Ref sig .tc := ⟨.hbm, 39, rfl⟩
abbrev main_cst : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst_0 : Ref sig .tc := ⟨.hbm, 44, rfl⟩
abbrev main_v11 : Ref sig .tc := ⟨.hbm, 45, rfl⟩
abbrev main_cst_1 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_cst_2 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_c_3 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_call1_c : Ref sig .tc := ⟨.hbm, 77, rfl⟩
abbrev main_call1_v0 : Ref sig .tc := ⟨.hbm, 78, rfl⟩
abbrev main_call1_v1 : Ref sig .tc := ⟨.hbm, 79, rfl⟩
abbrev main_call1_c_0 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_c_1 : Ref sig .tc := ⟨.hbm, 85, rfl⟩
abbrev main_call1_c_2 : Ref sig .tc := ⟨.hbm, 86, rfl⟩
abbrev main_call1_v6 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_c_3 : Ref sig .tc := ⟨.hbm, 93, rfl⟩
abbrev main_call1_v12 : Ref sig .tc := ⟨.hbm, 94, rfl⟩
abbrev main_call1_v13 : Ref sig .tc := ⟨.hbm, 95, rfl⟩
abbrev main_call1_v14 : Ref sig .tc := ⟨.hbm, 96, rfl⟩
abbrev main_call1_cst : Ref sig .tc := ⟨.hbm, 97, rfl⟩
abbrev main_call1_v15 : Ref sig .tc := ⟨.hbm, 98, rfl⟩
abbrev main_v40 : Ref sig .tc := ⟨.hbm, 99, rfl⟩
abbrev main_cst_4 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_cst_5 : Ref sig .tc := ⟨.hbm, 104, rfl⟩
abbrev main_v44 : Ref sig .tc := ⟨.hbm, 105, rfl⟩
abbrev main_cst_6 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_cst_7 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_c_8 : Ref sig .tc := ⟨.hbm, 126, rfl⟩
abbrev main_call2_v0 : Ref sig .tc := ⟨.hbm, 127, rfl⟩
abbrev main_v63 : Ref sig .tc := ⟨.hbm, 128, rfl⟩
abbrev main_c_9 : Ref sig .tc := ⟨.hbm, 129, rfl⟩
abbrev main_call3_v0 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S150000x128 : S_.BroadcastsInDim S150000x128 (![] : Fin 0 → Fin S150000x128.rank)
  bcast_S_S150000 : S_.BroadcastsInDim S150000 (![] : Fin 0 → Fin S150000.rank)
  bcast_S150000_S150000x1_0 : S150000.BroadcastsInDim S150000x1 (![0] : Fin 1 → Fin S150000x1.rank)
  bcast_S150000x1_S150000x128_0_1 : S150000x1.BroadcastsInDim S150000x128 (![0, 1] : Fin 2 → Fin S150000x128.rank)
  shapeCasts_S150000x128_S50000x384 : S150000x128.ShapeCasts S50000x384
  concatenates_S50000x128_S50000x384_S50000x512_d1 : Shape.Concatenates [S50000x128, S50000x384] S50000x512 1
  bitsLt_bf16_f32 : FTy.bits .bf16 < FTy.bits .f32
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  concatenates_S128x128_S128x128_S128x128_S128x128_S512x128_d0 : Shape.Concatenates [S128x128, S128x128, S128x128, S128x128] S512x128 0
  shapeCasts_S128_S1x128 : S128.ShapeCasts S1x128
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S3x128x64_S1x128x64_0_0_0 : S3x128x64.Slices ![0, 0, 0] S1x128x64
  shapeCasts_S1x128x64_S128x64 : S1x128x64.ShapeCasts S128x64
  slices_S3x128x64_S1x128x64_1_0_0 : S3x128x64.Slices ![1, 0, 0] S1x128x64
  slices_S3x128x64_S1x128x64_2_0_0 : S3x128x64.Slices ![2, 0, 0] S1x128x64
  concatenates_S128x64_S128x64_S128x64_S128x64_S512x64_d0 : Shape.Concatenates [S128x64, S128x64, S128x64, S128x64] S512x64 0
  pads_S512x64_S512x128_000_0640 : S512x64.Pads (![0, 0] : Fin 2 → Nat) ![0, 64] ![0, 0] S512x128
  pads_S64_S128_0640 : S64.Pads (![0] : Fin 1 → Nat) ![64] ![0] S128
  slices_S50000x128_S50000x64_0_0 : S50000x128.Slices ![0, 0] S50000x64
  gather_S50000x128_S800000x1_S800000x128_1_0_n_n_0_1_1128_wf : GatherDims.WF S50000x128 S800000x1 S800000x128 [1] [0] [] [0] [] 1 ![1, 128]
  scatter_S150000x128_S800000x1_S800000x128_1_0_0_1_wf : ScatterDims.WF S150000x128 S800000x1 S800000x128 [1] [0] [0] 1
  scatter_S150000_S800000x1_S800000_n_0_0_1_wf : ScatterDims.WF S150000 S800000x1 S800000 [] [0] [0] 1
  dot_S5000x512_S512x128_S5000x128_1_0_0_1_n_n_wf : DotDims.WF S5000x512 S512x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .bf16 = 32 ∨ (Rect.block (s := S50000x512) S5000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .bf16 = 32 ∨ (Rect.block (s := S512x128) S512x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x512.size a ≤ S50000x512.size a
  hwx1_0 : ∀ i : grid1.Coords, EltTy.bits .bf16 = 32 ∨ (Rect.block (s := S50000x512) S5000x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .bf16 = 32 ∨ (Rect.block (s := S512x128) S512x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S150000x128_S800000x1_S800000x128_1_0_0_1 : ScatterDims S150000x128 S800000x1 S800000x128 where
  updateWindowDims := [1]
  insertedWindowDims := [0]
  scatterDimsToOperandDims := [0]
  indexVectorDim := 1
  wf := scatter_S150000x128_S800000x1_S800000x128_1_0_0_1_wf
def scatter_S150000_S800000x1_S800000_n_0_0_1 : ScatterDims S150000 S800000x1 S800000 where
  updateWindowDims := []
  insertedWindowDims := [0]
  scatterDimsToOperandDims := [0]
  indexVectorDim := 1
  wf := scatter_S150000_S800000x1_S800000_n_0_0_1_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf

abbrev win0_0 : Pipeline.Window sig grid0 :=
  Pipeline.Window.ofSpec (Memref.whole main_v22) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v55) S5000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v65) S512x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v66) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v67) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S3x128x128 : Shape := ⟨3, ![3, 128, 128]⟩
abbrev S128x128 : Shape := ⟨2, ![128, 128]⟩
abbrev S128 : Shape := ⟨1, ![128]⟩
abbrev S3x128x64 : Shape := ⟨3, ![3, 128, 64]⟩
abbrev S128x64 : Shape := ⟨2, ![128, 64]⟩
abbrev S64 : Shape := ⟨1, ![64]⟩
abbrev S1x800000 : Shape := ⟨2, ![1, 800000]⟩
abbrev S1x128 : Shape := ⟨2, ![1, 128]⟩
abbrev S1x128x128 : Shape := ⟨3, ![1, 128, 128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x64 : Shape := ⟨2, ![50000, 64]⟩
abbrev S1x64 : Shape := ⟨2, ![1, 64]⟩
abbrev S1x128x64 : Shape := ⟨3, ![1, 128, 64]⟩
abbrev S800000x64 : Shape := ⟨2, ![800000, 64]⟩

abbrev nBuf : Space → Nat
  | .hbm => 232
  | .vmem => 0
  | .smem => 0
  | _ => 0

abbrev hbmTy0_0 (i : Nat) : BufTy := match i % 128 with
  | 0 => ⟨S50000x128, .f32⟩
  | 1 => ⟨S2x800000, .i32⟩
  | 2 => ⟨S800000, .i32⟩
  | 3 => ⟨S3x128x128, .f32⟩
  | 4 => ⟨S128x128, .f32⟩
  | 5 => ⟨S128, .f32⟩
  | 6 => ⟨S3x128x64, .f32⟩
  | 7 => ⟨S128x64, .f32⟩
  | 8 => ⟨S64, .f32⟩
  | 9 => ⟨S1x800000, .i32⟩
  | 10 => ⟨S800000, .i32⟩
  | 11 => ⟨S1x800000, .i32⟩
  | 12 => ⟨S800000, .i32⟩
  | 13 => ⟨S50000x128, .f32⟩
  | 14 => ⟨S1x128, .f32⟩
  | 15 => ⟨S50000x128, .f32⟩
  | 16 => ⟨S50000x128, .f32⟩
  | 17 => ⟨S1x128x128, .f32⟩
  | 18 => ⟨S128x128, .f32⟩
  | 19 => ⟨S50000x128, .f32⟩
  | 20 => ⟨S_, .i32⟩
  | 21 => ⟨S800000, .i32⟩
  | 22 => ⟨S800000, .i1⟩
  | 23 => ⟨S800000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S800000x1, .f32⟩
  | 34 => ⟨S800000x128, .f32⟩
  | 35 => ⟨S800000x128, .f32⟩
  | 36 => ⟨S_, .f32⟩
  | 37 => ⟨S50000x128, .f32⟩
  | 38 => ⟨S800000x1, .i32⟩
  | 39 => ⟨S50000x128, .f32⟩
  | 40 => ⟨S_, .f32⟩
  | 41 => ⟨S50000, .f32⟩
  | 42 => ⟨S800000x1, .i32⟩
  | 43 => ⟨S50000, .f32⟩
  | 44 => ⟨S_, .f32⟩
  | 45 => ⟨S50000, .f32⟩
  | 46 => ⟨S50000, .f32⟩
  | 47 => ⟨S50000x1, .f32⟩
  | 48 => ⟨S50000x128, .f32⟩
  | 49 => ⟨S50000x128, .f32⟩
  | 50 => ⟨S50000x128, .f32⟩
  | 51 => ⟨S1x128x128, .f32⟩
  | 52 => ⟨S128x128, .f32⟩
  | 53 => ⟨S50000x128, .f32⟩
  | 54 => ⟨S_, .i32⟩
  | 55 => ⟨S800000, .i32⟩
  | 56 => ⟨S800000, .i1⟩
  | 57 => ⟨S800000, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x128, .f32⟩
  | 67 => ⟨S800000x1, .f32⟩
  | 68 => ⟨S800000x128, .f32⟩
  | 69 => ⟨S800000x128, .f32⟩
  | 70 => ⟨S_, .f32⟩
  | 71 => ⟨S50000x128, .f32⟩
  | 72 => ⟨S800000x1, .i32⟩
  | 73 => ⟨S50000x128, .f32⟩
  | 74 => ⟨S_, .f32⟩
  | 75 => ⟨S50000, .f32⟩
  | 76 => ⟨S800000x1, .i32⟩
  | 77 => ⟨S50000, .f32⟩
  | 78 => ⟨S_, .f32⟩
  | 79 => ⟨S50000, .f32⟩
  | 80 => ⟨S50000, .f32⟩
  | 81 => ⟨S50000x1, .f32⟩
  | 82 => ⟨S50000x128, .f32⟩
  | 83 => ⟨S50000x128, .f32⟩
  | 84 => ⟨S50000x128, .f32⟩
  | 85 => ⟨S1x128x128, .f32⟩
  | 86 => ⟨S128x128, .f32⟩
  | 87 => ⟨S50000x128, .f32⟩
  | 88 => ⟨S_, .i32⟩
  | 89 => ⟨S800000, .i32⟩
  | 90 => ⟨S800000, .i1⟩
  | 91 => ⟨S800000, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x128, .f32⟩
  | 101 => ⟨S800000x1, .f32⟩
  | 102 => ⟨S800000x128, .f32⟩
  | 103 => ⟨S800000x128, .f32⟩
  | 104 => ⟨S_, .f32⟩
  | 105 => ⟨S50000x128, .f32⟩
  | 106 => ⟨S800000x1, .i32⟩
  | 107 => ⟨S50000x128, .f32⟩
  | 108 => ⟨S_, .f32⟩
  | 109 => ⟨S50000, .f32⟩
  | 110 => ⟨S800000x1, .i32⟩
  | 111 => ⟨S50000, .f32⟩
  | 112 => ⟨S_, .f32⟩
  | 113 => ⟨S50000, .f32⟩
  | 114 => ⟨S50000, .f32⟩
  | 115 => ⟨S50000x1, .f32⟩
  | 116 => ⟨S50000x128, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S1x800000, .i32⟩
  | 123 => ⟨S800000, .i32⟩
  | 124 => ⟨S1x800000, .i32⟩
  | 125 => ⟨S800000, .i32⟩
  | 126 => ⟨S50000x64, .f32⟩
  | 127 => ⟨S1x64, .f32⟩
  | _ => ⟨S50000x128, .f32⟩

abbrev hbmTy0_1 (i : Nat) : BufTy := match i % 128 with
  | 0 => ⟨S50000x64, .f32⟩
  | 1 => ⟨S50000x64, .f32⟩
  | 2 => ⟨S1x128x64, .f32⟩
  | 3 => ⟨S128x64, .f32⟩
  | 4 => ⟨S50000x64, .f32⟩
  | 5 => ⟨S_, .i32⟩
  | 6 => ⟨S800000, .i32⟩
  | 7 => ⟨S800000, .i1⟩
  | 8 => ⟨S800000, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x64, .f32⟩
  | 18 => ⟨S800000x1, .f32⟩
  | 19 => ⟨S800000x64, .f32⟩
  | 20 => ⟨S800000x64, .f32⟩
  | 21 => ⟨S_, .f32⟩
  | 22 => ⟨S50000x64, .f32⟩
  | 23 => ⟨S800000x1, .i32⟩
  | 24 => ⟨S50000x64, .f32⟩
  | 25 => ⟨S_, .f32⟩
  | 26 => ⟨S50000, .f32⟩
  | 27 => ⟨S800000x1, .i32⟩
  | 28 => ⟨S50000, .f32⟩
  | 29 => ⟨S_, .f32⟩
  | 30 => ⟨S50000, .f32⟩
  | 31 => ⟨S50000, .f32⟩
  | 32 => ⟨S50000x1, .f32⟩
  | 33 => ⟨S50000x64, .f32⟩
  | 34 => ⟨S50000x64, .f32⟩
  | 35 => ⟨S50000x64, .f32⟩
  | 36 => ⟨S1x128x64, .f32⟩
  | 37 => ⟨S128x64, .f32⟩
  | 38 => ⟨S50000x64, .f32⟩
  | 39 => ⟨S_, .i32⟩
  | 40 => ⟨S800000, .i32⟩
  | 41 => ⟨S800000, .i1⟩
  | 42 => ⟨S800000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x64, .f32⟩
  | 52 => ⟨S800000x1, .f32⟩
  | 53 => ⟨S800000x64, .f32⟩
  | 54 => ⟨S800000x64, .f32⟩
  | 55 => ⟨S_, .f32⟩
  | 56 => ⟨S50000x64, .f32⟩
  | 57 => ⟨S800000x1, .i32⟩
  | 58 => ⟨S50000x64, .f32⟩
  | 59 => ⟨S_, .f32⟩
  | 60 => ⟨S50000, .f32⟩
  | 61 => ⟨S800000x1, .i32⟩
  | 62 => ⟨S50000, .f32⟩
  | 63 => ⟨S_, .f32⟩
  | 64 => ⟨S50000, .f32⟩
  | 65 => ⟨S50000, .f32⟩
  | 66 => ⟨S50000x1, .f32⟩
  | 67 => ⟨S50000x64, .f32⟩
  | 68 => ⟨S50000x64, .f32⟩
  | 69 => ⟨S50000x64, .f32⟩
  | 70 => ⟨S1x128x64, .f32⟩
  | 71 => ⟨S128x64, .f32⟩
  | 72 => ⟨S50000x64, .f32⟩
  | 73 => ⟨S_, .i32⟩
  | 74 => ⟨S800000, .i32⟩
  | 75 => ⟨S800000, .i1⟩
  | 76 => ⟨S800000, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x64, .f32⟩
  | 86 => ⟨S800000x1, .f32⟩
  | 87 => ⟨S800000x64, .f32⟩
  | 88 => ⟨S800000x64, .f32⟩
  | 89 => ⟨S_, .f32⟩
  | 90 => ⟨S50000x64, .f32⟩
  | 91 => ⟨S800000x1, .i32⟩
  | 92 => ⟨S50000x64, .f32⟩
  | 93 => ⟨S_, .f32⟩
  | 94 => ⟨S50000, .f32⟩
  | 95 => ⟨S800000x1, .i32⟩
  | 96 => ⟨S50000, .f32⟩
  | 97 => ⟨S_, .f32⟩
  | 98 => ⟨S50000, .f32⟩
  | 99 => ⟨S50000, .f32⟩
  | 100 => ⟨S50000x1, .f32⟩
  | 101 => ⟨S50000x64, .f32⟩
  | 102 => ⟨S50000x64, .f32⟩
  | 103 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_0 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_5 : Ref sig .tc := ⟨.hbm, 58, rfl⟩
abbrev main_v42 : Ref sig .tc := ⟨.hbm, 59, rfl⟩
abbrev main_v43 : Ref sig .tc := ⟨.hbm, 60, rfl⟩
abbrev main_c_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_8 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_9 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_c_10 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_c_11 : Ref sig .tc := ⟨.hbm, 92, rfl⟩
abbrev main_v70 : Ref sig .tc := ⟨.hbm, 93, rfl⟩
abbrev main_v71 : Ref sig .tc := ⟨.hbm, 94, rfl⟩
abbrev main_c_12 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_13 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_14 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_15 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_call0_cst : Ref sig .tc := ⟨.hbm, 119, rfl⟩
abbrev main_call0_v0 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_c_16 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_c_17 : Ref sig .tc := ⟨.hbm, 137, rfl⟩
abbrev main_v107 : Ref sig .tc := ⟨.hbm, 138, rfl⟩
abbrev main_v108 : Ref sig .tc := ⟨.hbm, 139, rfl⟩
abbrev main_c_18 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_cst_19 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_cst_20 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_cst_21 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_c_22 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_c_23 : Ref sig .tc := ⟨.hbm, 171, rfl⟩
abbrev main_v135 : Ref sig .tc := ⟨.hbm, 172, rfl⟩
abbrev main_v136 : Ref sig .tc := ⟨.hbm, 173, rfl⟩
abbrev main_c_24 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_cst_25 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_cst_26 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_cst_27 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_c_28 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_c_29 : Ref sig .tc := ⟨.hbm, 205, rfl⟩
abbrev main_v163 : Ref sig .tc := ⟨.hbm, 206, rfl⟩
abbrev main_v164 : Ref sig .tc := ⟨.hbm, 207, rfl⟩
abbrev main_c_30 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_cst_31 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_cst_32 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_cst_33 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x128x128_S1x128x128_1_0_0 : S3x128x128.Slices ![1, 0, 0] S1x128x128
  slices_S3x128x128_S1x128x128_2_0_0 : S3x128x128.Slices ![2, 0, 0] S1x128x128
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S3x128x64_S1x128x64_0_0_0 : S3x128x64.Slices ![0, 0, 0] S1x128x64
  shapeCasts_S1x128x64_S128x64 : S1x128x64.ShapeCasts S128x64
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  slices_S3x128x64_S1x128x64_1_0_0 : S3x128x64.Slices ![1, 0, 0] S1x128x64
  slices_S3x128x64_S1x128x64_2_0_0 : S3x128x64.Slices ![2, 0, 0] S1x128x64
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.K.Region.lean ====
/-
  The two kernel regions of the program, each at a PARAMETER `V`: the contents of the core's buffers when the region is
  entered. Both regions run the same body on a grid of 10 points: at point `t` it reads a block of 5000 rows of the
  long feature rows (5000 × 512), the whole stacked weights (512 × 128) and the bias row (1 × 128), and writes the
  5000 × 128 block `rows · weights + bias` (region 0 then takes the positive part). What the body leaves in the output
  window's buffer is ONE store of the body's value over the whole block, so it is a function `outK_3` of the three
  input blocks; the proof data `datK` record that, with the arrays as `V` has them.
-/
import proofs.«404525_j62474594287730_1_alg».proof.Proof.Gen.Kernel.Launch
import proofs.«404525_j62474594287730_1_alg».proof.Proof.Gen.Kernel.Skeleton
import proofs.«404525_j62474594287730_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The whole-block rectangles the body reads and writes -/

abbrev rX : Rect S5000x512 := Rect.unit (s := S5000x512) ![0, 0] S5000x512.size inb_S5000x512_S5000x512_0_0
abbrev rW : Rect S512x128 := Rect.unit (s := S512x128) ![0, 0] S512x128.size inb_S512x128_S512x128_0_0
abbrev rB : Rect S1x128 := Rect.unit (s := S1x128) ![0, 0] S1x128.size inb_S1x128_S1x128_0_0
abbrev rO : Rect S5000x128 := Rect.unit (s := S5000x128) ![0, 0] S5000x128.size inb_S5000x128_S5000x128_0_0

/-! # Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output block after the body, from the three input blocks: the one store's value over the whole block. -/
def out0_3 (x0 : Vec F S5000x512 .bf16) (x1 : Vec F S512x128 .bf16) (x2 : Vec F S1x128 .f32) : Vec F S5000x128 .f32 :=
  View.canon [⟨rO, k0_pay1 (View.ld x0 rX) (View.ld x1 rW) (View.ld x2 rB)⟩]

/-- Region 0's proof data on core `c`: the arrays as `V` has them; after the body each input's buffer holds its block and
    the output's holds `out0_3` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## What the body finds in each input window's buffer: its block, fetched at the point or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The one store covers the output block -/

theorem cover0_3 (p0 : Vec F S5000x128 .f32) (y : S5000x128.Idx) :
    ∃ pc ∈ ([⟨rO, p0⟩] : List (View.Piece (Elt F) S5000x128 .f32)), y ∈ pc.1.set :=
  View.cover_of_tiled [⟨rO, p0⟩] S5000x128.size (by rfl) y

/-! ## The body's triple on whole staging memrefs -/

set_option maxHeartbeats 1000000 in
/-- The body on whole memrefs, the three inputs' at read contents `x0 x1 x2` and the output's at anything, runs to the
    continuation holding the inputs' as they were and the output's at `out0_3` of them: the load of the output's
    memref before the store reads a value nothing uses. -/
theorem sound_kernel0 (c : Dev nD) (E : Set ℕ) (i : grid0.Coords)
    (arg1 : Memref sig .tc .vmem S5000x512 .bf16) (harg1 : arg1.IsWhole)
    (arg2 : Memref sig .tc .vmem S512x128 .bf16) (harg2 : arg2.IsWhole)
    (arg3 : Memref sig .tc .vmem S1x128 .f32) (harg3 : arg3.IsWhole)
    (arg4 : Memref sig .tc .vmem S5000x128 .f32) (harg4 : arg4.IsWhole)
    (x0 : Vec F S5000x512 .bf16) (x1 : Vec F S512x128 .bf16) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the core's
    debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body of region 0 meets the pipeline's obligation at every point. -/
theorem body_obligation0 (c : Dev nD) : BodyObligation (dat0 (F := F) V c) (defs₀ (F := F)) Variants.none () Set.univ := fun t => by
  rw [bigSep_W0, bigSep_W0]
  exact sound_body0 V c t

/-! # Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block after the body, from the three input blocks. -/
def out1_3 (x0 : Vec F S5000x512 .bf16) (x1 : Vec F S512x128 .bf16) (x2 : Vec F S1x128 .f32) : Vec F S5000x128 .f32 :=
  View.canon [⟨rO, k1_pay1 (View.ld x0 rX) (View.ld x1 rW) (View.ld x2 rB)⟩]

/-- Region 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## What the body finds in each input window's buffer: its block, fetched at the point or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The one store covers the output block -/

theorem cover1_3 (p0 : Vec F S5000x128 .f32) (y : S5000x128.Idx) :
    ∃ pc ∈ ([⟨rO, p0⟩] : List (View.Piece (Elt F) S5000x128 .f32)), y ∈ pc.1.set :=
  View.cover_of_tiled [⟨rO, p0⟩] S5000x128.size (by rfl) y

/-! ## The body's triple on whole staging memrefs -/

set_option maxHeartbeats 1000000 in
/-- The body on whole memrefs, the three inputs' at read contents `x0 x1 x2` and the output's at anything, runs to the
    continuation holding the inputs' as they were and the output's at `out1_3` of them: the load of the output's
    memref before the store reads a value nothing uses. -/
theorem sound_kernel1 (c : Dev nD) (E : Set ℕ) (i : grid1.Coords)
    (arg1 : Memref sig .tc .vmem S5000x512 .bf16) (harg1 : arg1.IsWhole)
    (arg2 : Memref sig .tc .vmem S512x128 .bf16) (harg2 : arg2.IsWhole)
    (arg3 : Memref sig .tc .vmem S1x128 .f32) (harg3 : arg3.IsWhole)
    (arg4 : Memref sig .tc .vmem S5000x128 .f32) (harg4 : arg4.IsWhole)
    (x0 : Vec F S5000x512 .bf16) (x1 : Vec F S512x128 .bf16) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the core's
    debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body of region 1 meets the pipeline's obligation at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole run of the program on a core, item by item: host operations, region 0, host operations, region 1, a last
  host operation. Between two items the core's unscoped buffers hold a known valuation: the launch memory folded
  through the host operations so far, with region 0's output array at what its ten write-backs leave (`X0`) and region
  1's likewise (`X1`). Each region is entered with its arrays split out of those buffers and left with them put back;
  nothing is owed and the kernels have no semaphores of their own. Two consequences are stated: every argument array
  ends as launched (`frame`), and the result array ends at `kernelOut`, the last host operation applied to what region
  1 left (`run_value`).
-/
import proofs.«404525_j62474594287730_1_alg».proof.Proof.K.Region
import proofs.«404525_j62474594287730_1_alg».proof.Proof.Gen.Kernel.Regions
import proofs.«404525_j62474594287730_1_alg».proof.Proof.K.RunValue

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The contents between the items -/

/-- Region 0's entry contents, at the core's references. -/
abbrev E0 : (c : Dev nD) → (b : Ref sig .tc) → Buf (Elt F) ((c : Thread nD τ).loc b) := fun c b => Gen.V3 m c b

/-- Region 0's exit contents: its arrays at what the pipeline leaves, every other buffer as entered. -/
def X0 (c : Dev nD) : Valuation τ sig (Elt F) :=
  Pipeline.withArrays spec0 c (Gen.V3 m c) fun w => (dat0 (E0 m) c).arrAt w cfg0.N

/-- The regions' leavings, first stage: only region 0's is known. -/
def outsA : Gen.Outs (F := F) := fun _ r c => X0 m c r

/-- Region 1's entry contents, at the core's references. -/
abbrev E1 : (c : Dev nD) → (b : Ref sig .tc) → Buf (Elt F) ((c : Thread nD τ).loc b) := fun c b => Gen.V11 m (outsA m) c b

/-- Region 1's exit contents. -/
def X1 (c : Dev nD) : Valuation τ sig (Elt F) :=
  Pipeline.withArrays spec1 c (Gen.V11 m (outsA m) c) fun w => (dat1 (E1 m) c).arrAt w cfg1.N

/-- The regions' leavings: after item 3 region 0's, after item 11 region 1's. -/
def outs : Gen.Outs (F := F) := fun j r c => if j = 4 then X0 m c r else X1 m c r

/-- Region 0's exit contents at one of its arrays. -/
theorem X0_arr (c : Dev nD) (w : Fin cfg0.W) :
    X0 m c (Proc.devRef .tc (Pipeline.arrRef spec0 w)) = (dat0 (E0 m) c).arrAt w cfg0.N := by
  unfold X0; exact Pipeline.withArrays_arr spec0 launch0.win.arr_inj c _ _ w

/-- Region 1's exit contents at one of its arrays. -/
theorem X1_arr (c : Dev nD) (w : Fin cfg1.W) :
    X1 m c (Proc.devRef .tc (Pipeline.arrRef spec1 w)) = (dat1 (E1 m) c).arrAt w cfg1.N := by
  unfold X1; exact Pipeline.withArrays_arr spec1 launch1.win.arr_inj c _ _ w

/-- What region 0 leaves in its output array is the proof data's final array. -/
theorem outs4 (c : Dev nD) : outs m 4 main_v32 c = (dat0 (E0 m) c).arrAt 3 cfg0.N := by
  unfold outs; rw [if_pos rfl]; exact X0_arr m c 3

/-- The contents at region 1's entry depend on the regions' leavings only through region 0's output array. -/
theorem V11_congr (o o' : Gen.Outs (F := F)) (c : Dev nD) (h : o 4 main_v32 c = o' 4 main_v32 c) :
    Gen.V11 m o c = Gen.V11 m o' c := by
  unfold Gen.V11 Gen.V10 Gen.V9 Gen.V8 Gen.V7 Gen.V6 Gen.V5 Gen.V4
  rw [h]

/-- Up to region 1's entry the two stages agree. -/
theorem V11_outs (c : Dev nD) : Gen.V11 m (outs m) c = Gen.V11 m (outsA m) c :=
  V11_congr m _ _ c (by unfold outs outsA; rw [if_pos rfl])

/-- What region 1 leaves in its output array is the proof data's final array. -/
theorem outs12 (c : Dev nD) : outs m 12 main_v67 c = (dat1 (E1 m) c).arrAt 3 cfg1.N := by
  unfold outs; rw [if_neg (by decide)]; exact X1_arr m c 3

/-- The result array at the end of the run. -/
def kernelOut (c : Dev nD) : Buf (Elt F) ((c.tc : Thread nD τ).loc main_v68) := Gen.V13 m (outs m) c main_v68

/-! ## The regions' exits, array by array -/

/-- Region 0's output array is `main_v32`, region 1's is `main_v67`. -/
theorem arrRef0_3 : Pipeline.arrRef spec0 3 = main_v32 := rfl
theorem arrRef1_3 : Pipeline.arrRef spec1 3 = main_v67 := rfl

/-- Region 0's exit contents, at the core's references. -/
abbrev Y0 : (c : Dev nD) → (b : Ref sig .tc) → Buf (Elt F) ((c : Thread nD τ).loc b) := fun c b => Gen.V4 m (outs m) c b

/-- Region 1's exit contents, at the core's references. -/
abbrev Y1 : (c : Dev nD) → (b : Ref sig .tc) → Buf (Elt F) ((c : Thread nD τ).loc b) := fun c b => Gen.V12 m (outs m) c b

/-- An input array of region 0 is left as entered. -/
theorem hF0_in (c : Dev nD) (w : Fin cfg0.W) (hin : (cfg0.win w).isOut = false)
    (hne : Pipeline.arrRef spec0 w ∉ ([main_v32] : List (Ref sig .tc))) :
    (dat0 (E0 m) c).arrAt w cfg0.N = Y0 m c (Pipeline.arrRef spec0 w) :=
  ((dat0 (E0 m) c).arrAt_in w hin _).trans
    ((A_eq0 (E0 m) c w).trans (Gen.V4_of m (outs m) c (Pipeline.arrRef spec0 w) hne).symm)

/-- At region 0's exit each of its arrays holds what the pipeline leaves. -/
theorem hF0 (c : Dev nD) (w : Fin cfg0.W) : (dat0 (E0 m) c).arrAt w cfg0.N = Y0 m c (Pipeline.arrRef spec0 w) :=
  match w with
  | ⟨0, _⟩ => hF0_in m c 0 rfl (by decide)
  | ⟨1, _⟩ => hF0_in m c 1 rfl (by decide)
  | ⟨2, _⟩ => hF0_in m c 2 rfl (by decide)
  | ⟨3, _⟩ => (outs4 m c).symm.trans (Function.update_self (f := Gen.V3 m c) (Proc.devRef .tc main_v32) (outs m 4 main_v32 c)).symm

/-- Off region 0's arrays nothing changes. -/
theorem hrest0 (c : Dev nD) : ∀ b, b ∉ Finset.univ.image (Pipeline.arrRef spec0) → Y0 m c b = E0 m c b :=
  fun b hb => Gen.V4_of m (outs m) c b fun h =>
    hb (Finset.mem_image.mpr ⟨3, Finset.mem_univ _, (List.mem_singleton.mp h).symm⟩)

/-- An input array of region 1 is left as entered. -/
theorem hF1_in (c : Dev nD) (w : Fin cfg1.W) (hin : (cfg1.win w).isOut = false)
    (hne : Pipeline.arrRef spec1 w ∉ ([main_v67] : List (Ref sig .tc))) :
    (dat1 (E1 m) c).arrAt w cfg1.N = Y1 m c (Pipeline.arrRef spec1 w) :=
  ((dat1 (E1 m) c).arrAt_in w hin _).trans
    ((A_eq1 (E1 m) c w).trans
      (((Gen.V12_of m (outs m) c (Pipeline.arrRef spec1 w) hne).trans (congrFun (V11_outs m c) _)).symm))

/-- At region 1's exit each of its arrays holds what the pipeline leaves. -/
theorem hF1 (c : Dev nD) (w : Fin cfg1.W) : (dat1 (E1 m) c).arrAt w cfg1.N = Y1 m c (Pipeline.arrRef spec1 w) :=
  match w with
  | ⟨0, _⟩ => hF1_in m c 0 rfl (by decide)
  | ⟨1, _⟩ => hF1_in m c 1 rfl (by decide)
  | ⟨2, _⟩ => hF1_in m c 2 rfl (by decide)
  | ⟨3, _⟩ => (outs12 m c).symm.trans (Function.update_self (f := Gen.V11 m (outs m) c) (Proc.devRef .tc main_v67) (outs m 12 main_v67 c)).symm

/-- Off region 1's arrays nothing changes. -/
theorem hrest1 (c : Dev nD) : ∀ b, b ∉ Finset.univ.image (Pipeline.arrRef spec1) → Y1 m c b = E1 m c b :=
  fun b hb => (Gen.V12_of m (outs m) c b fun h =>
    hb (Finset.mem_image.mpr ⟨3, Finset.mem_univ _, (List.mem_singleton.mp h).symm⟩)).trans (congrFun (V11_outs m c) _)

/-! ## The proof data and what rides beside the buffers -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c

/-- No core owes another anything: no level is assigned. -/
abbrev L₀ : GSem nD τ sig → Finset Unit := fun _ => ∅
abbrev lv₀ : GSem nD τ sig → Unit → ℕ := fun _ _ => 0

/-- Beside the buffers a core keeps its generator register, at some state, and owes nothing. -/
abbrev R (c : Dev nD) : sProp 𝕄 :=
  iprop((∃ r, prngReg c r) ∗ ∃ W, owes (c : Thread nD τ) (0 : CellTallies nD τ sig Unit) W)

/-! ## The regions as segments -/

set_option backward.isDefEq.respectTransparency.types false in
/-- Region 0: entered with every unscoped buffer at `V3`, left with them at `V4`. At the entry its arrays are split
    out of the unscoped buffers, at the exit they are put back at what the write-backs leave; the generator register
    goes through the region's invariant; nothing is owed and the kernel has no semaphore of its own. -/
def reg0 : Pipeline.RegionSeg (pcfgs (F := F)) adm (pdats m) () defs₀ Variants.none L₀ lv₀ 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L₀ lv₀ 0 fun _ _ => rfl
  pre c := iprop(StableHlo.held (c : Thread nD τ) (Pipeline.ucRefs τ sig) (Gen.V3 m c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    rw [Pipeline.ownSems0_none]
    iintro ⟨⟨Hbufs, Hreg, Howes⟩, -, -⟩
    ihave Hs := hsplit $$ Hbufs
    icases Hs with ⟨Harr, Hrest⟩
    imodintro
    isplitl [Harr]
    · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%W, Howes⟩
      iexists W
      isplitr
      · ipureintro; exact fun _ _ => Or.inl trivial
      iexact Howes
    isplitl [Hreg]
    · iexact Hreg
    iexact Hrest
  hin c := by
    rw [show (pdats m 0 c).Φ 0 = Pipeline.ΦA spec0 c from rfl]
    unfold Pipeline.ΦA
    iintro ⟨Hreg, -, Hsc⟩
    isplitl [Hsc]
    · iexact Hsc
    iexact Hreg
  hout c := by
    rw [Pipeline.ownSems0_none, show (pdats m 0 c).Φ (Fin.last _) = Pipeline.ΦA spec0 c from rfl]
    unfold Pipeline.ΦA
    iintro ⟨Hsc, Hreg⟩
    isplitl [Hreg]
    · iexact Hreg
    isplitr
    · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (Y0 m c) ((pdats m 0 c).arrAt · cfg0.N) (hF0 m c) (hrest0 m c)
    rw [Pipeline.unscopedBufs_held] at hjoin
    iintro ⟨Harr, Howes, Hreg, Hrest⟩
    imodintro
    isplitl [Harr Hrest]
    · iapply hjoin
      isplitl [Harr] <;> iassumption
    isplitl [Hreg]
    · iexact Hreg
    unfold Pipeline.Dat.owesAt Pipeline.owesWithin
    icases Howes with ⟨%W, -, Howes⟩
    iexists W
    iexact Howes

set_option backward.isDefEq.respectTransparency.types false in
/-- Region 1: entered with every unscoped buffer at `V11`, left with them at `V12`; the same protocol as region 0. -/
def reg1 : Pipeline.RegionSeg (pcfgs (F := F)) adm (pdats m) () defs₀ Variants.none L₀ lv₀ 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L₀ lv₀ 1 fun _ _ => rfl
  pre c := iprop(StableHlo.held (c : Thread nD τ) (Pipeline.ucRefs τ sig) (Gen.V11 m (outsA m) c) ∗ R c)
  post c := iprop(StableHlo.held (c : Thread nD τ) (Pipeline.ucRefs τ sig) (Gen.V12 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    rw [Pipeline.ownSems0_none]
    iintro ⟨⟨Hbufs, Hreg, Howes⟩, -, -⟩
    ihave Hs := hsplit $$ Hbufs
    icases Hs with ⟨Harr, Hrest⟩
    imodintro
    isplitl [Harr]
    · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%W, Howes⟩
      iexists W
      isplitr
      · ipureintro; exact fun _ _ => Or.inl trivial
      iexact Howes
    isplitl [Hreg]
    · iexact Hreg
    iexact Hrest
  hin c := by
    rw [show (pdats m 1 c).Φ 0 = Pipeline.ΦA spec1 c from rfl]
    unfold Pipeline.ΦA
    iintro ⟨Hreg, -, Hsc⟩
    isplitl [Hsc]
    · iexact Hsc
    iexact Hreg
  hout c := by
    rw [Pipeline.ownSems0_none, show (pdats m 1 c).Φ (Fin.last _) = Pipeline.ΦA spec1 c from rfl]
    unfold Pipeline.ΦA
    iintro ⟨Hsc, Hreg⟩
    isplitl [Hreg]
    · iexact Hreg
    isplitr
    · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (Y1 m c) ((pdats m 1 c).arrAt · cfg1.N) (hF1 m c) (hrest1 m c)
    rw [Pipeline.unscopedBufs_held] at hjoin
    iintro ⟨Harr, Howes, Hreg, Hrest⟩
    imodintro
    isplitl [Harr Hrest]
    · iapply hjoin
      isplitl [Harr] <;> iassumption
    isplitl [Hreg]
    · iexact Hreg
    unfold Pipeline.Dat.owesAt Pipeline.owesWithin
    icases Howes with ⟨%W, -, Howes⟩
    iexists W
    iexact Howes

/-! ## The launch -/

/-- The launch's ghost element is the pipelines' initial element; no further ghost resource is dealt. -/
theorem launch_own :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  iintro Hu
  imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core beside its buffers makes `R`: the register at its launch state, nothing owed. -/
theorem launch_rest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L₀ lv₀)
      ⊢ (|={Set.univ}=> bigSep Finset.univ (fun c : Dev nD => R (F := F) c) : sProp 𝕄) := by
  refine Pipeline.initEach L₀ lv₀ fun c => ?_
  iintro ⟨⟨-, Howes, -, Hreg, -⟩, -⟩
  imodintro
  isplitl [Hreg]
  · iexists _; iexact Hreg
  iexists ∅
  iexact Howes

/-- At the end nothing is owed. -/
theorem rest_owes (c : Dev nD) :
    R (F := F) c ⊢ (iprop(∃ W, owes (c : Thread nD τ) (0 : CellTallies nD τ sig Unit) W) : sProp 𝕄) := by
  iintro ⟨-, Howes⟩
  iexact Howes

/-- Region 1 is entered from the contents the chain of items names at its entry: the two stages agree there. -/
theorem pre1 (c : Dev nD) :
    iprop(StableHlo.held (c : Thread nD τ) (Pipeline.ucRefs τ sig) (Gen.V11 m (outs m) c) ∗ R (F := F) c) ⊢ (reg1 m).pre c := by
  rw [V11_outs m c]
  exact .rfl

/-! ## The run -/

set_option backward.isDefEq.respectTransparency.types false in
/-- Every weakly fair execution ends, faults nowhere, and leaves the argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Gen.frame_cond m emb₁ () Variants.none L₀ lv₀ (fun _ _ => rfl) ρ (outs m) (pdats m) 0 (fun _ => iprop(emp))
    (initOf (Pipeline.cells cfgs cellOf_inj) (Pipeline.launchToks cfgs cellOf_inj)) launch_own
    (fun _ c => R c) (launch_rest ρ) rest_owes (reg0 m) (fun _ => .rfl) (fun _ => .rfl) (reg1 m) (pre1 m) (fun _ => .rfl)

set_option backward.isDefEq.respectTransparency.types false in
/-- The same run with the result array named. -/
theorem run_value (ρ : Dev nD → PrngReg) :
    θ_run defs (onTc (τ := τ) (main (F := F))) ⟨m, fun _ => 0, ρ⟩ (fun r => ∀ c : Dev nD,
      r.2.mem ((c.tc : Thread nD τ).loc main_v68) = kernelOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Gen.frame_cond_value m emb₁ () Variants.none L₀ lv₀ (fun _ _ => rfl) ρ (outs m) (pdats m) 0 (fun _ => iprop(emp))
    (initOf (Pipeline.cells cfgs cellOf_inj) (Pipeline.launchToks cfgs cellOf_inj)) launch_own
    (fun _ c => R c) (launch_rest ρ) rest_owes (reg0 m) (fun _ => .rfl) (fun _ => .rfl) (reg1 m) (pre1 m) (fun _ => .rfl)

end Cert.Kernel.Hand

end
-- ==== Proof.KI.Region.lean ====
/-
  The two kernel regions of the program, each at a PARAMETER `V`: the contents of the core's buffers when the region is
  entered. Both regions run the same body on a grid of 10 points: at point `t` it reads a block of 5000 rows of the
  long feature rows (5000 × 512), the whole stacked weights (512 × 128) and the bias row (1 × 128), and writes the
  5000 × 128 block `rows · weights + bias` (region 0 then takes the positive part). What the body leaves in the output
  window's buffer is ONE store of the body's value over the whole block, so it is a function `outK_3` of the three
  input blocks; the proof data `datK` record that, with the arrays as `V` has them.
-/
import proofs.«404525_j62474594287730_1_alg».proof.Proof.Gen.KernelIdeal.Launch
import proofs.«404525_j62474594287730_1_alg».proof.Proof.Gen.KernelIdeal.Skeleton
import proofs.«404525_j62474594287730_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The whole-block rectangles the body reads and writes -/

abbrev rX : Rect S5000x512 := Rect.unit (s := S5000x512) ![0, 0] S5000x512.size inb_S5000x512_S5000x512_0_0
abbrev rW : Rect S512x128 := Rect.unit (s := S512x128) ![0, 0] S512x128.size inb_S512x128_S512x128_0_0
abbrev rB : Rect S1x128 := Rect.unit (s := S1x128) ![0, 0] S1x128.size inb_S1x128_S1x128_0_0
abbrev rO : Rect S5000x128 := Rect.unit (s := S5000x128) ![0, 0] S5000x128.size inb_S5000x128_S5000x128_0_0

/-! # Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output block after the body, from the three input blocks: the one store's value over the whole block. -/
def out0_3 (x0 : Vec F S5000x512 .bf16) (x1 : Vec F S512x128 .bf16) (x2 : Vec F S1x128 .f32) : Vec F S5000x128 .f32 :=
  View.canon [⟨rO, k0_pay1 (View.ld x0 rX) (View.ld x1 rW) (View.ld x2 rB)⟩]

/-- Region 0's proof data on core `c`: the arrays as `V` has them; after the body each input's buffer holds its block and
    the output's holds `out0_3` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## What the body finds in each input window's buffer: its block, fetched at the point or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The one store covers the output block -/

theorem cover0_3 (p0 : Vec F S5000x128 .f32) (y : S5000x128.Idx) :
    ∃ pc ∈ ([⟨rO, p0⟩] : List (View.Piece (Elt F) S5000x128 .f32)), y ∈ pc.1.set :=
  View.cover_of_tiled [⟨rO, p0⟩] S5000x128.size (by rfl) y

/-! ## The body's triple on whole staging memrefs -/

set_option maxHeartbeats 1000000 in
/-- The body on whole memrefs, the three inputs' at read contents `x0 x1 x2` and the output's at anything, runs to the
    continuation holding the inputs' as they were and the output's at `out0_3` of them: the load of the output's
    memref before the store reads a value nothing uses. -/
theorem sound_kernel0 (c : Dev nD) (E : Set ℕ) (i : grid0.Coords)
    (arg1 : Memref sig .tc .vmem S5000x512 .bf16) (harg1 : arg1.IsWhole)
    (arg2 : Memref sig .tc .vmem S512x128 .bf16) (harg2 : arg2.IsWhole)
    (arg3 : Memref sig .tc .vmem S1x128 .f32) (harg3 : arg3.IsWhole)
    (arg4 : Memref sig .tc .vmem S5000x128 .f32) (harg4 : arg4.IsWhole)
    (x0 : Vec F S5000x512 .bf16) (x1 : Vec F S512x128 .bf16) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the core's
    debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body of region 0 meets the pipeline's obligation at every point. -/
theorem body_obligation0 (c : Dev nD) : BodyObligation (dat0 (F := F) V c) (defs₀ (F := F)) Variants.none () Set.univ := fun t => by
  rw [bigSep_W0, bigSep_W0]
  exact sound_body0 V c t

/-! # Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block after the body, from the three input blocks. -/
def out1_3 (x0 : Vec F S5000x512 .bf16) (x1 : Vec F S512x128 .bf16) (x2 : Vec F S1x128 .f32) : Vec F S5000x128 .f32 :=
  View.canon [⟨rO, k1_pay1 (View.ld x0 rX) (View.ld x1 rW) (View.ld x2 rB)⟩]

/-- Region 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## What the body finds in each input window's buffer: its block, fetched at the point or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The one store covers the output block -/

theorem cover1_3 (p0 : Vec F S5000x128 .f32) (y : S5000x128.Idx) :
    ∃ pc ∈ ([⟨rO, p0⟩] : List (View.Piece (Elt F) S5000x128 .f32)), y ∈ pc.1.set :=
  View.cover_of_tiled [⟨rO, p0⟩] S5000x128.size (by rfl) y

/-! ## The body's triple on whole staging memrefs -/

set_option maxHeartbeats 1000000 in
/-- The body on whole memrefs, the three inputs' at read contents `x0 x1 x2` and the output's at anything, runs to the
    continuation holding the inputs' as they were and the output's at `out1_3` of them: the load of the output's
    memref before the store reads a value nothing uses. -/
theorem sound_kernel1 (c : Dev nD) (E : Set ℕ) (i : grid1.Coords)
    (arg1 : Memref sig .tc .vmem S5000x512 .bf16) (harg1 : arg1.IsWhole)
    (arg2 : Memref sig .tc .vmem S512x128 .bf16) (harg2 : arg2.IsWhole)
    (arg3 : Memref sig .tc .vmem S1x128 .f32) (harg3 : arg3.IsWhole)
    (arg4 : Memref sig .tc .vmem S5000x128 .f32) (harg4 : arg4.IsWhole)
    (x0 : Vec F S5000x512 .bf16) (x1 : Vec F S512x128 .bf16) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the core's
    debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body of region 1 meets the pipeline's obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole run of the program on a core, item by item: host operations, region 0, host operations, region 1, a last
  host operation. Between two items the core's unscoped buffers hold a known valuation: the launch memory folded
  through the host operations so far, with region 0's output array at what its ten write-backs leave (`X0`) and region
  1's likewise (`X1`). Each region is entered with its arrays split out of those buffers and left with them put back;
  nothing is owed and the kernels have no semaphores of their own. Two consequences are stated: every argument array
  ends as launched (`frame`), and the result array ends at `kernelOut`, the last host operation applied to what region
  1 left (`run_value`).
-/
import proofs.«404525_j62474594287730_1_alg».proof.Proof.KI.Region
import proofs.«404525_j62474594287730_1_alg».proof.Proof.Gen.KernelIdeal.Regions
import proofs.«404525_j62474594287730_1_alg».proof.Proof.KI.RunValue

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The contents between the items -/

/-- Region 0's entry contents, at the core's references. -/
abbrev E0 : (c : Dev nD) → (b : Ref sig .tc) → Buf (Elt F) ((c : Thread nD τ).loc b) := fun c b => Gen.V3 m c b

/-- Region 0's exit contents: its arrays at what the pipeline leaves, every other buffer as entered. -/
def X0 (c : Dev nD) : Valuation τ sig (Elt F) :=
  Pipeline.withArrays spec0 c (Gen.V3 m c) fun w => (dat0 (E0 m) c).arrAt w cfg0.N

/-- The regions' leavings, first stage: only region 0's is known. -/
def outsA : Gen.Outs (F := F) := fun _ r c => X0 m c r

/-- Region 1's entry contents, at the core's references. -/
abbrev E1 : (c : Dev nD) → (b : Ref sig .tc) → Buf (Elt F) ((c : Thread nD τ).loc b) := fun c b => Gen.V11 m (outsA m) c b

/-- Region 1's exit contents. -/
def X1 (c : Dev nD) : Valuation τ sig (Elt F) :=
  Pipeline.withArrays spec1 c (Gen.V11 m (outsA m) c) fun w => (dat1 (E1 m) c).arrAt w cfg1.N

/-- The regions' leavings: after item 3 region 0's, after item 11 region 1's. -/
def outs : Gen.Outs (F := F) := fun j r c => if j = 4 then X0 m c r else X1 m c r

/-- Region 0's exit contents at one of its arrays. -/
theorem X0_arr (c : Dev nD) (w : Fin cfg0.W) :
    X0 m c (Proc.devRef .tc (Pipeline.arrRef spec0 w)) = (dat0 (E0 m) c).arrAt w cfg0.N := by
  unfold X0; exact Pipeline.withArrays_arr spec0 launch0.win.arr_inj c _ _ w

/-- Region 1's exit contents at one of its arrays. -/
theorem X1_arr (c : Dev nD) (w : Fin cfg1.W) :
    X1 m c (Proc.devRef .tc (Pipeline.arrRef spec1 w)) = (dat1 (E1 m) c).arrAt w cfg1.N := by
  unfold X1; exact Pipeline.withArrays_arr spec1 launch1.win.arr_inj c _ _ w

/-- What region 0 leaves in its output array is the proof data's final array. -/
theorem outs4 (c : Dev nD) : outs m 4 main_v32 c = (dat0 (E0 m) c).arrAt 3 cfg0.N := by
  unfold outs; rw [if_pos rfl]; exact X0_arr m c 3

/-- The contents at region 1's entry depend on the regions' leavings only through region 0's output array. -/
theorem V11_congr (o o' : Gen.Outs (F := F)) (c : Dev nD) (h : o 4 main_v32 c = o' 4 main_v32 c) :
    Gen.V11 m o c = Gen.V11 m o' c := by
  unfold Gen.V11 Gen.V10 Gen.V9 Gen.V8 Gen.V7 Gen.V6 Gen.V5 Gen.V4
  rw [h]

/-- Up to region 1's entry the two stages agree. -/
theorem V11_outs (c : Dev nD) : Gen.V11 m (outs m) c = Gen.V11 m (outsA m) c :=
  V11_congr m _ _ c (by unfold outs outsA; rw [if_pos rfl])

/-- What region 1 leaves in its output array is the proof data's final array. -/
theorem outs12 (c : Dev nD) : outs m 12 main_v67 c = (dat1 (E1 m) c).arrAt 3 cfg1.N := by
  unfold outs; rw [if_neg (by decide)]; exact X1_arr m c 3

/-- The result array at the end of the run. -/
def kernelOut (c : Dev nD) : Buf (Elt F) ((c.tc : Thread nD τ).loc main_v68) := Gen.V13 m (outs m) c main_v68

/-! ## The regions' exits, array by array -/

/-- Region 0's output array is `main_v32`, region 1's is `main_v67`. -/
theorem arrRef0_3 : Pipeline.arrRef spec0 3 = main_v32 := rfl
theorem arrRef1_3 : Pipeline.arrRef spec1 3 = main_v67 := rfl

/-- Region 0's exit contents, at the core's references. -/
abbrev Y0 : (c : Dev nD) → (b : Ref sig .tc) → Buf (Elt F) ((c : Thread nD τ).loc b) := fun c b => Gen.V4 m (outs m) c b

/-- Region 1's exit contents, at the core's references. -/
abbrev Y1 : (c : Dev nD) → (b : Ref sig .tc) → Buf (Elt F) ((c : Thread nD τ).loc b) := fun c b => Gen.V12 m (outs m) c b

/-- An input array of region 0 is left as entered. -/
theorem hF0_in (c : Dev nD) (w : Fin cfg0.W) (hin : (cfg0.win w).isOut = false)
    (hne : Pipeline.arrRef spec0 w ∉ ([main_v32] : List (Ref sig .tc))) :
    (dat0 (E0 m) c).arrAt w cfg0.N = Y0 m c (Pipeline.arrRef spec0 w) :=
  ((dat0 (E0 m) c).arrAt_in w hin _).trans
    ((A_eq0 (E0 m) c w).trans (Gen.V4_of m (outs m) c (Pipeline.arrRef spec0 w) hne).symm)

/-- At region 0's exit each of its arrays holds what the pipeline leaves. -/
theorem hF0 (c : Dev nD) (w : Fin cfg0.W) : (dat0 (E0 m) c).arrAt w cfg0.N = Y0 m c (Pipeline.arrRef spec0 w) :=
  match w with
  | ⟨0, _⟩ => hF0_in m c 0 rfl (by decide)
  | ⟨1, _⟩ => hF0_in m c 1 rfl (by decide)
  | ⟨2, _⟩ => hF0_in m c 2 rfl (by decide)
  | ⟨3, _⟩ => (outs4 m c).symm.trans (Function.update_self (f := Gen.V3 m c) (Proc.devRef .tc main_v32) (outs m 4 main_v32 c)).symm

/-- Off region 0's arrays nothing changes. -/
theorem hrest0 (c : Dev nD) : ∀ b, b ∉ Finset.univ.image (Pipeline.arrRef spec0) → Y0 m c b = E0 m c b :=
  fun b hb => Gen.V4_of m (outs m) c b fun h =>
    hb (Finset.mem_image.mpr ⟨3, Finset.mem_univ _, (List.mem_singleton.mp h).symm⟩)

/-- An input array of region 1 is left as entered. -/
theorem hF1_in (c : Dev nD) (w : Fin cfg1.W) (hin : (cfg1.win w).isOut = false)
    (hne : Pipeline.arrRef spec1 w ∉ ([main_v67] : List (Ref sig .tc))) :
    (dat1 (E1 m) c).arrAt w cfg1.N = Y1 m c (Pipeline.arrRef spec1 w) :=
  ((dat1 (E1 m) c).arrAt_in w hin _).trans
    ((A_eq1 (E1 m) c w).trans
      (((Gen.V12_of m (outs m) c (Pipeline.arrRef spec1 w) hne).trans (congrFun (V11_outs m c) _)).symm))

/-- At region 1's exit each of its arrays holds what the pipeline leaves. -/
theorem hF1 (c : Dev nD) (w : Fin cfg1.W) : (dat1 (E1 m) c).arrAt w cfg1.N = Y1 m c (Pipeline.arrRef spec1 w) :=
  match w with
  | ⟨0, _⟩ => hF1_in m c 0 rfl (by decide)
  | ⟨1, _⟩ => hF1_in m c 1 rfl (by decide)
  | ⟨2, _⟩ => hF1_in m c 2 rfl (by decide)
  | ⟨3, _⟩ => (outs12 m c).symm.trans (Function.update_self (f := Gen.V11 m (outs m) c) (Proc.devRef .tc main_v67) (outs m 12 main_v67 c)).symm

/-- Off region 1's arrays nothing changes. -/
theorem hrest1 (c : Dev nD) : ∀ b, b ∉ Finset.univ.image (Pipeline.arrRef spec1) → Y1 m c b = E1 m c b :=
  fun b hb => (Gen.V12_of m (outs m) c b fun h =>
    hb (Finset.mem_image.mpr ⟨3, Finset.mem_univ _, (List.mem_singleton.mp h).symm⟩)).trans (congrFun (V11_outs m c) _)

/-! ## The proof data and what rides beside the buffers -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c

/-- No core owes another anything: no level is assigned. -/
abbrev L₀ : GSem nD τ sig → Finset Unit := fun _ => ∅
abbrev lv₀ : GSem nD τ sig → Unit → ℕ := fun _ _ => 0

/-- Beside the buffers a core keeps its generator register, at some state, and owes nothing. -/
abbrev R (c : Dev nD) : sProp 𝕄 :=
  iprop((∃ r, prngReg c r) ∗ ∃ W, owes (c : Thread nD τ) (0 : CellTallies nD τ sig Unit) W)

/-! ## The regions as segments -/

set_option backward.isDefEq.respectTransparency.types false in
/-- Region 0: entered with every unscoped buffer at `V3`, left with them at `V4`. At the entry its arrays are split
    out of the unscoped buffers, at the exit they are put back at what the write-backs leave; the generator register
    goes through the region's invariant; nothing is owed and the kernel has no semaphore of its own. -/
def reg0 : Pipeline.RegionSeg (pcfgs (F := F)) adm (pdats m) () defs₀ Variants.none L₀ lv₀ 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L₀ lv₀ 0 fun _ _ => rfl
  pre c := iprop(StableHlo.held (c : Thread nD τ) (Pipeline.ucRefs τ sig) (Gen.V3 m c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    rw [Pipeline.ownSems0_none]
    iintro ⟨⟨Hbufs, Hreg, Howes⟩, -, -⟩
    ihave Hs := hsplit $$ Hbufs
    icases Hs with ⟨Harr, Hrest⟩
    imodintro
    isplitl [Harr]
    · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%W, Howes⟩
      iexists W
      isplitr
      · ipureintro; exact fun _ _ => Or.inl trivial
      iexact Howes
    isplitl [Hreg]
    · iexact Hreg
    iexact Hrest
  hin c := by
    rw [show (pdats m 0 c).Φ 0 = Pipeline.ΦA spec0 c from rfl]
    unfold Pipeline.ΦA
    iintro ⟨Hreg, -, Hsc⟩
    isplitl [Hsc]
    · iexact Hsc
    iexact Hreg
  hout c := by
    rw [Pipeline.ownSems0_none, show (pdats m 0 c).Φ (Fin.last _) = Pipeline.ΦA spec0 c from rfl]
    unfold Pipeline.ΦA
    iintro ⟨Hsc, Hreg⟩
    isplitl [Hreg]
    · iexact Hreg
    isplitr
    · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (Y0 m c) ((pdats m 0 c).arrAt · cfg0.N) (hF0 m c) (hrest0 m c)
    rw [Pipeline.unscopedBufs_held] at hjoin
    iintro ⟨Harr, Howes, Hreg, Hrest⟩
    imodintro
    isplitl [Harr Hrest]
    · iapply hjoin
      isplitl [Harr] <;> iassumption
    isplitl [Hreg]
    · iexact Hreg
    unfold Pipeline.Dat.owesAt Pipeline.owesWithin
    icases Howes with ⟨%W, -, Howes⟩
    iexists W
    iexact Howes

set_option backward.isDefEq.respectTransparency.types false in
/-- Region 1: entered with every unscoped buffer at `V11`, left with them at `V12`; the same protocol as region 0. -/
def reg1 : Pipeline.RegionSeg (pcfgs (F := F)) adm (pdats m) () defs₀ Variants.none L₀ lv₀ 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L₀ lv₀ 1 fun _ _ => rfl
  pre c := iprop(StableHlo.held (c : Thread nD τ) (Pipeline.ucRefs τ sig) (Gen.V11 m (outsA m) c) ∗ R c)
  post c := iprop(StableHlo.held (c : Thread nD τ) (Pipeline.ucRefs τ sig) (Gen.V12 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    rw [Pipeline.ownSems0_none]
    iintro ⟨⟨Hbufs, Hreg, Howes⟩, -, -⟩
    ihave Hs := hsplit $$ Hbufs
    icases Hs with ⟨Harr, Hrest⟩
    imodintro
    isplitl [Harr]
    · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%W, Howes⟩
      iexists W
      isplitr
      · ipureintro; exact fun _ _ => Or.inl trivial
      iexact Howes
    isplitl [Hreg]
    · iexact Hreg
    iexact Hrest
  hin c := by
    rw [show (pdats m 1 c).Φ 0 = Pipeline.ΦA spec1 c from rfl]
    unfold Pipeline.ΦA
    iintro ⟨Hreg, -, Hsc⟩
    isplitl [Hsc]
    · iexact Hsc
    iexact Hreg
  hout c := by
    rw [Pipeline.ownSems0_none, show (pdats m 1 c).Φ (Fin.last _) = Pipeline.ΦA spec1 c from rfl]
    unfold Pipeline.ΦA
    iintro ⟨Hsc, Hreg⟩
    isplitl [Hreg]
    · iexact Hreg
    isplitr
    · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (Y1 m c) ((pdats m 1 c).arrAt · cfg1.N) (hF1 m c) (hrest1 m c)
    rw [Pipeline.unscopedBufs_held] at hjoin
    iintro ⟨Harr, Howes, Hreg, Hrest⟩
    imodintro
    isplitl [Harr Hrest]
    · iapply hjoin
      isplitl [Harr] <;> iassumption
    isplitl [Hreg]
    · iexact Hreg
    unfold Pipeline.Dat.owesAt Pipeline.owesWithin
    icases Howes with ⟨%W, -, Howes⟩
    iexists W
    iexact Howes

/-! ## The launch -/

/-- The launch's ghost element is the pipelines' initial element; no further ghost resource is dealt. -/
theorem launch_own :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  iintro Hu
  imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core beside its buffers makes `R`: the register at its launch state, nothing owed. -/
theorem launch_rest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L₀ lv₀)
      ⊢ (|={Set.univ}=> bigSep Finset.univ (fun c : Dev nD => R (F := F) c) : sProp 𝕄) := by
  refine Pipeline.initEach L₀ lv₀ fun c => ?_
  iintro ⟨⟨-, Howes, -, Hreg, -⟩, -⟩
  imodintro
  isplitl [Hreg]
  · iexists _; iexact Hreg
  iexists ∅
  iexact Howes

/-- At the end nothing is owed. -/
theorem rest_owes (c : Dev nD) :
    R (F := F) c ⊢ (iprop(∃ W, owes (c : Thread nD τ) (0 : CellTallies nD τ sig Unit) W) : sProp 𝕄) := by
  iintro ⟨-, Howes⟩
  iexact Howes

/-- Region 1 is entered from the contents the chain of items names at its entry: the two stages agree there. -/
theorem pre1 (c : Dev nD) :
    iprop(StableHlo.held (c : Thread nD τ) (Pipeline.ucRefs τ sig) (Gen.V11 m (outs m) c) ∗ R (F := F) c) ⊢ (reg1 m).pre c := by
  rw [V11_outs m c]
  exact .rfl

/-! ## The run -/

set_option backward.isDefEq.respectTransparency.types false in
/-- Every weakly fair execution ends, faults nowhere, and leaves the argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Gen.frame_cond m emb₁ () Variants.none L₀ lv₀ (fun _ _ => rfl) ρ (outs m) (pdats m) 0 (fun _ => iprop(emp))
    (initOf (Pipeline.cells cfgs cellOf_inj) (Pipeline.launchToks cfgs cellOf_inj)) launch_own
    (fun _ c => R c) (launch_rest ρ) rest_owes (reg0 m) (fun _ => .rfl) (fun _ => .rfl) (reg1 m) (pre1 m) (fun _ => .rfl)

set_option backward.isDefEq.respectTransparency.types false in
/-- The same run with the result array named. -/
theorem run_value (ρ : Dev nD → PrngReg) :
    θ_run defs (onTc (τ := τ) (main (F := F))) ⟨m, fun _ => 0, ρ⟩ (fun r => ∀ c : Dev nD,
      r.2.mem ((c.tc : Thread nD τ).loc main_v68) = kernelOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Gen.frame_cond_value m emb₁ () Variants.none L₀ lv₀ (fun _ _ => rfl) ρ (outs m) (pdats m) 0 (fun _ => iprop(emp))
    (initOf (Pipeline.cells cfgs cellOf_inj) (Pipeline.launchToks cfgs cellOf_inj)) launch_own
    (fun _ c => R c) (launch_rest ρ) rest_owes (reg0 m) (fun _ => .rfl) (fun _ => .rfl) (reg1 m) (pre1 m) (fun _ => .rfl)

end Cert.KernelIdeal.Hand

end
-- ==== Proof.LibGatherScatter.lean ====
/-
  The three index operations of one graph-convolution layer, READ AT AN INDEX, over generic extents: `N` rows (nodes),
  `E` start indices (edges), rows of width `D`.

  * the row gather `[N, D] → [E, D]` at a column `[E, 1]` of start indices (`gathD`): result `(e, q)` is the
    operand at `(row (idx (e, 0)), q)`;
  * the entry gather `[N] → [E]` at the same column (`gath1`): result `e` is the operand at `row (idx (e, 0))`;
    `row` is ONE function of the index word for both: the word read signed and clamped into `[0, N − 1]`;
  * the accumulating scatter `[E, D] → [N, D]` (`scatD`) and `[E] → [N]` (`scat1`) at a column of scatter indices:
    update `(e, q')` lands on `(i, q)` exactly when `q' = q` and the index word of `e`, read signed and NOT clamped,
    is `i`; hence at the ideal instance the scatter's value at `(i, q)` is the operand's plus the sum, over the edges
    `e` whose word is `i`, of the updates `(e, q)`.

  The dimension-number records are written out here with their well-formedness as an argument, so that a program's own
  record of the same fields is one of these by unfolding.
-/
import Idealize.ShloMosaic.PureOps.Ideal
import Idealize.ShloMosaic.Lib.ValueIdx

open scoped BigOperators

namespace Cert.Proof.GS

open Idealize.ShloMosaic Idealize.ShloMosaic.ValueIdx

/-! ## The records -/

/-- Row gather: operand `[N, D]`, start indices `[E, 1]`, result `[E, D]`; axis 0 collapsed and start-indexed, axis 1
    an offset axis of full width. -/
abbrev gathD (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry gather: operand `[N]`, start indices `[E, 1]`, result `[E]`; the one axis collapsed and start-indexed. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Row scatter: operand `[N, D]`, scatter indices `[E, 1]`, updates `[E, D]`; axis 0 inserted and scatter-indexed,
    axis 1 the window. -/
abbrev scatD (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Entry scatter: operand `[N]`, scatter indices `[E, 1]`, updates `[E]`; no window. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The gathers at an index -/

/-- The row a gather reads for an index word: the word as a signed integer, clamped into `[0, N − 1]` (a negative
    word reads row 0, a word past the end the last row). -/
def row {N : Nat} (hN : 0 < N) {w : Nat} (b : BitVec w) : Fin N := ⟨min b.toInt.toNat (N - 1), by omega⟩

/-- A word whose signed value is a row number is sent to that row: the clamp leaves it alone. -/
theorem row_of_toInt {N : Nat} (hN : 0 < N) {w : Nat} (b : BitVec w) (i : Fin N) (h : b.toInt = (i.val : Int)) :
    row hN b = i := by
  refine Fin.ext ?_
  show min b.toInt.toNat (N - 1) = i.val
  rw [h, Int.toNat_natCast]
  have := i.isLt
  omega

variable {α : Type}

/-- THE ROW GATHER AT `(e, q)`: the operand at row `row (idx (e, 0))`, column `q`. On axis 0 (collapsed, no batching)
    the operand coordinate is the clamped start; on axis 1 (not start-indexed) it is the offset coordinate `q`. -/
theorem gather_gathD_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (gathD N E D wf) x idx (ix2 e q) = x (ix2 (row hN (idx (ix2 e (0 : Fin 1)))) q) := by
  unfold Host.gather
  congr 1
  funext a
  refine Fin.ext ?_
  match a with
  | ⟨0, _⟩ =>
    show (gathD N E D wf).start (ix2 e q) idx 0 + (gathD N E D wf).batchCoord (ix2 e q) 0
      + (gathD N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gathD N E D wf).startIndexMap from List.mem_singleton.mpr rfl)]
    show min (idx _).toInt.toNat (N - 1) = min (idx (ix2 e (0 : Fin 1))).toInt.toNat (N - 1)
    congr 3
    congr 1
    funext b
    refine Fin.ext ?_
    match b with
    | ⟨0, _⟩ => rfl
    | ⟨1, _⟩ => rfl
  | ⟨1, _⟩ =>
    show (gathD N E D wf).start (ix2 e q) idx 1 + (gathD N E D wf).batchCoord (ix2 e q) 1
      + (gathD N E D wf).offCoord (ix2 e q) 1 = q.val
    rw [GatherDims.batchCoord_eq_zero _ _ _ List.not_mem_nil]
    have h1 : (1 : Fin 2) ∉ (gathD N E D wf).startIndexMap :=
      show (1 : Fin 2) ∉ ([0] : List (Fin 2)) by decide
    have hk : (1 : Fin 2) ∈ (gathD N E D wf).sKept :=
      (GatherDims.mem_sKept _ _).mpr ⟨show (1 : Fin 2) ∉ ([0] : List (Fin 2)) by decide, List.not_mem_nil⟩
    unfold GatherDims.start GatherDims.offCoord
    rw [dif_neg h1, dif_pos hk]
    simp only [Nat.zero_add]
    rfl

/-- THE ENTRY GATHER AT `e`: the operand at `row (idx (e, 0))`, the same row the row gather reads for that edge. -/
theorem gather_gath1_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (gath1 N E wf) v idx (ix1 e) = v (ix1 (row hN (idx (ix2 e (0 : Fin 1))))) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ (gath1 N E wf).startIndexMap from List.mem_singleton.mpr rfl)]
  show min (idx _).toInt.toNat (N - 1) = min (idx (ix2 e (0 : Fin 1))).toInt.toNat (N - 1)
  congr 3
  congr 1
  funext b
  refine Fin.ext ?_
  match b with
  | ⟨0, _⟩ => rfl
  | ⟨1, _⟩ => rfl

/-! ## Where a scattered update lands -/

/-- For any scatter: an update lands on operand index `r` exactly when, on every axis, its signed start plus its
    window coordinate is `r`'s coordinate (if the sum leaves the operand on some axis the update is dropped, and no
    `r` has that coordinate). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro hh a
      have := congrFun (Option.some.inj hh) a
      rw [← this]
      exact (Int.toNat_of_nonneg (h a).1).symm
    · intro hall
      congr 1
      funext a
      refine Fin.ext ?_
      show (d.start j idx a + (d.window j a : Int)).toNat = (r a).val
      rw [hall a]; exact Int.toNat_natCast _
  · next h =>
    constructor
    · intro hh; cases hh
    · intro hall
      exfalso; apply h; intro a
      rw [hall a]
      exact ⟨Int.natCast_nonneg _, by exact_mod_cast (r a).isLt⟩

section ScatD
variable {N E D w : Nat} (wf : ScatterDims.WF ⟨2, ![N, D]⟩ ⟨2, ![E, 1]⟩ ⟨2, ![E, D]⟩ [1] [0] [0] 1)
  (idx : IVec ⟨2, ![E, 1]⟩ w) (e : Fin E) (q' : Fin D)

/-- Row scatter, axis 0: the start is the edge's index word read signed … -/
theorem scatD_start0 : (scatD N E D wf).start (ix2 e q') idx 0 = (idx (ix2 e (0 : Fin 1))).toInt := by
  unfold ScatterDims.start
  rw [dif_pos (show (0 : Fin 2) ∈ (scatD N E D wf).scatterDimsToOperandDims from List.mem_singleton.mpr rfl)]
  congr 2
  funext b
  refine Fin.ext ?_
  match b with
  | ⟨0, _⟩ => rfl
  | ⟨1, _⟩ => rfl

/-- … and there is no window coordinate (the axis is inserted). -/
theorem scatD_window0 : (scatD N E D wf).window (ix2 e q') 0 = 0 := by
  unfold ScatterDims.window
  rw [dif_neg]
  intro h
  have : (0 : Fin 2) ∉ ([0] : List (Fin 2)) := by
    simpa [ScatterDims.sKept, Shape.kept, List.mem_filter] using h
  exact this (List.mem_singleton.mpr rfl)

/-- Row scatter, axis 1: not scatter-indexed, start 0 … -/
theorem scatD_start1 : (scatD N E D wf).start (ix2 e q') idx 1 = 0 := by
  unfold ScatterDims.start
  rw [dif_neg (show (1 : Fin 2) ∉ ([0] : List (Fin 2)) by decide)]

/-- … and the window coordinate is the update's column. -/
theorem scatD_window1 : (scatD N E D wf).window (ix2 e q') 1 = q'.val := by
  unfold ScatterDims.window
  have hk : (1 : Fin 2) ∈ (scatD N E D wf).sKept := by
    simp [ScatterDims.sKept, Shape.kept, List.mem_filter]
  rw [dif_pos hk]
  rfl

/-- WHERE A ROW UPDATE LANDS: update `(e, q')` lands on `(i, q)` iff `q' = q` and the edge's index word, read signed,
    is `i`. -/
theorem scatD_resultIdx?_iff (i : Fin N) (q : Fin D) :
    (scatD N E D wf).resultIdx? (ix2 e q') idx = some (ix2 i q)
      ↔ q' = q ∧ (idx (ix2 e (0 : Fin 1))).toInt = (i.val : Int) := by
  rw [resultIdx?_eq_some_iff]
  constructor
  · intro h
    have h0 : (scatD N E D wf).start (ix2 e q') idx 0 + ((scatD N E D wf).window (ix2 e q') 0 : Int) = (i.val : Int) :=
      h 0
    have h1 : (scatD N E D wf).start (ix2 e q') idx 1 + ((scatD N E D wf).window (ix2 e q') 1 : Int) = (q.val : Int) :=
      h 1
    rw [scatD_start0, scatD_window0] at h0
    rw [scatD_start1, scatD_window1] at h1
    refine ⟨Fin.ext ?_, ?_⟩
    · have : ((q'.val : Int)) = (q.val : Int) := by simpa using h1
      exact_mod_cast this
    · simpa using h0
  · rintro ⟨rfl, ht⟩ a
    match a with
    | ⟨0, _⟩ =>
      show (scatD N E D wf).start (ix2 e q') idx 0 + ((scatD N E D wf).window (ix2 e q') 0 : Int) = (i.val : Int)
      rw [scatD_start0, scatD_window0, ht]; simp
    | ⟨1, _⟩ =>
      show (scatD N E D wf).start (ix2 e q') idx 1 + ((scatD N E D wf).window (ix2 e q') 1 : Int) = (q'.val : Int)
      rw [scatD_start1, scatD_window1]; simp

end ScatD

section Scat1
variable {N E w : Nat} (wf : ScatterDims.WF ⟨1, ![N]⟩ ⟨2, ![E, 1]⟩ ⟨1, ![E]⟩ [] [0] [0] 1)
  (idx : IVec ⟨2, ![E, 1]⟩ w) (e : Fin E)

/-- Entry scatter: the start is the edge's index word read signed … -/
theorem scat1_start0 : (scat1 N E wf).start (ix1 e) idx 0 = (idx (ix2 e (0 : Fin 1))).toInt := by
  unfold ScatterDims.start
  rw [dif_pos (show (0 : Fin 1) ∈ (scat1 N E wf).scatterDimsToOperandDims from List.mem_singleton.mpr rfl)]
  congr 2
  funext b
  refine Fin.ext ?_
  match b with
  | ⟨0, _⟩ => rfl
  | ⟨1, _⟩ => rfl

/-- … and there is no window. -/
theorem scat1_window0 : (scat1 N E wf).window (ix1 e) 0 = 0 := by
  unfold ScatterDims.window
  rw [dif_neg]
  intro h
  have : (0 : Fin 1) ∉ ([0] : List (Fin 1)) := by
    simpa [ScatterDims.sKept, Shape.kept, List.mem_filter] using h
  exact this (List.mem_singleton.mpr rfl)

/-- WHERE AN ENTRY UPDATE LANDS: update `e` lands on `i` iff the edge's index word, read signed, is `i`. -/
theorem scat1_resultIdx?_iff (i : Fin N) :
    (scat1 N E wf).resultIdx? (ix1 e) idx = some (ix1 i) ↔ (idx (ix2 e (0 : Fin 1))).toInt = (i.val : Int) := by
  rw [resultIdx?_eq_some_iff]
  constructor
  · intro h
    have h0 : (scat1 N E wf).start (ix1 e) idx 0 + ((scat1 N E wf).window (ix1 e) 0 : Int) = (i.val : Int) := h 0
    rw [scat1_start0, scat1_window0] at h0
    simpa using h0
  · intro ht a
    obtain rfl : a = 0 := Subsingleton.elim _ _
    show (scat1 N E wf).start (ix1 e) idx 0 + ((scat1 N E wf).window (ix1 e) 0 : Int) = (i.val : Int)
    rw [scat1_start0, scat1_window0, ht]; simp

end Scat1

/-! ## The accumulating scatter at an index, at the ideal instance -/

section ScatterAddAt
open Finset

/-- THE ROW SCATTER-ADD AT `(i, q)`: the operand's entry plus the sum, over the edges `e` whose index word read signed
    is `i`, of the update entries `(e, q)`. The updates that land on `(i, q)` are the `(e, q')` with `q' = q` and word
    `i`: the sum over the pairs collapses to the sum over the edges. -/
theorem scatterAdd_scatD_apply {N E D w : Nat} (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (i : Fin N) (q : Fin D) :
    Host.scatterAdd (scatD N E D wf) x idx upd (ix2 i q)
      = x (ix2 i q) + ∑ e ∈ univ.filter (fun e : Fin E => (idx (ix2 e (0 : Fin 1))).toInt = (i.val : Int)), upd (ix2 e q) := by
  classical
  show x (ix2 i q) + ∑ j ∈ univ.filter (fun j => (scatD N E D wf).resultIdx? j idx = some (ix2 i q)), upd j = _
  congr 1
  rw [Finset.sum_filter, sum_idx2, Finset.sum_filter]
  refine Finset.sum_congr rfl fun e _ => ?_
  simp only [scatD_resultIdx?_iff]
  by_cases ht : (idx (ix2 e (0 : Fin 1))).toInt = (i.val : Int)
  · simp [ht]
  · simp [ht]

/-- THE ENTRY SCATTER-ADD AT `i`: the operand's entry plus the sum, over the edges whose index word read signed is
    `i`, of their updates. -/
theorem scatterAdd_scat1_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (scat1 N E wf) x idx upd (ix1 i)
      = x (ix1 i) + ∑ e ∈ univ.filter (fun e : Fin E => (idx (ix2 e (0 : Fin 1))).toInt = (i.val : Int)), upd (ix1 e) := by
  classical
  show x (ix1 i) + ∑ j ∈ univ.filter (fun j => (scat1 N E wf).resultIdx? j idx = some (ix1 i)), upd j = _
  congr 1
  refine Finset.sum_bij' (fun j _ => (j 0 : Fin E)) (fun e _ => ix1 e) ?_ ?_ ?_ ?_ ?_
  · intro j hj
    have h2 := (Finset.mem_filter.mp hj).2
    rw [eq_ix1 j] at h2
    exact Finset.mem_filter.mpr ⟨Finset.mem_univ _, (scat1_resultIdx?_iff wf idx _ i).mp h2⟩
  · intro e he
    exact Finset.mem_filter.mpr ⟨Finset.mem_univ _, (scat1_resultIdx?_iff wf idx e i).mpr (Finset.mem_filter.mp he).2⟩
  · intro j _; exact (eq_ix1 j).symm
  · intro e _; rfl
  · intro j _; exact congrArg upd (eq_ix1 j)

end ScatterAddAt

end Cert.Proof.GS
-- ==== Proof.Spec.lean ====
/-
  One relational graph-convolution layer with mean aggregation, written in the two arrangements in which it is
  computed, over 50000 nodes with 128 input features, 800000 edges and 3 relations.

  Data: node features `x n f`; per edge `e` a source node `s e`, a target node `d e` and a relation `t e`;
  per relation a weight matrix `W r`, a root matrix `root` and a bias `b`, to `H` output features.

  * AGGREGATE FIRST (`layerK`): the source features of the edges with joint key `3 · target + relation = g` are
    summed and divided by their number (at least one), giving 3 mean rows per node; these are laid beside the node's
    own row as one row of 4 · 128 entries, and ONE contraction with the 4 stacked weight matrices follows.
  * TRANSFORM FIRST (`layerR`): per relation, every node's row is multiplied by the relation's matrix, the edges
    into a node carry their source's transformed row times the 0/1 indicator of the relation, and the sum is divided
    by the number of such edges (at least one); the three means are added, one after the other, to the root term.

  Both are stated on the extended reals with the quotient the programs use (`Ideal.div`); they agree when every
  entry is a real number (the sum of products distributes), which a separate module proves.
-/
import Idealize.ShloMosaic.PureOps.Ideal
import Idealize.ShloMosaic.Lib.ValueIdx
import proofs.«404525_j62474594287730_1_alg».proof.Proof.LibGatherScatter

open scoped BigOperators

noncomputable section

namespace Cert.Proof.Spec

open Idealize.ShloMosaic Idealize.ShloMosaic.ValueIdx Finset

/-! ## The edges, read off the index arrays -/

/-- The source node of edge `e`: row 0 of the edge array, its word read signed and clamped to a node number. -/
def srcOf (ei : IVec ⟨2, ![2, 800000]⟩ 32) (e : Fin 800000) : Fin 50000 :=
  Cert.Proof.GS.row (N := 50000) (by decide) (ei (ix2 (0 : Fin 2) e))

/-- The target node of edge `e`: row 1 of the edge array. -/
def dstOf (ei : IVec ⟨2, ![2, 800000]⟩ 32) (e : Fin 800000) : Fin 50000 :=
  Cert.Proof.GS.row (N := 50000) (by decide) (ei (ix2 (1 : Fin 2) e))

/-- The relation of edge `e`. -/
def relOf (et : IVec ⟨1, ![800000]⟩ 32) (e : Fin 800000) : Fin 3 :=
  Cert.Proof.GS.row (N := 3) (by decide) (et (ix1 e))

/-- Every index word is in its range: the clamps above change nothing. -/
structure InRange (ei : IVec ⟨2, ![2, 800000]⟩ 32) (et : IVec ⟨1, ![800000]⟩ 32) : Prop where
  src : ∀ e : Fin 800000, (ei (ix2 (0 : Fin 2) e)).toInt = ((srcOf ei e).val : Int)
  dst : ∀ e : Fin 800000, (ei (ix2 (1 : Fin 2) e)).toInt = ((dstOf ei e).val : Int)
  rel : ∀ e : Fin 800000, (et (ix1 e)).toInt = ((relOf et e).val : Int)

/-! ## The layer -/

variable {H : ℕ}

/-- Between the layers: the positive part, or nothing. -/
def act (relu : Bool) (v : EReal) : EReal := if relu then max v 0 else v

/-- A row times a matrix: entry `h` of node `n`'s row under `w`. -/
def lin (x : Fin 50000 → Fin 128 → EReal) (w : Fin 128 → Fin H → EReal) (n : Fin 50000) (h : Fin H) : EReal :=
  ∑ f : Fin 128, x n f * w f h

/-! ### Aggregate first -/

/-- The edges whose joint key `3 · target + relation` is `g`. -/
def keyed (d : Fin 800000 → Fin 50000) (t : Fin 800000 → Fin 3) (g : Fin 150000) : Finset (Fin 800000) :=
  univ.filter fun e => 3 * (d e).val + (t e).val = g.val

/-- The mean source feature `f` over the edges of key `g` (the sum itself where there is at most one edge). -/
def meanK (x : Fin 50000 → Fin 128 → EReal) (s d : Fin 800000 → Fin 50000) (t : Fin 800000 → Fin 3)
    (g : Fin 150000) (f : Fin 128) : EReal :=
  Ideal.div (∑ e ∈ keyed d t g, x (s e) f) (max (∑ _e ∈ keyed d t g, (1 : EReal)) 1)

/-- Node `n`'s long row: its own 128 features, then the 3 · 128 mean features, relation by relation. -/
def xcat (x : Fin 50000 → Fin 128 → EReal) (s d : Fin 800000 → Fin 50000) (t : Fin 800000 → Fin 3)
    (n : Fin 50000) (k : Fin 512) : EReal :=
  if hk : k.val < 128 then x n ⟨k.val, hk⟩
  else meanK x s d t ⟨3 * n.val + (k.val - 128) / 128, by have := k.isLt; have := n.isLt; omega⟩
    ⟨(k.val - 128) % 128, Nat.mod_lt _ (by decide)⟩

/-- The stacked weights: the root matrix, then the 3 relation matrices. -/
def wcat (W : Fin 3 → Fin 128 → Fin H → EReal) (root : Fin 128 → Fin H → EReal) (k : Fin 512) (h : Fin H) : EReal :=
  if hk : k.val < 128 then root ⟨k.val, hk⟩ h
  else W ⟨(k.val - 128) / 128, by have := k.isLt; omega⟩ ⟨(k.val - 128) % 128, Nat.mod_lt _ (by decide)⟩ h

/-- The layer, aggregate first: one contraction of the long row with the stacked weights, plus the bias. -/
def layerK (relu : Bool) (x : Fin 50000 → Fin 128 → EReal) (s d : Fin 800000 → Fin 50000) (t : Fin 800000 → Fin 3)
    (W : Fin 3 → Fin 128 → Fin H → EReal) (root : Fin 128 → Fin H → EReal) (b : Fin H → EReal)
    (n : Fin 50000) (h : Fin H) : EReal :=
  act relu ((∑ k : Fin 512, xcat x s d t n k * wcat W root k h) + b h)

/-! ### Transform first -/

/-- The edges into node `n`. -/
def into (d : Fin 800000 → Fin 50000) (n : Fin 50000) : Finset (Fin 800000) := univ.filter fun e => d e = n

/-- The 0/1 indicator that edge `e` has relation `r`. -/
def mask (t : Fin 800000 → Fin 3) (r : Fin 3) (e : Fin 800000) : EReal := if t e = r then 1 else 0

/-- Relation `r`'s mean message into node `n`, entry `h`. -/
def msgR (x : Fin 50000 → Fin 128 → EReal) (s d : Fin 800000 → Fin 50000) (t : Fin 800000 → Fin 3)
    (w : Fin 128 → Fin H → EReal) (r : Fin 3) (n : Fin 50000) (h : Fin H) : EReal :=
  Ideal.div (∑ e ∈ into d n, lin x w (s e) h * mask t r e) (max (∑ e ∈ into d n, mask t r e) 1)

/-- The layer, transform first. -/
def layerR (relu : Bool) (x : Fin 50000 → Fin 128 → EReal) (s d : Fin 800000 → Fin 50000) (t : Fin 800000 → Fin 3)
    (W : Fin 3 → Fin 128 → Fin H → EReal) (root : Fin 128 → Fin H → EReal) (b : Fin H → EReal)
    (n : Fin 50000) (h : Fin H) : EReal :=
  act relu ((((lin x root n h + b h) + msgR x s d t (W 0) 0 n h) + msgR x s d t (W 1) 1 n h) + msgR x s d t (W 2) 2 n h)

/-- An extended real that is a real number. -/
def IsReal (v : EReal) : Prop := ∃ r : ℝ, v = (r : EReal)

/-! ## Arrays read as functions of their coordinates -/

/-- A vector read by its coordinate. -/
def m1 {a : ℕ} (v : (⟨1, ![a]⟩ : Shape).Idx → EReal) (p : Fin a) : EReal := v (ix1 p)
/-- A matrix read by its two coordinates. -/
def m2 {a b : ℕ} (v : (⟨2, ![a, b]⟩ : Shape).Idx → EReal) (p : Fin a) (q : Fin b) : EReal := v (ix2 p q)
/-- A rank-3 array read by its three coordinates. -/
def m3 {a b c : ℕ} (v : (⟨3, ![a, b, c]⟩ : Shape).Idx → EReal) (p : Fin a) (q : Fin b) (r : Fin c) : EReal := v (ix3 p q r)

/-- What a kernel region computes at row `n`, column `h` from its three whole operands: the long rows `X` (50000 × 512),
    the stacked weights `Wc` (512 × 128) and the bias row `bc` (1 × 128): the contraction plus the bias, then the
    positive part or nothing. -/
def regionAt (relu : Bool) (X : (⟨2, ![50000, 512]⟩ : Shape).Idx → EReal) (Wc : (⟨2, ![512, 128]⟩ : Shape).Idx → EReal)
    (bc : (⟨2, ![1, 128]⟩ : Shape).Idx → EReal) (n : Fin 50000) (h : Fin 128) : EReal :=
  act relu ((∑ k : Fin 512, X (ix2 n k) * Wc (ix2 k h)) + bc (ix2 (0 : Fin 1) h))

/-! ## The two layers of the network, in either arrangement -/

/-- Both layers aggregate-first: 128 hidden features with the positive part, then 64 outputs. -/
def netK (x : Fin 50000 → Fin 128 → EReal) (s d : Fin 800000 → Fin 50000) (t : Fin 800000 → Fin 3)
    (W1 : Fin 3 → Fin 128 → Fin 128 → EReal) (root1 : Fin 128 → Fin 128 → EReal) (b1 : Fin 128 → EReal)
    (W2 : Fin 3 → Fin 128 → Fin 64 → EReal) (root2 : Fin 128 → Fin 64 → EReal) (b2 : Fin 64 → EReal)
    (n : Fin 50000) (h : Fin 64) : EReal :=
  layerK false (layerK true x s d t W1 root1 b1) s d t W2 root2 b2 n h

/-- Both layers transform-first. -/
def netR (x : Fin 50000 → Fin 128 → EReal) (s d : Fin 800000 → Fin 50000) (t : Fin 800000 → Fin 3)
    (W1 : Fin 3 → Fin 128 → Fin 128 → EReal) (root1 : Fin 128 → Fin 128 → EReal) (b1 : Fin 128 → EReal)
    (W2 : Fin 3 → Fin 128 → Fin 64 → EReal) (root2 : Fin 128 → Fin 64 → EReal) (b2 : Fin 64 → EReal)
    (n : Fin 50000) (h : Fin 64) : EReal :=
  layerR false (layerR true x s d t W1 root1 b1) s d t W2 root2 b2 n h

end Cert.Proof.Spec

end
-- ==== Proof.KI.BlockValue.lean ====
/-
  From blocks to arrays, at the ideal instance. Region K's output array after its ten points is, entry by entry,
  ONE function of the three operand arrays as the region found them: row `n` lies in the block of point `n / 5000`, whose
  value is the body's on that point's blocks: the contraction of the long row `n` with column `h` of the stacked weights
  (the matrix product into a zero accumulator is the plain sum), plus the bias, then the positive part (region 0 only).
-/
import proofs.«404525_j62474594287730_1_alg».proof.Proof.KI.Region
import proofs.«404525_j62474594287730_1_alg».proof.Proof.Spec
import Idealize.ShloMosaic.Lib.Pipeline.Value
import Idealize.ShloMosaic.Lib.ValueLayout
import Idealize.ShloMosaic.PureOps.Ideal.Laws

open scoped BigOperators

noncomputable section

namespace Cert.KernelIdeal.Hand

open Idealize.ShloMosaic Idealize.ShloMosaic.TcCoe Idealize.ShloMosaic.ValueIdx Idealize.SL.Sem
open Cert.KernelIdeal Cert.KernelIdeal.Gen Cert.Proof

/-! ## The body's value at an entry -/

/-- The zero offsets, however spelt. -/
private theorem hz2 : (![0, 0] : Fin 2 → Nat) = fun _ => 0 := funext fun a => by fin_cases a <;> rfl

/-- The product's left operand is read at the output's row … -/
private theorem lhs_dot_0 (i : S5000x128.Idx) (q : dot_S5000x512_S512x128_S5000x128_1_0_0_1_n_n.contr.Idx) :
    (dot_S5000x512_S512x128_S5000x128_1_0_0_1_n_n.lhsIdx i q 0).val = (i 0).val := by
  unfold DotDims.lhsIdx
  rw [dif_neg (show ¬(0 : Fin S5000x512.rank) ∈ dot_S5000x512_S512x128_S5000x128_1_0_0_1_n_n.lhsBatch by decide), dif_pos (show (0 : Fin S5000x512.rank) ∈ dot_S5000x512_S512x128_S5000x128_1_0_0_1_n_n.lhsNonContracting by decide)]
  rfl
/-- … and at the contracted position; -/
private theorem lhs_dot_1 (i : S5000x128.Idx) (q : dot_S5000x512_S512x128_S5000x128_1_0_0_1_n_n.contr.Idx) :
    (dot_S5000x512_S512x128_S5000x128_1_0_0_1_n_n.lhsIdx i q 1).val = (q ⟨0, by decide⟩).val :=
  dot_S5000x512_S512x128_S5000x128_1_0_0_1_n_n.lhsIdx_val_of_single rfl i q
/-- the right operand at the contracted position … -/
private theorem rhs_dot_0 (i : S5000x128.Idx) (q : dot_S5000x512_S512x128_S5000x128_1_0_0_1_n_n.contr.Idx) :
    (dot_S5000x512_S512x128_S5000x128_1_0_0_1_n_n.rhsIdx i q 0).val = (q ⟨0, by decide⟩).val :=
  dot_S5000x512_S512x128_S5000x128_1_0_0_1_n_n.rhsIdx_val_of_single rfl i q
/-- … and at the output's column. -/
private theorem rhs_dot_1 (i : S5000x128.Idx) (q : dot_S5000x512_S512x128_S5000x128_1_0_0_1_n_n.contr.Idx) :
    (dot_S5000x512_S512x128_S5000x128_1_0_0_1_n_n.rhsIdx i q 1).val = (i 1).val := by
  unfold DotDims.rhsIdx
  rw [dif_neg (show ¬(1 : Fin S512x128.rank) ∈ dot_S5000x512_S512x128_S5000x128_1_0_0_1_n_n.rhsBatch by decide), dif_pos (show (1 : Fin S512x128.rank) ∈ dot_S5000x512_S512x128_S5000x128_1_0_0_1_n_n.rhsNonContracting by decide)]
  rfl

/-- The matrix product into the zero accumulator, at row `p` and column `q`: the sum over the 512 contracted positions. -/
private theorem matmul_at (x0 : FVec Ideal S5000x512 .bf16) (x1 : FVec Ideal S512x128 .bf16) (p : Fin 5000) (q : Fin 128) :
    matmul dot_S5000x512_S512x128_S5000x128_1_0_0_1_n_n none x0 x1 (constant (F := Ideal) S5000x128 .f32 0x00000000#32) (ix2 p q)
      = ∑ k : Fin 512, x0 (ix2 p k) * x1 (ix2 k q) := by
  simp only [matmul]
  rw [Ideal.matmul_constant_zero_apply, ← Equiv.sum_comp (ValueIdx.contrEquiv1 dot_S5000x512_S512x128_S5000x128_1_0_0_1_n_n 512 rfl rfl).symm]
  refine Finset.sum_congr rfl fun k _ => ?_
  have hk := ValueIdx.contrEquiv1_symm_val dot_S5000x512_S512x128_S5000x128_1_0_0_1_n_n 512 rfl rfl k
  have el : dot_S5000x512_S512x128_S5000x128_1_0_0_1_n_n.lhsIdx (ix2 p q) ((ValueIdx.contrEquiv1 dot_S5000x512_S512x128_S5000x128_1_0_0_1_n_n 512 rfl rfl).symm k) = ix2 p k := funext fun a => Fin.ext (by
    match a with
    | ⟨0, _⟩ => exact lhs_dot_0 _ _
    | ⟨1, _⟩ => exact (lhs_dot_1 _ _).trans hk)
  have er : dot_S5000x512_S512x128_S5000x128_1_0_0_1_n_n.rhsIdx (ix2 p q) ((ValueIdx.contrEquiv1 dot_S5000x512_S512x128_S5000x128_1_0_0_1_n_n 512 rfl rfl).symm k) = ix2 k q := funext fun a => Fin.ext (by
    match a with
    | ⟨0, _⟩ => exact (rhs_dot_0 _ _).trans hk
    | ⟨1, _⟩ => exact rhs_dot_1 _ _)
  rw [el, er]

/-- The bias row spread over the 5000 rows, at row `p` and column `q`: the bias at column `q`. -/
private theorem bias_at (x2 : FVec Ideal S1x128 .f32) (p : Fin 5000) (q : Fin 128) :
    broadcastTo S5000x128 x2 broadcasts_S1x128_S5000x128 (ix2 p q) = x2 (ix2 (0 : Fin 1) q) :=
  broadcastTo_apply x2 broadcasts_S1x128_S5000x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- Region 0's body at row `p`, column `q` of its block: the contraction plus the bias, then the positive part. -/
private theorem pay0_at (x0 : Vec Ideal S5000x512 .bf16) (x1 : Vec Ideal S512x128 .bf16) (x2 : Vec Ideal S1x128 .f32)
    (p : Fin 5000) (q : Fin 128) :
    k0_pay1 (F := Ideal) x0 x1 x2 (ix2 p q) = max ((∑ k : Fin 512, x0 (ix2 p k) * x1 (ix2 k q)) + x2 (ix2 (0 : Fin 1) q)) 0 := by
  unfold Gen.k0_pay1
  rw [maximumf_apply, addf_apply, broadcast_apply, shapeCast_self, shapeCast_self, shapeCast_self, matmul_at, bias_at]
  show max _ (Ideal.ofBits .f32 0x00000000#32) = _
  rw [Ideal.ofBits_zero_f32]

/-- Region 1's body at row `p`, column `q` of its block: the contraction plus the bias. -/
private theorem pay1_at (x0 : Vec Ideal S5000x512 .bf16) (x1 : Vec Ideal S512x128 .bf16) (x2 : Vec Ideal S1x128 .f32)
    (p : Fin 5000) (q : Fin 128) :
    k1_pay1 (F := Ideal) x0 x1 x2 (ix2 p q) = (∑ k : Fin 512, x0 (ix2 p k) * x1 (ix2 k q)) + x2 (ix2 (0 : Fin 1) q) := by
  unfold Gen.k1_pay1
  rw [addf_apply, shapeCast_self, shapeCast_self, shapeCast_self, matmul_at, bias_at]

/-! ## From blocks to the array -/

variable (V : (c : Dev nD) → (b : Ref sig .tc) → Buf (Elt Ideal) ((c : Thread nD τ).loc b))

/-- The output array as ONE function of the three whole operands: entry (n, h) is the region's value there. -/
private def regionArr (relu : Bool) (X : FVec Ideal S50000x512 .bf16) (Wc : FVec Ideal S512x128 .bf16) (bc : FVec Ideal S1x128 .f32) :
    FVec Ideal S50000x128 .f32 := fun i => Spec.regionAt relu X Wc bc (i 0) (i 1)

/-- A block's entry (p, q) from the body's value there, when the block's row `p` of the long rows is row `n` of the array
    and the other two blocks are the whole operands. -/
private theorem block0_at (x0 : Vec Ideal S5000x512 .bf16) (x1 : Vec Ideal S512x128 .bf16) (x2 : Vec Ideal S1x128 .f32)
    (X : FVec Ideal S50000x512 .bf16) (Wc : FVec Ideal S512x128 .bf16) (bc : FVec Ideal S1x128 .f32)
    (p : Fin 5000) (q : Fin 128) (n : Fin 50000)
    (h0 : ∀ k : Fin 512, x0 (ix2 p k) = X (ix2 n k)) (h1 : ∀ k : Fin 512, x1 (ix2 k q) = Wc (ix2 k q))
    (h2 : x2 (ix2 (0 : Fin 1) q) = bc (ix2 (0 : Fin 1) q)) :
    k0_pay1 (F := Ideal) x0 x1 x2 (ix2 p q) = Spec.regionAt true X Wc bc n q := by
  rw [pay0_at, h2]
  unfold Spec.regionAt Spec.act
  rw [if_pos rfl]
  exact congrArg (fun s => max (s + bc (ix2 (0 : Fin 1) q)) 0) (Finset.sum_congr rfl fun k _ => by rw [h0 k, h1 k])

/-- The same for region 1, whose body takes no positive part. -/
private theorem block1_at (x0 : Vec Ideal S5000x512 .bf16) (x1 : Vec Ideal S512x128 .bf16) (x2 : Vec Ideal S1x128 .f32)
    (X : FVec Ideal S50000x512 .bf16) (Wc : FVec Ideal S512x128 .bf16) (bc : FVec Ideal S1x128 .f32)
    (p : Fin 5000) (q : Fin 128) (n : Fin 50000)
    (h0 : ∀ k : Fin 512, x0 (ix2 p k) = X (ix2 n k)) (h1 : ∀ k : Fin 512, x1 (ix2 k q) = Wc (ix2 k q))
    (h2 : x2 (ix2 (0 : Fin 1) q) = bc (ix2 (0 : Fin 1) q)) :
    k1_pay1 (F := Ideal) x0 x1 x2 (ix2 p q) = Spec.regionAt false X Wc bc n q := by
  rw [pay1_at, h2]
  unfold Spec.regionAt Spec.act
  rw [if_neg Bool.false_ne_true]
  exact congrArg (fun s => s + bc (ix2 (0 : Fin 1) q)) (Finset.sum_congr rfl fun k _ => by rw [h0 k, h1 k])

/-! ### Region 0 -/

/-- The index maps over the grid: the long rows' and the output's blocks move down with the point, the weights and the
    bias stay. -/
private theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point `t`'s block of the long rows is rows 5000 t … 5000 t + 4999 of the array. -/
private theorem iblk0_0_at (c : Dev nD) (t : Fin cfg0.N) (p : Fin 5000) (k : Fin 512) (n : Fin 50000) (hn : n.val = 5000 * t.val + p.val) :
    (iblk0 V c 0 t : Vec Ideal S5000x512 .bf16) (ix2 p k) = (V c main_v22 : FVec Ideal S50000x512 .bf16) (ix2 n k) := by
  obtain ⟨e0, e1, -⟩ := idx0 t
  unfold iblk0
  rw [View.read_apply]
  show V c main_v22 _ = V c main_v22 _
  congr 1
  funext a
  apply Fin.ext
  match a with
  | ⟨0, _⟩ => show win0_0.index t (0 : Fin 2) * 5000 + 1 * p.val = n.val; rw [e0, hn]; omega
  | ⟨1, _⟩ => show win0_0.index t (1 : Fin 2) * 512 + 1 * k.val = k.val; rw [e1]; omega

/-- Every point's block of the weights is the whole array. -/
private theorem iblk0_1_at (c : Dev nD) (t : Fin cfg0.N) (k : Fin 512) (q : Fin 128) :
    (iblk0 V c 1 t : Vec Ideal S512x128 .bf16) (ix2 k q) = (V c main_v30 : FVec Ideal S512x128 .bf16) (ix2 k q) := by
  obtain ⟨-, -, e2, e3, -⟩ := idx0 t
  unfold iblk0
  rw [View.read_apply]
  show V c main_v30 _ = V c main_v30 _
  congr 1
  funext a
  apply Fin.ext
  match a with
  | ⟨0, _⟩ => show win0_1.index t (0 : Fin 2) * 512 + 1 * k.val = k.val; rw [e2]; omega
  | ⟨1, _⟩ => show win0_1.index t (1 : Fin 2) * 128 + 1 * q.val = q.val; rw [e3]; omega

/-- Every point's block of the bias is the whole row. -/
private theorem iblk0_2_at (c : Dev nD) (t : Fin cfg0.N) (q : Fin 128) :
    (iblk0 V c 2 t : Vec Ideal S1x128 .f32) (ix2 (0 : Fin 1) q) = (V c main_v31 : FVec Ideal S1x128 .f32) (ix2 (0 : Fin 1) q) := by
  obtain ⟨-, -, -, -, e4, e5, -⟩ := idx0 t
  unfold iblk0
  rw [View.read_apply]
  show V c main_v31 _ = V c main_v31 _
  congr 1
  funext a
  apply Fin.ext
  match a with
  | ⟨0, _⟩ => show win0_2.index t (0 : Fin 2) * 1 + 1 * 0 = 0; rw [e4]
  | ⟨1, _⟩ => show win0_2.index t (1 : Fin 2) * 128 + 1 * q.val = q.val; rw [e5]; omega

/-- What point `t` writes back is block `t` of the one array `regionArr` of the operands as the region found them. -/
private theorem flushed0_eq (c : Dev nD) (t : Fin cfg0.N) :
    (dat0 (F := Ideal) V c).flushed 3 t
      = ((cfg0.win 3).blk t).view.read (Elt Ideal) (regionArr true (V c main_v22) (V c main_v30) (V c main_v31)) := by
  show (cfg0.win 3).cut (grid0.coords t) ((dat0 (F := Ideal) V c).after 3 t) = _
  rw [after0_3]
  unfold out0_3
  rw [View.canon_unit_zero hz2]
  simp only [View.ld_unit_zero (S := S5000x512) hz2, View.ld_unit_zero (S := S512x128) hz2, View.ld_unit_zero (S := S1x128) hz2]
  funext j
  obtain ⟨p, q, rfl⟩ : ∃ (p : Fin 5000) (q : Fin 128), j = ix2 p q := ⟨j 0, j 1, eq_ix2 j⟩
  obtain ⟨-, -, -, -, -, -, e6, e7⟩ := idx0 t
  have hN : cfg0.N = 10 := N_0
  have hn : 5000 * t.val + p.val < 50000 := by have := t.isLt; have := p.isLt; omega
  show k0_pay1 (F := Ideal) (iblk0 V c 0 t) (iblk0 V c 1 t) (iblk0 V c 2 t) (ix2 p q) = _
  refine (block0_at (iblk0 V c 0 t) (iblk0 V c 1 t) (iblk0 V c 2 t) (V c main_v22) (V c main_v30) (V c main_v31) p q
    ⟨5000 * t.val + p.val, hn⟩ (fun k => iblk0_0_at V c t p k _ rfl) (fun k => iblk0_1_at V c t k q) (iblk0_2_at V c t q)).trans ?_
  rw [View.read_apply]
  show _ = regionArr true (V c main_v22) (V c main_v30) (V c main_v31) (((cfg0.win 3).blk t).view.emb (ix2 p q))
  unfold regionArr
  congr 1 <;> apply Fin.ext
  · show 5000 * t.val + p.val = win0_3.index t (0 : Fin 2) * 5000 + 1 * p.val; rw [e6]; omega
  · show q.val = win0_3.index t (1 : Fin 2) * 128 + 1 * q.val; rw [e7]; omega

/-- An entry of the output array is in point `t`'s block iff each coordinate is in the block's range. -/
private theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v32).slice (win0_3.rect t)).set ↔ _
  rw [View.set_slice_whole, Rect.mem_set_unit]
  exact Iff.rfl

/-- Row `r` is in the block of point `r / 5000`: the ten blocks tile the array. -/
private theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, e6, e7⟩ := idx0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; rw [e6, ht]; omega
  | ⟨1, _⟩ => show win0_3.index t (1 : Fin 2) * 128 ≤ (i 1).val ∧ (i 1).val < win0_3.index t (1 : Fin 2) * 128 + 128; rw [e7]; omega

/-- Region 0's output array after the ten points is `regionArr` of the operands. -/
private theorem final0 (c : Dev nD) :
    (dat0 (F := Ideal) V c).arrAt 3 cfg0.N = regionArr true (V c main_v22) (V c main_v30) (V c main_v31) :=
  (dat0 (F := Ideal) V c).arrAt_eq_of_cover 3 _ (fun t _ => flushed0_eq V c t) cover0

/-- Region 0's output array at the end, at (n, h). -/
theorem arr0_apply (c : Dev nD) (n : Fin 50000) (h : Fin 128) :
    ((dat0 (F := Ideal) V c).arrAt 3 cfg0.N : FVec Ideal S50000x128 .f32) (ix2 n h)
      = Spec.regionAt true (V c main_v22 : FVec Ideal S50000x512 .bf16) (V c main_v30 : FVec Ideal S512x128 .bf16)
          (V c main_v31 : FVec Ideal S1x128 .f32) n h := by
  rw [final0]
  rfl

/-! ### Region 1 -/

/-- The index maps over the grid: the long rows' and the output's blocks move down with the point, the weights and the
    bias stay. -/
private theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Point `t`'s block of the long rows is rows 5000 t … 5000 t + 4999 of the array. -/
private theorem iblk1_0_at (c : Dev nD) (t : Fin cfg1.N) (p : Fin 5000) (k : Fin 512) (n : Fin 50000) (hn : n.val = 5000 * t.val + p.val) :
    (iblk1 V c 0 t : Vec Ideal S5000x512 .bf16) (ix2 p k) = (V c main_v55 : FVec Ideal S50000x512 .bf16) (ix2 n k) := by
  obtain ⟨e0, e1, -⟩ := idx1 t
  unfold iblk1
  rw [View.read_apply]
  show V c main_v55 _ = V c main_v55 _
  congr 1
  funext a
  apply Fin.ext
  match a with
  | ⟨0, _⟩ => show win1_0.index t (0 : Fin 2) * 5000 + 1 * p.val = n.val; rw [e0, hn]; omega
  | ⟨1, _⟩ => show win1_0.index t (1 : Fin 2) * 512 + 1 * k.val = k.val; rw [e1]; omega

/-- Every point's block of the weights is the whole array. -/
private theorem iblk1_1_at (c : Dev nD) (t : Fin cfg1.N) (k : Fin 512) (q : Fin 128) :
    (iblk1 V c 1 t : Vec Ideal S512x128 .bf16) (ix2 k q) = (V c main_v65 : FVec Ideal S512x128 .bf16) (ix2 k q) := by
  obtain ⟨-, -, e2, e3, -⟩ := idx1 t
  unfold iblk1
  rw [View.read_apply]
  show V c main_v65 _ = V c main_v65 _
  congr 1
  funext a
  apply Fin.ext
  match a with
  | ⟨0, _⟩ => show win1_1.index t (0 : Fin 2) * 512 + 1 * k.val = k.val; rw [e2]; omega
  | ⟨1, _⟩ => show win1_1.index t (1 : Fin 2) * 128 + 1 * q.val = q.val; rw [e3]; omega

/-- Every point's block of the bias is the whole row. -/
private theorem iblk1_2_at (c : Dev nD) (t : Fin cfg1.N) (q : Fin 128) :
    (iblk1 V c 2 t : Vec Ideal S1x128 .f32) (ix2 (0 : Fin 1) q) = (V c main_v66 : FVec Ideal S1x128 .f32) (ix2 (0 : Fin 1) q) := by
  obtain ⟨-, -, -, -, e4, e5, -⟩ := idx1 t
  unfold iblk1
  rw [View.read_apply]
  show V c main_v66 _ = V c main_v66 _
  congr 1
  funext a
  apply Fin.ext
  match a with
  | ⟨0, _⟩ => show win1_2.index t (0 : Fin 2) * 1 + 1 * 0 = 0; rw [e4]
  | ⟨1, _⟩ => show win1_2.index t (1 : Fin 2) * 128 + 1 * q.val = q.val; rw [e5]; omega

/-- What point `t` writes back is block `t` of the one array `regionArr` of the operands as the region found them. -/
private theorem flushed1_eq (c : Dev nD) (t : Fin cfg1.N) :
    (dat1 (F := Ideal) V c).flushed 3 t
      = ((cfg1.win 3).blk t).view.read (Elt Ideal) (regionArr false (V c main_v55) (V c main_v65) (V c main_v66)) := by
  show (cfg1.win 3).cut (grid1.coords t) ((dat1 (F := Ideal) V c).after 3 t) = _
  rw [after1_3]
  unfold out1_3
  rw [View.canon_unit_zero hz2]
  simp only [View.ld_unit_zero (S := S5000x512) hz2, View.ld_unit_zero (S := S512x128) hz2, View.ld_unit_zero (S := S1x128) hz2]
  funext j
  obtain ⟨p, q, rfl⟩ : ∃ (p : Fin 5000) (q : Fin 128), j = ix2 p q := ⟨j 0, j 1, eq_ix2 j⟩
  obtain ⟨-, -, -, -, -, -, e6, e7⟩ := idx1 t
  have hN : cfg1.N = 10 := N_1
  have hn : 5000 * t.val + p.val < 50000 := by have := t.isLt; have := p.isLt; omega
  show k1_pay1 (F := Ideal) (iblk1 V c 0 t) (iblk1 V c 1 t) (iblk1 V c 2 t) (ix2 p q) = _
  refine (block1_at (iblk1 V c 0 t) (iblk1 V c 1 t) (iblk1 V c 2 t) (V c main_v55) (V c main_v65) (V c main_v66) p q
    ⟨5000 * t.val + p.val, hn⟩ (fun k => iblk1_0_at V c t p k _ rfl) (fun k => iblk1_1_at V c t k q) (iblk1_2_at V c t q)).trans ?_
  rw [View.read_apply]
  show _ = regionArr false (V c main_v55) (V c main_v65) (V c main_v66) (((cfg1.win 3).blk t).view.emb (ix2 p q))
  unfold regionArr
  congr 1 <;> apply Fin.ext
  · show 5000 * t.val + p.val = win1_3.index t (0 : Fin 2) * 5000 + 1 * p.val; rw [e6]; omega
  · show q.val = win1_3.index t (1 : Fin 2) * 128 + 1 * q.val; rw [e7]; omega

/-- An entry of the output array is in point `t`'s block iff each coordinate is in the block's range. -/
private theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v67).slice (win1_3.rect t)).set ↔ _
  rw [View.set_slice_whole, Rect.mem_set_unit]
  exact Iff.rfl

/-- Row `r` is in the block of point `r / 5000`: the ten blocks tile the array. -/
private theorem cover1 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, e6, e7⟩ := idx1 t
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; rw [e6, ht]; omega
  | ⟨1, _⟩ => show win1_3.index t (1 : Fin 2) * 128 ≤ (i 1).val ∧ (i 1).val < win1_3.index t (1 : Fin 2) * 128 + 128; rw [e7]; omega

/-- Region 1's output array after the ten points is `regionArr` of the operands. -/
private theorem final1 (c : Dev nD) :
    (dat1 (F := Ideal) V c).arrAt 3 cfg1.N = regionArr false (V c main_v55) (V c main_v65) (V c main_v66) :=
  (dat1 (F := Ideal) V c).arrAt_eq_of_cover 3 _ (fun t _ => flushed1_eq V c t) cover1

/-- Region 1's output array at the end, at (n, h). -/
theorem arr1_apply (c : Dev nD) (n : Fin 50000) (h : Fin 128) :
    ((dat1 (F := Ideal) V c).arrAt 3 cfg1.N : FVec Ideal S50000x128 .f32) (ix2 n h)
      = Spec.regionAt false (V c main_v55 : FVec Ideal S50000x512 .bf16) (V c main_v65 : FVec Ideal S512x128 .bf16)
          (V c main_v66 : FVec Ideal S1x128 .f32) n h := by
  rw [final1]
  rfl

end Cert.KernelIdeal.Hand

end
-- ==== Proof.KI.Args.lean ====
/-
  The nine argument arrays of the idealized kernel program on a core, at their literal types: node features, the
  2 × 800000 edge array, the edge relations, and per layer the relation weights, the root weights and the bias.
-/
import proofs.«404525_j62474594287730_1_alg».proof.Proof.Gen.KernelIdeal.Regions
import proofs.«404525_j62474594287730_1_alg».proof.Proof.Spec

open scoped BigOperators

noncomputable section

namespace Cert.KernelIdeal.Hand

open Idealize.ShloMosaic Idealize.ShloMosaic.TcCoe Idealize.ShloMosaic.ValueIdx Idealize.SL.Sem
open Cert.KernelIdeal Cert.KernelIdeal.Gen Cert.Proof

variable (m : (ℓ : Loc nD τ sig) → Buf (Elt Ideal) ℓ) (c : Dev nD)

abbrev aX : FVec Ideal S50000x128 .f32 := m ((c.tc : Thread nD τ).loc main_arg0)
abbrev aEI : IVec S2x800000 32 := m ((c.tc : Thread nD τ).loc main_arg1)
abbrev aET : IVec S800000 32 := m ((c.tc : Thread nD τ).loc main_arg2)
abbrev aW1 : FVec Ideal S3x128x128 .f32 := m ((c.tc : Thread nD τ).loc main_arg3)
abbrev aR1 : FVec Ideal S128x128 .f32 := m ((c.tc : Thread nD τ).loc main_arg4)
abbrev aB1 : FVec Ideal S128 .f32 := m ((c.tc : Thread nD τ).loc main_arg5)
abbrev aW2 : FVec Ideal S3x128x64 .f32 := m ((c.tc : Thread nD τ).loc main_arg6)
abbrev aR2 : FVec Ideal S128x64 .f32 := m ((c.tc : Thread nD τ).loc main_arg7)
abbrev aB2 : FVec Ideal S64 .f32 := m ((c.tc : Thread nD τ).loc main_arg8)

/-- The edges' sources, targets and relations, read off the index arrays. -/
abbrev eS : Fin 800000 → Fin 50000 := Spec.srcOf (aEI m c)
abbrev eD : Fin 800000 → Fin 50000 := Spec.dstOf (aEI m c)
abbrev eT : Fin 800000 → Fin 3 := Spec.relOf (aET m c)

end Cert.KernelIdeal.Hand

end
-- ==== Proof.KI.HostXTerm.lean ====
/-
  The host operations that build a region's long feature rows, as functions of their inputs: the two rows of the edge
  array; the joint key word 3 · target + relation in 32-bit arithmetic; the row gather of the features at the sources
  (a negative index wrapped, an out-of-bounds one filled); the sums and counts of the gathered rows by key over 150000
  segments; their quotient, the count taken at least one; and the features laid beside the means reshaped to 384
  columns. Both layers apply this one chain, to the node features and to the first layer's result.
-/
import proofs.«404525_j62474594287730_1_alg».proof.Proof.KI.Args

open scoped BigOperators

noncomputable section

namespace Cert.KernelIdeal.Hand

open Idealize.ShloMosaic Idealize.ShloMosaic.TcCoe Idealize.ShloMosaic.ValueIdx Idealize.SL.Sem
open Cert.KernelIdeal Cert.KernelIdeal.Gen Cert.Proof

section Chain
variable {F : FTy → Type} [FloatOps F]

/-- Row `r` of the edge array as a vector. -/
def edgeRow0 (ei : IVec S2x800000 32) : IVec S800000 32 :=
  shapeCast _ (extractStridedSlice S1x800000 ![0, 0] ei slices_S2x800000_S1x800000_0_0) shapeCasts_S1x800000_S800000
def edgeRow1 (ei : IVec S2x800000 32) : IVec S800000 32 :=
  shapeCast _ (extractStridedSlice S1x800000 ![1, 0] ei slices_S2x800000_S1x800000_1_0) shapeCasts_S1x800000_S800000

/-- The joint key word: target times 3 plus relation, in 32-bit arithmetic. -/
def keyW (dst et : IVec S800000 32) : IVec S800000 32 :=
  addi (muli dst (broadcastInDim S800000 ![] bcast_S_S800000 (constantI S_ 32 3#32))) et

/-- The index column the row gather reads: a negative source wrapped by the number of nodes. -/
def takeCol (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The in-bounds mask of the index column. -/
def takeMask (col : IVec S800000x1 32) : IVec S800000 1 :=
  Host.reduce IntOp.andi
    (andi (cmpi .sge col (broadcastInDim S800000x1 ![] bcast_S_S800000x1 (constantI S_ 32 0#32)))
      (cmpi .sle col (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The gathered source rows, with the fill where the index is out of bounds. -/
def takeRows (x : FVec F S50000x128 .f32) (src : IVec S800000 32) : FVec F S800000x128 .f32 :=
  select (broadcastInDim S800000x128 ![0] bcast_S800000_S800000x128_0 (takeMask (takeCol src)))
    (Host.gather gather_S50000x128_S800000x1_S800000x128_1_0_n_n_0_1_1128 x (takeCol src))
    (broadcastInDim S800000x128 ![] bcast_S_S800000x128 (constant (F := F) S_ .f32 0x7FC00000#32))

/-- The segment sums of the rows by key. -/
def segSum (key : IVec S800000 32) (rows : FVec F S800000x128 .f32) : FVec F S150000x128 .f32 :=
  Host.scatterAdd scatter_S150000x128_S800000x1_S800000x128_1_0_0_1
    (broadcastInDim S150000x128 ![] bcast_S_S150000x128 (constant (F := F) S_ .f32 0x00000000#32))
    (broadcastInDim S800000x1 ![0] bcast_S800000_S800000x1_0 key) rows

/-- The segment counts by key. -/
def segCnt (key : IVec S800000 32) : FVec F S150000 .f32 :=
  Host.scatterAdd scatter_S150000_S800000x1_S800000_n_0_0_1
    (broadcastInDim S150000 ![] bcast_S_S150000 (constant (F := F) S_ .f32 0x00000000#32))
    (broadcastInDim S800000x1 ![0] bcast_S800000_S800000x1_0 key)
    (broadcastInDim S800000 ![] bcast_S_S800000 (constant (F := F) S_ .f32 0x3F800000#32))

/-- The segment means. -/
def segMean (key : IVec S800000 32) (rows : FVec F S800000x128 .f32) : FVec F S150000x128 .f32 :=
  Host.divf (segSum key rows)
    (broadcastInDim S150000x128 ![0, 1] bcast_S150000x1_S150000x128_0_1
      (broadcastInDim S150000x1 ![0] bcast_S150000_S150000x1_0
        (maximumf (segCnt key) (broadcastInDim S150000 ![] bcast_S_S150000 (constant (F := F) S_ .f32 0x3F800000#32)))))

/-- The long rows: the features beside the reshaped means. -/
def longRows (x : FVec F S50000x128 .f32) (mean : FVec F S150000x128 .f32) : FVec F S50000x512 .bf16 :=
  truncf .bf16 (concatenate S50000x512 1 [⟨S50000x128, x⟩, ⟨S50000x384, shapeCast _ mean shapeCasts_S150000x128_S50000x384⟩]
    concatenates_S50000x128_S50000x384_S50000x512_d1) bitsLt_bf16_f32

/-- The whole chain. -/
def hostX (x : FVec F S50000x128 .f32) (ei : IVec S2x800000 32) (et : IVec S800000 32) : FVec F S50000x512 .bf16 :=
  longRows x (segMean (keyW (edgeRow1 ei) et) (takeRows x (edgeRow0 ei)))

end Chain

end Cert.KernelIdeal.Hand

end
-- ==== Proof.LibWords.lean ====
/-
  Facts about 32-bit index words read as signed integers.

  A word `w` whose signed reading is a row number `i < 50000` is non-negative and at most `49999`: compared signed
  with `0` it is not less and it is at least, compared with `49999` it is at most; so a selection guarded by
  "`w` is negative" takes its second branch, and the conjunction of the two range tests is true. The joint key
  `3 · d + t` of a row `d < 50000` and a relation `t < 3`, computed in 32-bit arithmetic, does not wrap: it is below
  `150000 < 2^31`, so its signed reading is the natural number `3 · d + t`.
-/
import Idealize.ShloMosaic.PureOps.Float

namespace Cert.Proof.Words

open Idealize.ShloMosaic

/-! ## Signed and unsigned readings of a small word -/

/-- A word whose signed reading is a natural number below `2^31` has that number as its unsigned reading. -/
theorem toNat_of_toInt (w : BitVec 32) (n : Nat) (hn : n < 2 ^ 31) (h : w.toInt = (n : Int)) : w.toNat = n := by
  rw [BitVec.toInt_eq_toNat_cond] at h
  have := w.isLt
  split at h <;> omega

/-- A word whose unsigned reading is below `2^31` has the same signed reading. -/
theorem toInt_of_toNat (w : BitVec 32) (n : Nat) (hn : n < 2 ^ 31) (h : w.toNat = n) : w.toInt = (n : Int) := by
  rw [BitVec.toInt_eq_toNat_cond]
  split <;> omega

/-- The unsigned reading of a word that reads, signed, as a row number. -/
theorem toNat_of_row (w : BitVec 32) (i : Fin 50000) (h : w.toInt = (i.val : Int)) : w.toNat = i.val :=
  toNat_of_toInt w i.val (by have := i.isLt; omega) h

/-! ## The joint key does not wrap -/

/-- `3 · d + t` in 32-bit arithmetic, the product written `d · 3`. -/
theorem key_toInt (dw tw : BitVec 32) (d : Fin 50000) (t : Fin 3) (hd : dw.toInt = (d.val : Int)) (ht : tw.toInt = (t.val : Int)) :
    (dw * 3#32 + tw).toInt = ((3 * d.val + t.val : Nat) : Int) := by
  have hd' := toNat_of_toInt dw d.val (by have := d.isLt; omega) hd
  have ht' := toNat_of_toInt tw t.val (by have := t.isLt; omega) ht
  have h1 := d.isLt
  have h2 := t.isLt
  apply toInt_of_toNat _ _ (by omega)
  rw [BitVec.toNat_add, BitVec.toNat_mul, hd', ht', BitVec.toNat_ofNat]
  omega

/-- The same, the product written `3 · d`. -/
theorem key_toInt' (dw tw : BitVec 32) (d : Fin 50000) (t : Fin 3) (hd : dw.toInt = (d.val : Int)) (ht : tw.toInt = (t.val : Int)) :
    (3#32 * dw + tw).toInt = ((3 * d.val + t.val : Nat) : Int) := by
  rw [BitVec.mul_comm]; exact key_toInt dw tw d t hd ht

/-- The same over the integer operations' names. -/
theorem key_toInt_op (dw tw : BitVec 32) (d : Fin 50000) (t : Fin 3) (hd : dw.toInt = (d.val : Int)) (ht : tw.toInt = (t.val : Int)) :
    (IntOp.addi (IntOp.muli dw 3#32) tw).toInt = ((3 * d.val + t.val : Nat) : Int) :=
  key_toInt dw tw d t hd ht

/-- The key's unsigned reading. -/
theorem key_toNat (dw tw : BitVec 32) (d : Fin 50000) (t : Fin 3) (hd : dw.toInt = (d.val : Int)) (ht : tw.toInt = (t.val : Int)) :
    (dw * 3#32 + tw).toNat = 3 * d.val + t.val :=
  toNat_of_toInt _ _ (by have := d.isLt; have := t.isLt; omega) (key_toInt dw tw d t hd ht)

/-! ## A row number is in range: the signed compares -/

/-- A row number is not negative. -/
theorem not_neg_of_toInt (w : BitVec 32) (i : Fin 50000) (h : w.toInt = (i.val : Int)) : ¬ (w.toInt < 0) := by
  rw [h]; omega

theorem slt_zero (w : BitVec 32) (i : Fin 50000) (h : w.toInt = (i.val : Int)) : w.slt 0#32 = false := by
  have h0 : (0#32).toInt = 0 := by decide
  rw [BitVec.slt, h, h0]; exact decide_eq_false (by omega)

theorem zero_sle (w : BitVec 32) (i : Fin 50000) (h : w.toInt = (i.val : Int)) : (0#32).sle w = true := by
  have h0 : (0#32).toInt = 0 := by decide
  rw [BitVec.sle, h, h0]; exact decide_eq_true (by omega)

theorem sle_last (w : BitVec 32) (i : Fin 50000) (h : w.toInt = (i.val : Int)) : w.sle 49999#32 = true := by
  have h0 : (49999#32).toInt = 49999 := by decide
  have := i.isLt
  rw [BitVec.sle, h, h0]; exact decide_eq_true (by omega)

/-- "`w` is less than `0`, signed" is false. -/
theorem cmpi_slt_zero (w : BitVec 32) (i : Fin 50000) (h : w.toInt = (i.val : Int)) : IntOp.cmpi .slt w 0#32 = 0#1 := by
  show BitVec.ofBool (w.slt 0#32) = 0#1
  rw [slt_zero w i h]; rfl

/-- "`w` is at least `0`, signed" is true. -/
theorem cmpi_sge_zero (w : BitVec 32) (i : Fin 50000) (h : w.toInt = (i.val : Int)) : IntOp.cmpi .sge w 0#32 = 1#1 := by
  show BitVec.ofBool ((0#32).sle w) = 1#1
  rw [zero_sle w i h]; rfl

/-- "`w` is at most `49999`, signed" is true. -/
theorem cmpi_sle_last (w : BitVec 32) (i : Fin 50000) (h : w.toInt = (i.val : Int)) : IntOp.cmpi .sle w 49999#32 = 1#1 := by
  show BitVec.ofBool (w.sle 49999#32) = 1#1
  rw [sle_last w i h]; rfl

/-- The two range tests together are true. -/
theorem andi_range (w : BitVec 32) (i : Fin 50000) (h : w.toInt = (i.val : Int)) :
    IntOp.andi (IntOp.cmpi .sge w 0#32) (IntOp.cmpi .sle w 49999#32) = 1#1 := by
  rw [cmpi_sge_zero w i h, cmpi_sle_last w i h]; rfl

/-- The conjunction of two true bits, as a fold of the range test over an axis of one element from `true` leaves it. -/
theorem andi_one_one : IntOp.andi 1#1 1#1 = 1#1 := rfl

/-! ## Selections on a decided bit -/

theorem select_one {α : Type} (a b : α) : Scalar.select 1#1 a b = a := if_pos rfl
theorem select_zero {α : Type} (a b : α) : Scalar.select 0#1 a b = b := if_neg (by decide)

/-- A selection guarded by "`w` is negative" takes its second branch. -/
theorem select_slt_zero {α : Type} (w : BitVec 32) (i : Fin 50000) (h : w.toInt = (i.val : Int)) (a b : α) :
    Scalar.select (IntOp.cmpi .slt w 0#32) a b = b := by
  rw [cmpi_slt_zero w i h]; exact select_zero a b

/-- A selection guarded by the two range tests takes its first branch. -/
theorem select_range {α : Type} (w : BitVec 32) (i : Fin 50000) (h : w.toInt = (i.val : Int)) (a b : α) :
    Scalar.select (IntOp.andi (IntOp.cmpi .sge w 0#32) (IntOp.cmpi .sle w 49999#32)) a b = a := by
  rw [andi_range w i h]; exact select_one a b

end Cert.Proof.Words
-- ==== Proof.KI.HostXTake.lean ====
/-
  The gathered source rows and the joint key, read at an edge, when every index word is in range: the wrap of a
  negative index is not taken, the bounds mask is all ones so the fill is never selected, the gather's clamp leaves the
  source alone, and 3 · target + relation does not wrap in 32 bits.
-/
import proofs.«404525_j62474594287730_1_alg».proof.Proof.KI.HostXTerm
import proofs.«404525_j62474594287730_1_alg».proof.Proof.LibGatherScatter
import proofs.«404525_j62474594287730_1_alg».proof.Proof.LibWords
import Idealize.ShloMosaic.Lib.Pipeline.Value
import Idealize.ShloMosaic.Lib.ValueLayout
import Idealize.ShloMosaic.Lib.ReduceAll
import Idealize.ShloMosaic.PureOps.Ideal.Laws

open scoped BigOperators

noncomputable section

namespace Cert.KernelIdeal.Hand

open Idealize.ShloMosaic Idealize.ShloMosaic.TcCoe Idealize.ShloMosaic.ValueIdx Idealize.SL.Sem
open Cert.KernelIdeal Cert.KernelIdeal.Gen Cert.Proof
open Finset

/-- A scalar broadcast to any shape reads the scalar everywhere. -/
private theorem bcast0_apply {t : Shape} {α : Type} (h : S_.BroadcastsInDim t (![] : Fin 0 → Fin t.rank))
    (x : S_.Idx → α) (j : t.Idx) : broadcastInDim t ![] h x j = x ix0 :=
  broadcastInDim_apply _ h x j ix0 (fun a => a.elim0)

/-- A conjunction folded over a list of true bits from a true bit is true. -/
private theorem foldl_andi_ones {ι : Type} (x : ι → BitVec 1) (hx : ∀ i, x i = 1#1) :
    ∀ l : List ι, l.foldl (fun r i => IntOp.andi r (x i)) 1#1 = 1#1
  | [] => rfl
  | a :: l => by
    rw [List.foldl_cons, hx a, Words.andi_one_one]
    exact foldl_andi_ones x hx l

/-- A reduction by conjunction of an array of true bits, from a true bit, is true at every index. -/
private theorem reduce_andi_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  exact foldl_andi_ones x hx _

theorem edgeRow0_apply (ei : IVec S2x800000 32) (e : Fin 800000) : edgeRow0 ei (ix1 e) = ei (ix2 (0 : Fin 2) e) := by
  unfold edgeRow0
  refine (shapeCast_apply _ shapeCasts_S1x800000_S800000 (ix1 e) (ix2 (0 : Fin 1) e) ?_).trans ?_
  · rewrite [Shape.rowMajor_val_two, Shape.rowMajor_val_one]
    show 0 * 800000 + e.val = e.val
    omega
  · exact extractStridedSlice_apply ![0, 0] ei slices_S2x800000_S1x800000_0_0 (ix2 (0 : Fin 1) e) (ix2 (0 : Fin 2) e)
      (fun a => match a with
        | ⟨0, _⟩ => by show 0 = 0 + 0; rfl
        | ⟨1, _⟩ => by show e.val = 0 + e.val; omega)

theorem edgeRow1_apply (ei : IVec S2x800000 32) (e : Fin 800000) : edgeRow1 ei (ix1 e) = ei (ix2 (1 : Fin 2) e) := by
  unfold edgeRow1
  refine (shapeCast_apply _ shapeCasts_S1x800000_S800000 (ix1 e) (ix2 (0 : Fin 1) e) ?_).trans ?_
  · rewrite [Shape.rowMajor_val_two, Shape.rowMajor_val_one]
    show 0 * 800000 + e.val = e.val
    omega
  · exact extractStridedSlice_apply ![1, 0] ei slices_S2x800000_S1x800000_1_0 (ix2 (0 : Fin 1) e) (ix2 (1 : Fin 2) e)
      (fun a => match a with
        | ⟨0, _⟩ => by show 1 = 1 + 0; rfl
        | ⟨1, _⟩ => by show e.val = 0 + e.val; omega)

/-- The index column at an edge: the source word, which is not negative, so the wrap is not taken. -/
private theorem takeCol_apply (ei : IVec S2x800000 32) (et : IVec S800000 32) (hr : Spec.InRange ei et) (e : Fin 800000) :
    takeCol (edgeRow0 ei) (ix2 e (0 : Fin 1)) = ei (ix2 (0 : Fin 2) e) := by
  unfold takeCol
  refine (broadcastInDim_apply _ bcast_S800000_S800000x1_0 _ (ix2 e (0 : Fin 1)) (ix1 e) (fun a => match a with
    | ⟨0, _⟩ => by show e.val = if (800000 : Nat) = 1 then 0 else e.val; rw [if_neg (by decide)])).trans ?_
  show Scalar.select (IntOp.cmpi .slt (edgeRow0 ei (ix1 e))
      (broadcastInDim S800000 ![] bcast_S_S800000 (constantI S_ 32 0#32) (ix1 e)))
    (IntOp.addi (edgeRow0 ei (ix1 e)) (broadcastInDim S800000 ![] bcast_S_S800000 (constantI S_ 32 50000#32) (ix1 e)))
    (edgeRow0 ei (ix1 e)) = _
  rw [bcast0_apply, edgeRow0_apply]
  show Scalar.select (IntOp.cmpi .slt (ei (ix2 (0 : Fin 2) e)) 0#32) _ _ = _
  exact Words.select_slt_zero _ _ (hr.src e) _ _

/-- The bounds mask is true at every edge: every source word is a row number. -/
private theorem takeMask_apply (ei : IVec S2x800000 32) (et : IVec S800000 32) (hr : Spec.InRange ei et) (e : Fin 800000) :
    takeMask (takeCol (edgeRow0 ei)) (ix1 e) = 1#1 := by
  unfold takeMask
  refine reduce_andi_ones _ _ _ _ (fun i => ?_) (fun _ => rfl) _
  obtain ⟨a, b, rfl⟩ : ∃ a b, i = ix2 a b := ⟨i 0, i 1, eq_ix2 i⟩
  obtain rfl : b = 0 := Subsingleton.elim _ _
  show IntOp.andi
      (IntOp.cmpi .sge (takeCol (edgeRow0 ei) (ix2 a (0 : Fin 1)))
        (broadcastInDim S800000x1 ![] bcast_S_S800000x1 (constantI S_ 32 0#32) (ix2 a (0 : Fin 1))))
      (IntOp.cmpi .sle (takeCol (edgeRow0 ei) (ix2 a (0 : Fin 1)))
        (broadcastInDim S800000x1 ![0, 1] bcast_S1x1_S800000x1_0_1
          (broadcastInDim S1x1 ![1] bcast_S1_S1x1_1 (constantI S1 32 49999#32)) (ix2 a (0 : Fin 1)))) = 1#1
  rw [bcast0_apply, takeCol_apply ei et hr,
    broadcastInDim_apply _ bcast_S1x1_S800000x1_0_1 _ (ix2 a (0 : Fin 1)) (ix2 (0 : Fin 1) (0 : Fin 1)) (fun c => match c with
      | ⟨0, _⟩ => by show 0 = if (1 : Nat) = 1 then 0 else a.val; rw [if_pos rfl]
      | ⟨1, _⟩ => by show 0 = if (1 : Nat) = 1 then 0 else 0; rw [if_pos rfl]),
    broadcastInDim_apply _ bcast_S1_S1x1_1 _ (ix2 (0 : Fin 1) (0 : Fin 1)) (ix1 (0 : Fin 1)) (fun c => match c with
      | ⟨0, _⟩ => by show 0 = if (1 : Nat) = 1 then 0 else 0; rw [if_pos rfl])]
  exact Words.andi_range _ _ (hr.src a)

/-- The gathered row of edge `e` is its source's row. -/
theorem takeRows_apply (x : FVec Ideal S50000x128 .f32) (ei : IVec S2x800000 32) (et : IVec S800000 32)
    (hr : Spec.InRange ei et) (e : Fin 800000) (q : Fin 128) :
    takeRows (F := Ideal) x (edgeRow0 ei) (ix2 e q) = x (ix2 (Spec.srcOf ei e) q) := by
  have hg : gather_S50000x128_S800000x1_S800000x128_1_0_n_n_0_1_1128
      = GS.gathD 50000 800000 128 gather_S50000x128_S800000x1_S800000x128_1_0_n_n_0_1_1128_wf := rfl
  unfold takeRows
  show Scalar.select
      (broadcastInDim S800000x128 ![0] bcast_S800000_S800000x128_0 (takeMask (takeCol (edgeRow0 ei))) (ix2 e q))
      (Host.gather gather_S50000x128_S800000x1_S800000x128_1_0_n_n_0_1_1128 x (takeCol (edgeRow0 ei)) (ix2 e q)) _ = _
  rw [broadcastInDim_apply _ bcast_S800000_S800000x128_0 _ (ix2 e q) (ix1 e) (fun a => match a with
      | ⟨0, _⟩ => by show e.val = if (800000 : Nat) = 1 then 0 else e.val; rw [if_neg (by decide)]),
    takeMask_apply ei et hr, Words.select_one, hg, GS.gather_gathD_apply (by decide),
    GS.row_of_toInt _ _ (Spec.srcOf ei e) (by rw [takeCol_apply ei et hr]; exact hr.src e)]

/-- The key word of edge `e`, read signed, is 3 · target + relation. -/
theorem keyW_toInt (ei : IVec S2x800000 32) (et : IVec S800000 32) (hr : Spec.InRange ei et) (e : Fin 800000) :
    (keyW (edgeRow1 ei) et (ix1 e)).toInt = ((3 * (Spec.dstOf ei e).val + (Spec.relOf et e).val : ℕ) : Int) := by
  unfold keyW
  show (IntOp.addi (IntOp.muli (edgeRow1 ei (ix1 e))
      (broadcastInDim S800000 ![] bcast_S_S800000 (constantI S_ 32 3#32) (ix1 e))) (et (ix1 e))).toInt = _
  rw [bcast0_apply, edgeRow1_apply]
  exact Words.key_toInt_op _ _ _ _ (hr.dst e) (hr.rel e)

end Cert.KernelIdeal.Hand

end
-- ==== Proof.KI.HostXMean.lean ====
/-
  The segment means read at an index, for any key words and any rows: entry (g, f) is the sum of the rows' column f
  over the edges whose key word, read signed, is g, divided by the number of those edges taken at least one.
-/
import proofs.«404525_j62474594287730_1_alg».proof.Proof.KI.HostXTerm
import proofs.«404525_j62474594287730_1_alg».proof.Proof.LibGatherScatter
import proofs.«404525_j62474594287730_1_alg».proof.Proof.LibWords
import Idealize.ShloMosaic.Lib.Pipeline.Value
import Idealize.ShloMosaic.Lib.ValueLayout
import Idealize.ShloMosaic.Lib.ReduceAll
import Idealize.ShloMosaic.PureOps.Ideal.Laws

open scoped BigOperators

noncomputable section

namespace Cert.KernelIdeal.Hand

open Idealize.ShloMosaic Idealize.ShloMosaic.TcCoe Idealize.ShloMosaic.ValueIdx Idealize.SL.Sem
open Cert.KernelIdeal Cert.KernelIdeal.Gen Cert.Proof
open Finset

/-- The f32 pattern of one. -/
private theorem one_f32 : Ideal.ofBits .f32 0x3F800000#32 = (1 : EReal) := by
  rw [show (1 : EReal) = ((1 : ℝ) : EReal) by norm_cast]
  simp [Ideal.ofBits, Ideal.ieee, -EReal.coe_mul]; norm_num

/-- The key column at `(e, 0)` is the key of `e`. -/
private theorem keyCol_at (key : IVec S800000 32) (e : Fin 800000) :
    broadcastInDim S800000x1 ![0] bcast_S800000_S800000x1_0 key (ix2 e (0 : Fin 1)) = key (ix1 e) :=
  broadcastInDim_apply _ bcast_S800000_S800000x1_0 key (ix2 e (0 : Fin 1)) (ix1 e) (fun a => match a with
    | ⟨0, _⟩ => by show e.val = if (800000 : Nat) = 1 then 0 else e.val; rw [if_neg (by decide)])

/-- The segment sums at `(g, f)`: the rows' column `f` summed over the edges whose key word is `g`. -/
private theorem segSum_apply (key : IVec S800000 32) (rows : FVec Ideal S800000x128 .f32) (g : Fin 150000) (f : Fin 128) :
    segSum (F := Ideal) key rows (ix2 g f)
      = ∑ e ∈ univ.filter (fun e : Fin 800000 => (key (ix1 e)).toInt = (g.val : Int)), rows (ix2 e f) := by
  unfold segSum
  refine (GS.scatterAdd_scatD_apply (N := 150000) (E := 800000) (D := 128)
    Facts₀.scatter_S150000x128_S800000x1_S800000x128_1_0_0_1_wf _ _ rows g f).trans ?_
  rw [broadcastInDim_apply _ bcast_S_S150000x128 _ (ix2 g f) ix0 (fun a => a.elim0), constant_apply,
    Ideal.ofBits_zero_f32, zero_add]
  refine Finset.sum_congr (Finset.filter_congr fun e _ => ?_) fun _ _ => rfl
  rw [keyCol_at]

/-- The segment counts at `g`: the number of edges whose key word is `g`. -/
private theorem segCnt_apply (key : IVec S800000 32) (g : Fin 150000) :
    segCnt (F := Ideal) key (ix1 g)
      = ∑ _e ∈ univ.filter (fun e : Fin 800000 => (key (ix1 e)).toInt = (g.val : Int)), (1 : EReal) := by
  unfold segCnt
  refine (GS.scatterAdd_scat1_apply (N := 150000) (E := 800000)
    Facts₀.scatter_S150000_S800000x1_S800000_n_0_0_1_wf _ _ _ g).trans ?_
  rw [broadcastInDim_apply _ bcast_S_S150000 _ (ix1 g) ix0 (fun a => a.elim0), constant_apply,
    Ideal.ofBits_zero_f32, zero_add]
  refine Finset.sum_congr (Finset.filter_congr fun e _ => ?_) fun e _ => ?_
  · rw [keyCol_at]
  · rw [broadcastInDim_apply _ bcast_S_S800000 _ (ix1 e) ix0 (fun a => a.elim0), constant_apply, one_f32]

/-- The host's quotient at an index is the quotient of the entries. -/
private theorem divf_at {s : Shape} (a b : FVec Ideal s .f32) (i : s.Idx) :
    Host.divf a b i = Ideal.div (a i) (b i) := rfl

theorem segMean_apply (key : IVec S800000 32) (rows : FVec Ideal S800000x128 .f32) (g : Fin 150000) (f : Fin 128) :
    segMean (F := Ideal) key rows (ix2 g f)
      = Ideal.div (∑ e ∈ univ.filter (fun e : Fin 800000 => (key (ix1 e)).toInt = (g.val : Int)), rows (ix2 e f))
          (max (∑ _e ∈ univ.filter (fun e : Fin 800000 => (key (ix1 e)).toInt = (g.val : Int)), (1 : EReal)) 1) := by
  unfold segMean
  rw [divf_at, segSum_apply]
  refine congrArg (Ideal.div _) ?_
  rw [broadcastInDim_apply _ bcast_S150000x1_S150000x128_0_1 _ (ix2 g f) (ix2 g (0 : Fin 1)) (fun a => match a with
      | ⟨0, _⟩ => by show g.val = if (150000 : Nat) = 1 then 0 else g.val; rw [if_neg (by decide)]
      | ⟨1, _⟩ => by show 0 = if (1 : Nat) = 1 then 0 else f.val; rw [if_pos rfl]),
    broadcastInDim_apply _ bcast_S150000_S150000x1_0 _ (ix2 g (0 : Fin 1)) (ix1 g) (fun a => match a with
      | ⟨0, _⟩ => by show g.val = if (150000 : Nat) = 1 then 0 else g.val; rw [if_neg (by decide)]),
    maximumf_apply, segCnt_apply,
    broadcastInDim_apply _ bcast_S_S150000 _ (ix1 g) ix0 (fun a => a.elim0), constant_apply, one_f32]

end Cert.KernelIdeal.Hand

end
-- ==== Proof.KI.HostXRows.lean ====
/-
  The long rows read at an index: column k of node n is the node's own feature k for k < 128, and otherwise the mean
  array's entry in row 3 n + (k − 128) / 128, column (k − 128) mod 128: the 150000 × 128 means reshaped to 50000 × 384
  put mean row 3 n + j / 128, column j mod 128 at (n, j). The change of float format is the identity.
-/
import proofs.«404525_j62474594287730_1_alg».proof.Proof.KI.HostXTerm
import proofs.«404525_j62474594287730_1_alg».proof.Proof.LibGatherScatter
import proofs.«404525_j62474594287730_1_alg».proof.Proof.LibWords
import Idealize.ShloMosaic.Lib.Pipeline.Value
import Idealize.ShloMosaic.Lib.ValueLayout
import Idealize.ShloMosaic.Lib.ReduceAll
import Idealize.ShloMosaic.PureOps.Ideal.Laws

open scoped BigOperators

noncomputable section

namespace Cert.KernelIdeal.Hand

open Idealize.ShloMosaic Idealize.ShloMosaic.TcCoe Idealize.ShloMosaic.ValueIdx Idealize.SL.Sem
open Cert.KernelIdeal Cert.KernelIdeal.Gen Cert.Proof

theorem longRows_apply (x : FVec Ideal S50000x128 .f32) (mean : FVec Ideal S150000x128 .f32) (n : Fin 50000) (k : Fin 512) :
    longRows (F := Ideal) x mean (ix2 n k)
      = if hk : k.val < 128 then x (ix2 n ⟨k.val, hk⟩)
        else mean (ix2 (⟨3 * n.val + (k.val - 128) / 128, by have := k.isLt; have := n.isLt; omega⟩ : Fin 150000)
          (⟨(k.val - 128) % 128, Nat.mod_lt _ (by decide)⟩ : Fin 128)) := by
  have hk5 := k.isLt
  have hn := n.isLt
  unfold longRows
  rw [truncf_apply]
  by_cases hk : k.val < 128
  · rw [dif_pos hk]
    -- the first piece: the features, at the same row and column
    exact concatenate_apply_piece (t := S50000x512) (1 : Fin 2)
      [⟨S50000x128, x⟩, ⟨S50000x384, shapeCast _ mean shapeCasts_S150000x128_S50000x384⟩]
      concatenates_S50000x128_S50000x384_S50000x512_d1 (ix2 n k) 0 (by show 0 < 2; omega) S50000x128 x rfl rfl 0 rfl
      (ix2 n ⟨k.val, hk⟩)
      (fun b => match b with
        | ⟨0, _⟩ => fun _ => rfl
        | ⟨1, _⟩ => fun hb => absurd rfl hb)
      (by show 0 + k.val = k.val; omega)
  · rw [dif_neg hk]
    -- the second piece: the reshaped means, 128 columns to the left
    refine (concatenate_apply_piece (t := S50000x512) (1 : Fin 2)
      [⟨S50000x128, x⟩, ⟨S50000x384, shapeCast _ mean shapeCasts_S150000x128_S50000x384⟩]
      concatenates_S50000x128_S50000x384_S50000x512_d1 (ix2 n k) 1 (by show 1 < 2; omega) S50000x384
      (shapeCast _ mean shapeCasts_S150000x128_S50000x384) rfl rfl 128 rfl
      (ix2 n (⟨k.val - 128, by omega⟩ : Fin 384))
      (fun b => match b with
        | ⟨0, _⟩ => fun _ => rfl
        | ⟨1, _⟩ => fun hb => absurd rfl hb)
      (by show 128 + (k.val - 128) = k.val; omega)).trans ?_
    -- the reshape keeps the row-major position: n · 384 + j = (3 n + j / 128) · 128 + j mod 128
    exact shapeCast_apply mean shapeCasts_S150000x128_S50000x384 (ix2 n (⟨k.val - 128, by omega⟩ : Fin 384))
      (ix2 (⟨3 * n.val + (k.val - 128) / 128, by omega⟩ : Fin 150000) (⟨(k.val - 128) % 128, Nat.mod_lt _ (by decide)⟩ : Fin 128))
      (by
        rw [Shape.rowMajor_val_two, Shape.rowMajor_val_two]
        show (3 * n.val + (k.val - 128) / 128) * 128 + (k.val - 128) % 128 = n.val * 384 + (k.val - 128)
        omega)

end Cert.KernelIdeal.Hand

end
-- ==== Proof.KI.HostXApply.lean ====
/-
  The whole chain read at an index: with every index word in range, the long rows built from features `x` are the
  aggregate-first long rows of the specification: the edges whose key word is g are the edges of key g, and each
  gathered row is its source's row.
-/
import proofs.«404525_j62474594287730_1_alg».proof.Proof.KI.HostXTake
import proofs.«404525_j62474594287730_1_alg».proof.Proof.KI.HostXMean
import proofs.«404525_j62474594287730_1_alg».proof.Proof.KI.HostXRows

open scoped BigOperators

noncomputable section

namespace Cert.KernelIdeal.Hand

open Idealize.ShloMosaic Idealize.ShloMosaic.TcCoe Idealize.ShloMosaic.ValueIdx Idealize.SL.Sem
open Cert.KernelIdeal Cert.KernelIdeal.Gen Cert.Proof
open Finset

/-- The edges whose key WORD is `g` are the edges of key `g`: with every index word in range the 32-bit key
    3 · target + relation is the natural number, and two naturals are equal iff their integers are. -/
private theorem filter_key (ei : IVec S2x800000 32) (et : IVec S800000 32) (hr : Spec.InRange ei et) (g : Fin 150000) :
    (univ.filter fun e : Fin 800000 => (keyW (edgeRow1 ei) et (ix1 e)).toInt = (g.val : Int))
      = Spec.keyed (Spec.dstOf ei) (Spec.relOf et) g := by
  unfold Spec.keyed
  refine Finset.filter_congr fun e _ => ?_
  rw [keyW_toInt ei et hr e]
  exact Int.natCast_inj

/-- The mean of segment `g`, feature `f`: the sum of the gathered source rows over the edges of key `g`, divided by
    their number taken at least one; each gathered row is its source's row. -/
private theorem mean_at (x : FVec Ideal S50000x128 .f32) (ei : IVec S2x800000 32) (et : IVec S800000 32)
    (hr : Spec.InRange ei et) (g : Fin 150000) (f : Fin 128) :
    segMean (F := Ideal) (keyW (edgeRow1 ei) et) (takeRows (F := Ideal) x (edgeRow0 ei)) (ix2 g f)
      = Spec.meanK (Spec.m2 x) (Spec.srcOf ei) (Spec.dstOf ei) (Spec.relOf et) g f := by
  rw [segMean_apply, filter_key ei et hr g]
  unfold Spec.meanK
  exact congrArg (fun s => Ideal.div s (max (∑ _e ∈ Spec.keyed (Spec.dstOf ei) (Spec.relOf et) g, (1 : EReal)) 1))
    (Finset.sum_congr rfl fun e _ => takeRows_apply x ei et hr e f)

theorem hostX_apply (x : FVec Ideal S50000x128 .f32) (ei : IVec S2x800000 32) (et : IVec S800000 32)
    (hr : Spec.InRange ei et) (n : Fin 50000) (k : Fin 512) :
    hostX (F := Ideal) x ei et (ix2 n k)
      = Spec.xcat (Spec.m2 x) (Spec.srcOf ei) (Spec.dstOf ei) (Spec.relOf et) n k := by
  unfold hostX Spec.xcat
  rw [longRows_apply]
  by_cases hk : k.val < 128
  · -- a feature column: the node's own row
    rw [dif_pos hk, dif_pos hk]
    rfl
  · -- a mean column: segment 3 n + (k - 128) / 128, feature (k - 128) % 128
    rw [dif_neg hk, dif_neg hk]
    exact mean_at x ei et hr _ _

end Cert.KernelIdeal.Hand

end
-- ==== Proof.KI.HostX.lean ====
/-
  The long feature rows a region is fed, read at an index. The host operations before a region gather the source
  row of every edge, scatter-add the rows and a column of ones by the joint key 3 · target + relation into 150000
  segments, divide each segment's sum by its count (at least one), reshape the 150000 × 128 means to 50000 × 384 and
  lay them beside the node features: entry (n, k) is feature k of node n for k < 128, and otherwise the mean feature
  (k − 128) mod 128 of key 3 n + (k − 128) / 128. With every index word in range the gather's fill is never taken, its
  clamp changes nothing, and the key 3 · target + relation does not wrap.

  Here the buffer a region reads its long rows from is identified with that chain of operations applied to the
  region's inputs, stretch of host operations by stretch, each stretch from ARBITRARY contents before it: the edge rows
  and the key word, then the gathered rows, then the segment means beside the features. Layer 1 starts from the
  launch contents; layer 2 from whatever region 0 left in its output buffer, the index arrays being untouched. The
  chain read at an index is the companion modules'; the two statements at the end put the two together.
-/
import proofs.«404525_j62474594287730_1_alg».proof.Proof.KI.HostXApply
import Idealize.ShloMosaic.Lib.Pipeline.Value
import Idealize.ShloMosaic.Lib.ValueLayout
import Idealize.ShloMosaic.Lib.StableHlo.Run
import Idealize.ShloMosaic.PureOps.Ideal.Laws

-- decided non-memberships among the program's references recurse past the default depth
set_option maxRecDepth 4000

open scoped BigOperators

noncomputable section

namespace Cert.KernelIdeal.Hand

open Idealize.ShloMosaic Idealize.ShloMosaic.TcCoe Idealize.ShloMosaic.ValueIdx Idealize.SL.Sem
open Cert.KernelIdeal Cert.KernelIdeal.Gen Cert.Proof

/-! ## The feature rows' buffer is the chain of its inputs -/

section Ident
variable {F : FTy → Type} [FloatOps F]

/-- A transport there and back is the identity. -/
private theorem cast_cast_self {α β : Type} (h : α = β) (h' : β = α) (v : α) : cast h' (cast h v) = v := by
  subst h; rfl

section Stretch
variable (W : Valuation τ sig (Elt F))

/-- The gather's stretch, from any contents before it: the gathered rows as a function of the features and the sources. -/
private theorem take_stretch :
    (StableHlo.TRef.of main_v7 : StableHlo.TRef sig ⟨S800000x128, .f32⟩).ofBuf (StableHlo.after hostOps0_1 W main_v7)
      = takeRows ((StableHlo.TRef.of main_arg0 : StableHlo.TRef sig ⟨S50000x128, .f32⟩).ofBuf (W main_arg0))
          ((StableHlo.TRef.of main_v1 : StableHlo.TRef sig ⟨S800000, .i32⟩).ofBuf (W main_v1)) := by
  after_results_simp
  simp only [StableHlo.TRef.ofBuf, StableHlo.TRef.toBuf, cast_cast_self]
  rfl

set_option maxHeartbeats 1000000 in
/-- The last stretch, from any contents before it: the long rows as a function of the features, the keys and the
    gathered rows. -/
private theorem rows_stretch :
    (StableHlo.after hostOps0_2 W main_v22 : FVec F S50000x512 .bf16)
      = longRows (W main_arg0 : FVec F S50000x128 .f32)
          (segMean (W main_v6 : IVec S800000 32) (W main_v7 : FVec F S800000x128 .f32)) := by
  after_results_simp
  rfl

end Stretch

variable (m : (ℓ : Loc nD τ sig) → Buf (Elt F) ℓ) (c : Dev nD)

private theorem V1_src : (Gen.V1 m c main_v1 : IVec S800000 32)
    = edgeRow0 (m ((c.tc : Thread nD τ).loc main_arg1) : IVec S2x800000 32) := by
  dsimp only [Gen.V1, Gen.V0]; after_results; rfl

private theorem V1_key : (Gen.V1 m c main_v6 : IVec S800000 32)
    = keyW (edgeRow1 (m ((c.tc : Thread nD τ).loc main_arg1) : IVec S2x800000 32))
        (m ((c.tc : Thread nD τ).loc main_arg2) : IVec S800000 32) := by
  dsimp only [Gen.V1, Gen.V0]; after_results; rfl

private theorem V2_rows : (Gen.V2 m c main_v7 : FVec F S800000x128 .f32)
    = takeRows (m ((c.tc : Thread nD τ).loc main_arg0) : FVec F S50000x128 .f32)
        (edgeRow0 (m ((c.tc : Thread nD τ).loc main_arg1) : IVec S2x800000 32)) := by
  have e := take_stretch (Gen.V1 m c)
  have a0 : (StableHlo.TRef.of main_arg0 : StableHlo.TRef sig ⟨S50000x128, .f32⟩).ofBuf (Gen.V1 m c main_arg0)
      = (m ((c.tc : Thread nD τ).loc main_arg0) : FVec F S50000x128 .f32) := Gen.V1_of m c main_arg0 (by decide)
  have a1 : (StableHlo.TRef.of main_v1 : StableHlo.TRef sig ⟨S800000, .i32⟩).ofBuf (Gen.V1 m c main_v1)
      = edgeRow0 (m ((c.tc : Thread nD τ).loc main_arg1) : IVec S2x800000 32) := V1_src m c
  rw [a0, a1] at e
  exact e

/-- Layer 1: the buffer region 0 reads its long rows from holds the chain of the features, the edge array and the
    relations. -/
theorem hostX_id1 : (Gen.V3 m c main_v22 : FVec F S50000x512 .bf16)
    = hostX (m ((c.tc : Thread nD τ).loc main_arg0) : FVec F S50000x128 .f32)
        (m ((c.tc : Thread nD τ).loc main_arg1) : IVec S2x800000 32) (m ((c.tc : Thread nD τ).loc main_arg2) : IVec S800000 32) := by
  have h0 : (Gen.V2 m c main_arg0 : FVec F S50000x128 .f32) = m ((c.tc : Thread nD τ).loc main_arg0) :=
    (Gen.V2_of m c main_arg0 (by decide)).trans (Gen.V1_of m c main_arg0 (by decide))
  have h6 := (Gen.V2_of m c main_v6 (by decide)).trans (V1_key m c)
  refine (rows_stretch (Gen.V2 m c)).trans ?_
  rw [h0, h6, V2_rows m c]
  rfl

end Ident

/-! ## Layer 2: the same chain from what region 0 left -/

section Ident2
variable {F : FTy → Type} [FloatOps F]

section Stretch
variable (W : Valuation τ sig (Elt F))

private theorem src_stretch2 : (StableHlo.after hostOps1 W main_v34 : IVec S800000 32)
    = edgeRow0 (W main_arg1 : IVec S2x800000 32) := by
  after_results; rfl

private theorem key_stretch2 : (StableHlo.after hostOps1 W main_v39 : IVec S800000 32)
    = keyW (edgeRow1 (W main_arg1 : IVec S2x800000 32)) (W main_arg2 : IVec S800000 32) := by
  after_results; rfl

private theorem take_stretch2 :
    (StableHlo.TRef.of main_v40 : StableHlo.TRef sig ⟨S800000x128, .f32⟩).ofBuf (StableHlo.after hostOps1_1 W main_v40)
      = takeRows ((StableHlo.TRef.of main_v32 : StableHlo.TRef sig ⟨S50000x128, .f32⟩).ofBuf (W main_v32))
          ((StableHlo.TRef.of main_v34 : StableHlo.TRef sig ⟨S800000, .i32⟩).ofBuf (W main_v34)) := by
  after_results_simp
  simp only [StableHlo.TRef.ofBuf, StableHlo.TRef.toBuf, cast_cast_self]
  rfl

set_option maxHeartbeats 1000000 in
private theorem rows_stretch2 :
    (StableHlo.after hostOps1_2 W main_v55 : FVec F S50000x512 .bf16)
      = longRows (W main_v32 : FVec F S50000x128 .f32)
          (segMean (W main_v39 : IVec S800000 32) (W main_v40 : FVec F S800000x128 .f32)) := by
  after_results_simp
  rfl

end Stretch

variable (m : (ℓ : Loc nD τ sig) → Buf (Elt F) ℓ) (o : Gen.Outs (F := F)) (c : Dev nD)

private theorem V4_x : (Gen.V4 m o c main_v32 : FVec F S50000x128 .f32) = (o 4 main_v32 c : FVec F S50000x128 .f32) := by
  simp only [Gen.V4, Function.update_self]

private theorem V4_arg1 : (Gen.V4 m o c main_arg1 : IVec S2x800000 32) = m ((c.tc : Thread nD τ).loc main_arg1) :=
  (Gen.V4_of m o c main_arg1 (by decide)).trans <| (Gen.V3_of m c main_arg1 (by decide)).trans <|
    (Gen.V2_of m c main_arg1 (by decide)).trans (Gen.V1_of m c main_arg1 (by decide))

private theorem V4_arg2 : (Gen.V4 m o c main_arg2 : IVec S800000 32) = m ((c.tc : Thread nD τ).loc main_arg2) :=
  (Gen.V4_of m o c main_arg2 (by decide)).trans <| (Gen.V3_of m c main_arg2 (by decide)).trans <|
    (Gen.V2_of m c main_arg2 (by decide)).trans (Gen.V1_of m c main_arg2 (by decide))

private theorem V6_rows : (Gen.V6 m o c main_v40 : FVec F S800000x128 .f32)
    = takeRows (o 4 main_v32 c : FVec F S50000x128 .f32)
        (edgeRow0 (m ((c.tc : Thread nD τ).loc main_arg1) : IVec S2x800000 32)) := by
  have e := take_stretch2 (Gen.V5 m o c)
  have a0 : (StableHlo.TRef.of main_v32 : StableHlo.TRef sig ⟨S50000x128, .f32⟩).ofBuf (Gen.V5 m o c main_v32)
      = (o 4 main_v32 c : FVec F S50000x128 .f32) := (Gen.V5_of m o c main_v32 (by decide)).trans (V4_x m o c)
  have a1 : (StableHlo.TRef.of main_v34 : StableHlo.TRef sig ⟨S800000, .i32⟩).ofBuf (Gen.V5 m o c main_v34)
      = edgeRow0 (m ((c.tc : Thread nD τ).loc main_arg1) : IVec S2x800000 32) :=
    (src_stretch2 (Gen.V4 m o c)).trans (congrArg edgeRow0 (V4_arg1 m o c))
  rw [a0, a1] at e
  exact e

/-- Layer 2: the buffer region 1 reads its long rows from holds the chain of what region 0 left, the edge array and
    the relations. -/
theorem hostX_idL2 : (Gen.V11 m o c main_v55 : FVec F S50000x512 .bf16)
    = hostX (o 4 main_v32 c : FVec F S50000x128 .f32)
        (m ((c.tc : Thread nD τ).loc main_arg1) : IVec S2x800000 32) (m ((c.tc : Thread nD τ).loc main_arg2) : IVec S800000 32) := by
  have h11 : Gen.V11 m o c main_v55 = Gen.V7 m o c main_v55 :=
    (Gen.V11_of m o c main_v55 (by decide)).trans <| (Gen.V10_of m o c main_v55 (by decide)).trans <|
      (Gen.V9_of m o c main_v55 (by decide)).trans (Gen.V8_of m o c main_v55 (by decide))
  have h0 : (Gen.V6 m o c main_v32 : FVec F S50000x128 .f32) = (o 4 main_v32 c : FVec F S50000x128 .f32) :=
    (Gen.V6_of m o c main_v32 (by decide)).trans <| (Gen.V5_of m o c main_v32 (by decide)).trans (V4_x m o c)
  have h6 : (Gen.V6 m o c main_v39 : IVec S800000 32)
      = keyW (edgeRow1 (m ((c.tc : Thread nD τ).loc main_arg1) : IVec S2x800000 32)) (m ((c.tc : Thread nD τ).loc main_arg2) : IVec S800000 32) := by
    refine (Gen.V6_of m o c main_v39 (by decide)).trans ?_
    refine (key_stretch2 (Gen.V4 m o c)).trans ?_
    rw [V4_arg1 m o c, V4_arg2 m o c]
  refine h11.trans ?_
  refine (rows_stretch2 (Gen.V6 m o c)).trans ?_
  rw [h0, h6, V6_rows m o c]
  rfl

end Ident2

/-! ## The long rows at an index -/

variable (m : (ℓ : Loc nD τ sig) → Buf (Elt Ideal) ℓ) (c : Dev nD)

/-- Layer 1: the long rows region 0 is fed, from the node features. -/
theorem xcat1 (hr : Spec.InRange (aEI m c) (aET m c)) (n : Fin 50000) (k : Fin 512) :
    (Gen.V3 m c main_v22 : FVec Ideal S50000x512 .bf16) (ix2 n k)
      = Spec.xcat (Spec.m2 (aX m c)) (eS m c) (eD m c) (eT m c) n k :=
  (congrFun (hostX_id1 m c) (ix2 n k)).trans (hostX_apply (aX m c) (aEI m c) (aET m c) hr n k)

/-- Layer 2: the long rows region 1 is fed, from what region 0 left (whatever that is). -/
theorem xcat2 (o : Gen.Outs (F := Ideal)) (hr : Spec.InRange (aEI m c) (aET m c)) (n : Fin 50000) (k : Fin 512) :
    (Gen.V11 m o c main_v55 : FVec Ideal S50000x512 .bf16) (ix2 n k)
      = Spec.xcat (Spec.m2 (o 4 main_v32 c : FVec Ideal S50000x128 .f32)) (eS m c) (eD m c) (eT m c) n k :=
  (congrFun (hostX_idL2 m o c) (ix2 n k)).trans
    (hostX_apply (o 4 main_v32 c : FVec Ideal S50000x128 .f32) (aEI m c) (aET m c) hr n k)

end Cert.KernelIdeal.Hand

end
-- ==== Proof.KI.HostW.lean ====
/-
  The stacked weights and the bias row a region is fed, read at an index. Row k of the stack is row k of the root
  matrix for k < 128 and otherwise row (k − 128) mod 128 of relation (k − 128) / 128; in layer 2 the 64 columns are
  padded with zeros to 128, which the first 64 columns do not see. The bias is the bias vector as one row.
-/
import proofs.«404525_j62474594287730_1_alg».proof.Proof.KI.Args
import Idealize.ShloMosaic.Lib.Pipeline.Value
import Idealize.ShloMosaic.Lib.ValueLayout
import Idealize.ShloMosaic.Lib.KernelVsHost
import Idealize.ShloMosaic.Lib.StableHlo.Run
import Idealize.ShloMosaic.PureOps.Ideal.Laws

open scoped BigOperators

noncomputable section

namespace Cert.KernelIdeal.Hand

open Idealize.ShloMosaic Idealize.ShloMosaic.TcCoe Idealize.ShloMosaic.ValueIdx Idealize.SL.Sem
open Cert.KernelIdeal Cert.KernelIdeal.Gen Cert.Proof

variable (m : (ℓ : Loc nD τ sig) → Buf (Elt Ideal) ℓ) (c : Dev nD)

/-! ## The layout operations at an index, over any arrays of these shapes (H columns) -/

section Generic
variable {α : Type} {H : ℕ}

/-- One relation's matrix, cut out of the rank-3 array and read as a matrix, at a row and a column. -/
private theorem relMat_apply (W : (⟨3, ![3, 128, H]⟩ : Shape).Idx → α) (r : ℕ) (hr : r < 3)
    (hs : (⟨3, ![3, 128, H]⟩ : Shape).Slices ![r, 0, 0] ⟨3, ![1, 128, H]⟩)
    (hc : (⟨3, ![1, 128, H]⟩ : Shape).ShapeCasts ⟨2, ![128, H]⟩) (p : Fin 128) (q : Fin H) :
    shapeCast ⟨2, ![128, H]⟩ (extractStridedSlice ⟨3, ![1, 128, H]⟩ ![r, 0, 0] W hs) hc (ix2 p q)
      = W (ix3 (⟨r, hr⟩ : Fin 3) p q) := by
  refine (shapeCast_apply _ hc (ix2 p q) (ix3 (0 : Fin 1) p q) ?_).trans ?_
  · rw [Shape.rowMajor_val_three, Shape.rowMajor_val_two]
    show (0 * 128 + p.val) * H + q.val = p.val * H + q.val
    rw [Nat.zero_mul, Nat.zero_add]
  · exact extractStridedSlice_apply ![r, 0, 0] W hs (ix3 (0 : Fin 1) p q) (ix3 (⟨r, hr⟩ : Fin 3) p q) (fun a => match a with
      | ⟨0, _⟩ => by show r = r + 0; omega
      | ⟨1, _⟩ => by show p.val = 0 + p.val; omega
      | ⟨2, _⟩ => by show q.val = 0 + q.val; omega)

/-- Four matrices of 128 rows stacked: row 128 n + p of the stack is row p of matrix n. -/
private theorem stack4_apply (x0 x1 x2 x3 : (⟨2, ![128, H]⟩ : Shape).Idx → α)
    (h : Shape.Concatenates [(⟨2, ![128, H]⟩ : Shape), ⟨2, ![128, H]⟩, ⟨2, ![128, H]⟩, ⟨2, ![128, H]⟩] ⟨2, ![512, H]⟩ 0)
    (k : Fin 512) (q : Fin H) (n : Fin 4) (p : Fin 128) (hk : k.val = 128 * n.val + p.val) :
    concatenate ⟨2, ![512, H]⟩ 0 [⟨⟨2, ![128, H]⟩, x0⟩, ⟨⟨2, ![128, H]⟩, x1⟩, ⟨⟨2, ![128, H]⟩, x2⟩, ⟨⟨2, ![128, H]⟩, x3⟩] h (ix2 k q)
      = (![x0, x1, x2, x3] n) (ix2 p q) := by
  have hi : ∀ b : Fin 2, b.cast (rfl : 2 = 2) ≠ (0 : Fin 2) → ((ix2 p q : (⟨2, ![128, H]⟩ : Shape).Idx) b).val = ((ix2 k q : (⟨2, ![512, H]⟩ : Shape).Idx) (b.cast (rfl : 2 = 2))).val :=
    fun b => match b with
      | ⟨0, _⟩ => fun hb => absurd rfl hb
      | ⟨1, _⟩ => fun _ => rfl
  match n, hk with
  | ⟨0, _⟩, hk =>
    have hk' : k.val = 128 * 0 + p.val := hk
    exact concatenate_apply_piece (t := ⟨2, ![512, H]⟩) (0 : Fin 2) [⟨⟨2, ![128, H]⟩, x0⟩, ⟨⟨2, ![128, H]⟩, x1⟩, ⟨⟨2, ![128, H]⟩, x2⟩, ⟨⟨2, ![128, H]⟩, x3⟩] h (ix2 k q) 0 (by show 0 < 4; omega) ⟨2, ![128, H]⟩ x0 rfl rfl 0 rfl (ix2 p q) hi (by show 0 + p.val = k.val; omega)
  | ⟨1, _⟩, hk =>
    have hk' : k.val = 128 * 1 + p.val := hk
    exact concatenate_apply_piece (t := ⟨2, ![512, H]⟩) (0 : Fin 2) [⟨⟨2, ![128, H]⟩, x0⟩, ⟨⟨2, ![128, H]⟩, x1⟩, ⟨⟨2, ![128, H]⟩, x2⟩, ⟨⟨2, ![128, H]⟩, x3⟩] h (ix2 k q) 1 (by show 1 < 4; omega) ⟨2, ![128, H]⟩ x1 rfl rfl 128 rfl (ix2 p q) hi (by show 128 + p.val = k.val; omega)
  | ⟨2, _⟩, hk =>
    have hk' : k.val = 128 * 2 + p.val := hk
    exact concatenate_apply_piece (t := ⟨2, ![512, H]⟩) (0 : Fin 2) [⟨⟨2, ![128, H]⟩, x0⟩, ⟨⟨2, ![128, H]⟩, x1⟩, ⟨⟨2, ![128, H]⟩, x2⟩, ⟨⟨2, ![128, H]⟩, x3⟩] h (ix2 k q) 2 (by show 2 < 4; omega) ⟨2, ![128, H]⟩ x2 rfl rfl 256 rfl (ix2 p q) hi (by show 256 + p.val = k.val; omega)
  | ⟨3, _⟩, hk =>
    have hk' : k.val = 128 * 3 + p.val := hk
    exact concatenate_apply_piece (t := ⟨2, ![512, H]⟩) (0 : Fin 2) [⟨⟨2, ![128, H]⟩, x0⟩, ⟨⟨2, ![128, H]⟩, x1⟩, ⟨⟨2, ![128, H]⟩, x2⟩, ⟨⟨2, ![128, H]⟩, x3⟩] h (ix2 k q) 3 (by show 3 < 4; omega) ⟨2, ![128, H]⟩ x3 rfl rfl 384 rfl (ix2 p q) hi (by show 384 + p.val = k.val; omega)

end Generic

section Composed
variable {H : ℕ}

/-- A rank-3 array at coordinates named up to their values. -/
private theorem m3_at (W : (⟨3, ![3, 128, H]⟩ : Shape).Idx → EReal) {a a' : Fin 3} {b b' : Fin 128} (q : Fin H)
    (ha : a.val = a'.val) (hb : b.val = b'.val) : W (ix3 a b q) = Spec.m3 W a' b' q := by
  cases Fin.ext ha; cases Fin.ext hb; rfl

/-- The root matrix with the three relation matrices stacked under it, read at a row and a column: the stacked
    weights of the specification. -/
private theorem stacked_apply (W : (⟨3, ![3, 128, H]⟩ : Shape).Idx → EReal) (R : (⟨2, ![128, H]⟩ : Shape).Idx → EReal)
    (hs0 : (⟨3, ![3, 128, H]⟩ : Shape).Slices ![0, 0, 0] ⟨3, ![1, 128, H]⟩)
    (hs1 : (⟨3, ![3, 128, H]⟩ : Shape).Slices ![1, 0, 0] ⟨3, ![1, 128, H]⟩)
    (hs2 : (⟨3, ![3, 128, H]⟩ : Shape).Slices ![2, 0, 0] ⟨3, ![1, 128, H]⟩)
    (hc : (⟨3, ![1, 128, H]⟩ : Shape).ShapeCasts ⟨2, ![128, H]⟩)
    (hcat : Shape.Concatenates [(⟨2, ![128, H]⟩ : Shape), ⟨2, ![128, H]⟩, ⟨2, ![128, H]⟩, ⟨2, ![128, H]⟩] ⟨2, ![512, H]⟩ 0)
    (k : Fin 512) (q : Fin H) :
    concatenate ⟨2, ![512, H]⟩ 0
        [⟨⟨2, ![128, H]⟩, R⟩,
         ⟨⟨2, ![128, H]⟩, shapeCast ⟨2, ![128, H]⟩ (extractStridedSlice ⟨3, ![1, 128, H]⟩ ![0, 0, 0] W hs0) hc⟩,
         ⟨⟨2, ![128, H]⟩, shapeCast ⟨2, ![128, H]⟩ (extractStridedSlice ⟨3, ![1, 128, H]⟩ ![1, 0, 0] W hs1) hc⟩,
         ⟨⟨2, ![128, H]⟩, shapeCast ⟨2, ![128, H]⟩ (extractStridedSlice ⟨3, ![1, 128, H]⟩ ![2, 0, 0] W hs2) hc⟩] hcat (ix2 k q)
      = Spec.wcat (Spec.m3 W) (Spec.m2 R) k q := by
  have hlt := k.isLt
  unfold Spec.wcat
  by_cases h0 : k.val < 128
  · rw [dif_pos h0]
    exact stack4_apply _ _ _ _ hcat k q 0 ⟨k.val, h0⟩ (by show k.val = 128 * 0 + k.val; omega)
  · rw [dif_neg h0]
    by_cases h1 : k.val < 256
    · refine (stack4_apply _ _ _ _ hcat k q 1 ⟨k.val - 128, by omega⟩ (by show k.val = 128 * 1 + (k.val - 128); omega)).trans ?_
      refine (relMat_apply W 0 (by omega) hs0 hc _ q).trans ?_
      exact m3_at W q (by show 0 = (k.val - 128) / 128; omega) (by show k.val - 128 = (k.val - 128) % 128; omega)
    · by_cases h2 : k.val < 384
      · refine (stack4_apply _ _ _ _ hcat k q 2 ⟨k.val - 256, by omega⟩ (by show k.val = 128 * 2 + (k.val - 256); omega)).trans ?_
        refine (relMat_apply W 1 (by omega) hs1 hc _ q).trans ?_
        exact m3_at W q (by show 1 = (k.val - 128) / 128; omega) (by show k.val - 256 = (k.val - 128) % 128; omega)
      · refine (stack4_apply _ _ _ _ hcat k q 3 ⟨k.val - 384, by omega⟩ (by show k.val = 128 * 3 + (k.val - 384); omega)).trans ?_
        refine (relMat_apply W 2 (by omega) hs2 hc _ q).trans ?_
        exact m3_at W q (by show 2 = (k.val - 128) / 128; omega) (by show k.val - 384 = (k.val - 128) % 128; omega)

/-- A vector laid out as one row, read at a column. -/
private theorem row_apply {α : Type} {n : ℕ} (x : (⟨1, ![n]⟩ : Shape).Idx → α) (hc : (⟨1, ![n]⟩ : Shape).ShapeCasts ⟨2, ![1, n]⟩) (q : Fin n) :
    shapeCast ⟨2, ![1, n]⟩ x hc (ix2 (0 : Fin 1) q) = x (ix1 q) :=
  shapeCast_apply x hc (ix2 (0 : Fin 1) q) (ix1 q) (by
    rw [Shape.rowMajor_val_one, Shape.rowMajor_val_two]
    show q.val = 0 * n + q.val
    omega)

/-- A matrix of 64 columns padded on the right to 128, read at one of the first 64 columns. -/
private theorem pad_cols_apply {α : Type} (x : (⟨2, ![512, 64]⟩ : Shape).Idx → α) {u : Shape} (v : u.Idx → α)
    (hp : (⟨2, ![512, 64]⟩ : Shape).Pads (![0, 0] : Fin 2 → Nat) ![0, 64] ![0, 0] ⟨2, ![512, 128]⟩) (hu : 0 < u.numel)
    (k : Fin 512) (q : Fin 64) :
    pad ⟨2, ![512, 128]⟩ ![0, 0] ![0, 64] ![0, 0] x v hp hu (ix2 k (⟨q.val, by have := q.isLt; omega⟩ : Fin 128)) = x (ix2 k q) :=
  pad_apply_of_inside ![0, 0] ![0, 64] ![0, 0] x v hp hu _ (ix2 k q) (fun a => match a with
    | ⟨0, _⟩ => by show k.val = 0 + k.val * (0 + 1); omega
    | ⟨1, _⟩ => by show q.val = 0 + q.val * (0 + 1); omega)

/-- A vector of 64 entries padded behind to 128, read at one of the first 64 entries. -/
private theorem pad_vec_apply {α : Type} (x : (⟨1, ![64]⟩ : Shape).Idx → α) {u : Shape} (v : u.Idx → α)
    (hp : (⟨1, ![64]⟩ : Shape).Pads (![0] : Fin 1 → Nat) ![64] ![0] ⟨1, ![128]⟩) (hu : 0 < u.numel) (q : Fin 64) :
    pad ⟨1, ![128]⟩ ![0] ![64] ![0] x v hp hu (ix1 (⟨q.val, by have := q.isLt; omega⟩ : Fin 128)) = x (ix1 q) :=
  pad_apply_of_inside ![0] ![64] ![0] x v hp hu _ (ix1 q) (fun a => match a with
    | ⟨0, _⟩ => by show q.val = 0 + q.val * (0 + 1); omega)

end Composed

/-! ## Layer 1: the buffers as terms over the argument arrays, then at an index -/

private theorem v30_eq : (Gen.V3 m c main_v30 : FVec Ideal S512x128 .bf16)
    = truncf .bf16 (concatenate S512x128 0
        [⟨S128x128, aR1 m c⟩,
         ⟨S128x128, shapeCast S128x128 (extractStridedSlice S1x128x128 ![0, 0, 0] (aW1 m c) slices_S3x128x128_S1x128x128_0_0_0) shapeCasts_S1x128x128_S128x128⟩,
         ⟨S128x128, shapeCast S128x128 (extractStridedSlice S1x128x128 ![1, 0, 0] (aW1 m c) slices_S3x128x128_S1x128x128_1_0_0) shapeCasts_S1x128x128_S128x128⟩,
         ⟨S128x128, shapeCast S128x128 (extractStridedSlice S1x128x128 ![2, 0, 0] (aW1 m c) slices_S3x128x128_S1x128x128_2_0_0) shapeCasts_S1x128x128_S128x128⟩]
        concatenates_S128x128_S128x128_S128x128_S128x128_S512x128_d0) bitsLt_bf16_f32 := by
  dsimp only [Gen.V3, Gen.V2, Gen.V1, Gen.V0]
  after_results
  rfl

private theorem v31_eq : (Gen.V3 m c main_v31 : FVec Ideal S1x128 .f32) = shapeCast S1x128 (aB1 m c) shapeCasts_S128_S1x128 := by
  dsimp only [Gen.V3, Gen.V2, Gen.V1, Gen.V0]
  after_results
  rfl

theorem wcat1 (k : Fin 512) (h : Fin 128) :
    (Gen.V3 m c main_v30 : FVec Ideal S512x128 .bf16) (ix2 k h) = Spec.wcat (Spec.m3 (aW1 m c)) (Spec.m2 (aR1 m c)) k h := by
  refine (congrFun (v30_eq m c) (ix2 k h)).trans ?_
  rw [truncf_apply]
  exact stacked_apply (aW1 m c) (aR1 m c) slices_S3x128x128_S1x128x128_0_0_0 slices_S3x128x128_S1x128x128_1_0_0
    slices_S3x128x128_S1x128x128_2_0_0 shapeCasts_S1x128x128_S128x128 concatenates_S128x128_S128x128_S128x128_S128x128_S512x128_d0 k h

theorem bias1 (h : Fin 128) :
    (Gen.V3 m c main_v31 : FVec Ideal S1x128 .f32) (ix2 (0 : Fin 1) h) = Spec.m1 (aB1 m c) h := by
  refine (congrFun (v31_eq m c) (ix2 (0 : Fin 1) h)).trans ?_
  exact row_apply (aB1 m c) shapeCasts_S128_S1x128 h

/-! ## Layer 2: each stretch between the regions over any contents before it, the argument arrays walked back to
    the launch, the two buffers as terms over the argument arrays, then at an index -/

section Layer2

/-- What the stretches between the regions write, over any contents before them. -/
private theorem v62_of (V : Valuation τ sig (Elt Ideal)) :
    (StableHlo.after hostOps1_2 V main_v62 : FVec Ideal S512x64 .f32)
      = concatenate S512x64 0
        [⟨S128x64, (V main_arg7 : FVec Ideal S128x64 .f32)⟩,
         ⟨S128x64, shapeCast S128x64 (extractStridedSlice S1x128x64 ![0, 0, 0] (V main_arg6 : FVec Ideal S3x128x64 .f32) slices_S3x128x64_S1x128x64_0_0_0) shapeCasts_S1x128x64_S128x64⟩,
         ⟨S128x64, shapeCast S128x64 (extractStridedSlice S1x128x64 ![1, 0, 0] (V main_arg6 : FVec Ideal S3x128x64 .f32) slices_S3x128x64_S1x128x64_1_0_0) shapeCasts_S1x128x64_S128x64⟩,
         ⟨S128x64, shapeCast S128x64 (extractStridedSlice S1x128x64 ![2, 0, 0] (V main_arg6 : FVec Ideal S3x128x64 .f32) slices_S3x128x64_S1x128x64_2_0_0) shapeCasts_S1x128x64_S128x64⟩]
        concatenates_S128x64_S128x64_S128x64_S128x64_S512x64_d0 := by
  after_results
  rfl

private theorem v63_of (V : Valuation τ sig (Elt Ideal)) :
    (StableHlo.after hostOps1_3 V main_v63 : FVec Ideal S512x128 .f32)
      = pad S512x128 ![0, 0] ![0, 64] ![0, 0] (V main_v62 : FVec Ideal S512x64 .f32)
          (sitofp .f32 (V main_c_8 : IVec S_ 32) : FVec Ideal S_ .f32) pads_S512x64_S512x128_000_0640 h_S_ := by
  after_results
  rfl

private theorem v64_of (V : Valuation τ sig (Elt Ideal)) :
    (StableHlo.after hostOps1_5 V main_v64 : FVec Ideal S128 .f32)
      = pad S128 ![0] ![64] ![0] (V main_arg8 : FVec Ideal S64 .f32)
          (sitofp .f32 (V main_c_9 : IVec S_ 32) : FVec Ideal S_ .f32) pads_S64_S128_0640 h_S_ := by
  after_results
  rfl

private theorem v65_of (V : Valuation τ sig (Elt Ideal)) :
    (StableHlo.after hostOps1_6 V main_v65 : FVec Ideal S512x128 .bf16)
      = (truncf .bf16 (V main_v63 : FVec Ideal S512x128 .f32) bitsLt_bf16_f32 : FVec Ideal S512x128 .bf16) := by
  after_results

private theorem v66_of (V : Valuation τ sig (Elt Ideal)) :
    (StableHlo.after hostOps1_6 V main_v66 : FVec Ideal S1x128 .f32)
      = shapeCast S1x128 (V main_v64 : FVec Ideal S128 .f32) shapeCasts_S128_S1x128 := by
  after_results
  rfl

variable (o : Gen.Outs (F := Ideal))

set_option maxRecDepth 1104 in
/-- An argument array is as launched when the stretch that stacks the second layer's weights starts. -/
private theorem V6_arg6 : (Gen.V6 m o c main_arg6 : FVec Ideal S3x128x64 .f32) = aW2 m c :=
  (V6_of m o c main_arg6 (by decide)).trans <| (V5_of m o c main_arg6 (by decide)).trans <| (V4_of m o c main_arg6 (by decide)).trans <|
    (V3_of m c main_arg6 (by decide)).trans <| (V2_of m c main_arg6 (by decide)).trans <| (V1_of m c main_arg6 (by decide)).trans rfl

set_option maxRecDepth 1104 in
private theorem V6_arg7 : (Gen.V6 m o c main_arg7 : FVec Ideal S128x64 .f32) = aR2 m c :=
  (V6_of m o c main_arg7 (by decide)).trans <| (V5_of m o c main_arg7 (by decide)).trans <| (V4_of m o c main_arg7 (by decide)).trans <|
    (V3_of m c main_arg7 (by decide)).trans <| (V2_of m c main_arg7 (by decide)).trans <| (V1_of m c main_arg7 (by decide)).trans rfl

set_option maxRecDepth 1104 in
private theorem V9_arg8 : (Gen.V9 m o c main_arg8 : FVec Ideal S64 .f32) = aB2 m c :=
  (V9_of m o c main_arg8 (by decide)).trans <| (V8_of m o c main_arg8 (by decide)).trans <| (V7_of m o c main_arg8 (by decide)).trans <|
    (V6_of m o c main_arg8 (by decide)).trans <| (V5_of m o c main_arg8 (by decide)).trans <| (V4_of m o c main_arg8 (by decide)).trans <|
    (V3_of m c main_arg8 (by decide)).trans <| (V2_of m c main_arg8 (by decide)).trans <| (V1_of m c main_arg8 (by decide)).trans rfl

end Layer2

section Layer2b
variable (o : Gen.Outs (F := Ideal))

set_option maxRecDepth 1104 in
private theorem v65_eq : (Gen.V11 m o c main_v65 : FVec Ideal S512x128 .bf16)
    = (truncf .bf16 (pad S512x128 ![0, 0] ![0, 64] ![0, 0]
        (concatenate S512x64 0
          [⟨S128x64, aR2 m c⟩,
           ⟨S128x64, shapeCast S128x64 (extractStridedSlice S1x128x64 ![0, 0, 0] (aW2 m c) slices_S3x128x64_S1x128x64_0_0_0) shapeCasts_S1x128x64_S128x64⟩,
           ⟨S128x64, shapeCast S128x64 (extractStridedSlice S1x128x64 ![1, 0, 0] (aW2 m c) slices_S3x128x64_S1x128x64_1_0_0) shapeCasts_S1x128x64_S128x64⟩,
           ⟨S128x64, shapeCast S128x64 (extractStridedSlice S1x128x64 ![2, 0, 0] (aW2 m c) slices_S3x128x64_S1x128x64_2_0_0) shapeCasts_S1x128x64_S128x64⟩]
          concatenates_S128x64_S128x64_S128x64_S128x64_S512x64_d0)
        (sitofp .f32 (Gen.V7 m o c main_c_8 : IVec S_ 32) : FVec Ideal S_ .f32) pads_S512x64_S512x128_000_0640 h_S_) bitsLt_bf16_f32 : FVec Ideal S512x128 .bf16) := by
  have h11 : (Gen.V11 m o c main_v65 : FVec Ideal S512x128 .bf16)
      = (truncf .bf16 (Gen.V10 m o c main_v63 : FVec Ideal S512x128 .f32) bitsLt_bf16_f32 : FVec Ideal S512x128 .bf16) := v65_of (Gen.V10 m o c)
  have h10 : Gen.V10 m o c main_v63 = Gen.V9 m o c main_v63 := V10_of m o c main_v63 (by decide)
  have h9 : Gen.V9 m o c main_v63 = Gen.V8 m o c main_v63 := V9_of m o c main_v63 (by decide)
  have h8 : (Gen.V8 m o c main_v63 : FVec Ideal S512x128 .f32)
      = pad S512x128 ![0, 0] ![0, 64] ![0, 0] (Gen.V7 m o c main_v62 : FVec Ideal S512x64 .f32)
          (sitofp .f32 (Gen.V7 m o c main_c_8 : IVec S_ 32) : FVec Ideal S_ .f32) pads_S512x64_S512x128_000_0640 h_S_ := v63_of (Gen.V7 m o c)
  have h7 := v62_of (Gen.V6 m o c)
  rw [V6_arg6 m c o, V6_arg7 m c o] at h7
  rw [h11, h10, h9, h8]
  exact congrArg (fun x => (truncf .bf16 (pad S512x128 ![0, 0] ![0, 64] ![0, 0] x
    (sitofp .f32 (Gen.V7 m o c main_c_8 : IVec S_ 32) : FVec Ideal S_ .f32) pads_S512x64_S512x128_000_0640 h_S_) bitsLt_bf16_f32 : FVec Ideal S512x128 .bf16)) h7

end Layer2b

section Layer2c
variable (o : Gen.Outs (F := Ideal))

set_option maxRecDepth 1104 in
private theorem v66_eq : (Gen.V11 m o c main_v66 : FVec Ideal S1x128 .f32)
    = shapeCast S1x128 (pad S128 ![0] ![64] ![0] (aB2 m c)
        (sitofp .f32 (Gen.V9 m o c main_c_9 : IVec S_ 32) : FVec Ideal S_ .f32) pads_S64_S128_0640 h_S_) shapeCasts_S128_S1x128 := by
  have h11 : (Gen.V11 m o c main_v66 : FVec Ideal S1x128 .f32)
      = shapeCast S1x128 (Gen.V10 m o c main_v64 : FVec Ideal S128 .f32) shapeCasts_S128_S1x128 := v66_of (Gen.V10 m o c)
  have h10 := v64_of (Gen.V9 m o c)
  rw [V9_arg8 m c o] at h10
  rw [h11]
  exact congrArg (fun x => shapeCast S1x128 x shapeCasts_S128_S1x128) h10

end Layer2c

theorem wcat2 (o : Gen.Outs (F := Ideal)) (k : Fin 512) (h : Fin 64) :
    (Gen.V11 m o c main_v65 : FVec Ideal S512x128 .bf16) (ix2 k (⟨h.val, by have := h.isLt; omega⟩ : Fin 128))
      = Spec.wcat (Spec.m3 (aW2 m c)) (Spec.m2 (aR2 m c)) k h := by
  refine (congrFun (v65_eq m c o) _).trans ?_
  rw [truncf_apply]
  refine (pad_cols_apply _ _ pads_S512x64_S512x128_000_0640 h_S_ k h).trans ?_
  exact stacked_apply (aW2 m c) (aR2 m c) slices_S3x128x64_S1x128x64_0_0_0 slices_S3x128x64_S1x128x64_1_0_0
    slices_S3x128x64_S1x128x64_2_0_0 shapeCasts_S1x128x64_S128x64 concatenates_S128x64_S128x64_S128x64_S128x64_S512x64_d0 k h

theorem bias2 (o : Gen.Outs (F := Ideal)) (h : Fin 64) :
    (Gen.V11 m o c main_v66 : FVec Ideal S1x128 .f32) (ix2 (0 : Fin 1) (⟨h.val, by have := h.isLt; omega⟩ : Fin 128))
      = Spec.m1 (aB2 m c) h := by
  refine (congrFun (v66_eq m c o) _).trans ?_
  refine (row_apply _ shapeCasts_S128_S1x128 _).trans ?_
  exact pad_vec_apply (aB2 m c) _ pads_S64_S128_0640 h_S_ h

end Cert.KernelIdeal.Hand

end
-- ==== Proof.KI.Value.lean ====
/-
  The idealized kernel program's result, entry by entry: both layers in the aggregate-first arrangement. Region 0's
  output array is the first layer (with the positive part) of the node features; the host operations between the
  regions build the second layer's long rows from it; region 1's output array, cut to its first 64 columns by the last
  host operation, is the second layer.
-/
import proofs.«404525_j62474594287730_1_alg».proof.Proof.KI.Run
import proofs.«404525_j62474594287730_1_alg».proof.Proof.KI.BlockValue
import proofs.«404525_j62474594287730_1_alg».proof.Proof.KI.HostX
import proofs.«404525_j62474594287730_1_alg».proof.Proof.KI.HostW

open scoped BigOperators

noncomputable section

namespace Cert.KernelIdeal.Hand

open Idealize.ShloMosaic Idealize.ShloMosaic.TcCoe Idealize.ShloMosaic.ValueIdx Idealize.SL.Sem
open Cert.KernelIdeal Cert.KernelIdeal.Gen Cert.Proof

variable (m : (ℓ : Loc nD τ sig) → Buf (Elt Ideal) ℓ) (c : Dev nD)

/-- The last host operation: the result array is the first 64 columns of what region 1 left. -/
private theorem V13_slice (o : Gen.Outs (F := Ideal)) :
    (Gen.V13 m o c main_v68 : FVec Ideal S50000x64 .f32)
      = extractStridedSlice S50000x64 ![0, 0] (o 12 main_v67 c : FVec Ideal S50000x128 .f32) slices_S50000x128_S50000x64_0_0 := by
  dsimp only [Gen.V13, Gen.hostOps2]
  after_results
  dsimp only [Gen.V12]
  rw [Function.update_self]

/-- The result array at (n, h) is region 1's output array at (n, h), h read as a column of the 128. -/
private theorem kernelOut_arr1 (n : Fin 50000) (h : Fin 64) (h128 : h.val < 128) :
    (kernelOut (F := Ideal) m c : FVec Ideal S50000x64 .f32) (ix2 n h)
      = ((dat1 (F := Ideal) (E1 m) c).arrAt 3 cfg1.N : FVec Ideal S50000x128 .f32) (ix2 n (⟨h.val, h128⟩ : Fin 128)) := by
  unfold kernelOut
  rw [V13_slice, outs12]
  exact extractStridedSlice_apply ![0, 0] _ slices_S50000x128_S50000x64_0_0 (ix2 n h) (ix2 n (⟨h.val, h128⟩ : Fin 128))
    (by intro a; fin_cases a <;> simp [ix2])

/-- What region 0 leaves in its output array, at the first stage of the leavings. -/
private theorem outsA4 : outsA m 4 main_v32 c = (dat0 (E0 m) c).arrAt 3 cfg0.N := by
  rw [← outs4 m c]
  simp only [outs, outsA, if_pos]

/-- A region's value at (n, h') is the layer's at (n, h) once its three operands are the long rows, the stacked weights
    and the bias at those coordinates. -/
private theorem regionAt_eq_layerK {H : ℕ} (relu : Bool) (X : (⟨2, ![50000, 512]⟩ : Shape).Idx → EReal)
    (Wc : (⟨2, ![512, 128]⟩ : Shape).Idx → EReal) (bc : (⟨2, ![1, 128]⟩ : Shape).Idx → EReal)
    (x : Fin 50000 → Fin 128 → EReal) (s d : Fin 800000 → Fin 50000) (t : Fin 800000 → Fin 3)
    (W : Fin 3 → Fin 128 → Fin H → EReal) (root : Fin 128 → Fin H → EReal) (b : Fin H → EReal)
    (n : Fin 50000) (h : Fin H) (h' : Fin 128)
    (hX : ∀ k : Fin 512, X (ix2 n k) = Spec.xcat x s d t n k)
    (hW : ∀ k : Fin 512, Wc (ix2 k h') = Spec.wcat W root k h)
    (hb : bc (ix2 (0 : Fin 1) h') = b h) :
    Spec.regionAt relu X Wc bc n h' = Spec.layerK relu x s d t W root b n h := by
  unfold Spec.regionAt Spec.layerK
  rw [hb, Finset.sum_congr rfl fun k _ => by rw [hX k, hW k]]

/-- Region 0's output array, read by its coordinates, is the first layer. -/
private theorem layer1 (hr : Spec.InRange (aEI m c) (aET m c)) :
    Spec.m2 (outsA m 4 main_v32 c : FVec Ideal S50000x128 .f32)
      = Spec.layerK true (Spec.m2 (aX m c)) (eS m c) (eD m c) (eT m c) (Spec.m3 (aW1 m c)) (Spec.m2 (aR1 m c)) (Spec.m1 (aB1 m c)) := by
  funext n h
  rw [outsA4]
  unfold Spec.m2
  rw [arr0_apply (E0 m) c n h]
  exact regionAt_eq_layerK true _ _ _ _ _ _ _ _ _ _ n h h (xcat1 m c hr n) (fun k => wcat1 m c k h) (bias1 m c h)

theorem kernelOut_apply (hr : Spec.InRange (aEI m c) (aET m c)) (n : Fin 50000) (h : Fin 64) :
    (kernelOut (F := Ideal) m c : FVec Ideal S50000x64 .f32) (ix2 n h)
      = Spec.netK (Spec.m2 (aX m c)) (eS m c) (eD m c) (eT m c) (Spec.m3 (aW1 m c)) (Spec.m2 (aR1 m c)) (Spec.m1 (aB1 m c))
          (Spec.m3 (aW2 m c)) (Spec.m2 (aR2 m c)) (Spec.m1 (aB2 m c)) n h := by
  have h128 : h.val < 128 := by have := h.isLt; omega
  unfold Spec.netK
  rw [kernelOut_arr1 m c n h h128, arr1_apply (E1 m) c n ⟨h.val, h128⟩, ← layer1 m c hr]
  exact regionAt_eq_layerK false _ _ _ _ _ _ _ _ _ _ n h ⟨h.val, h128⟩ (xcat2 m c (outsA m) hr n)
    (fun k => wcat2 m c (outsA m) k h) (bias2 m c (outsA m) h)

end Cert.KernelIdeal.Hand

end
-- ==== Proof.Ref.Layer1.lean ====
/-
  The reference's first layer, read at an index: the transform-first arrangement of the node features, with the
  positive part. Per relation the program multiplies every node's row by the relation's matrix, gathers each edge's
  source row, multiplies it by the 0/1 indicator of the relation, scatter-adds rows and indicators by target node, and
  divides the sum by the count (at least one); the three quotients are added in turn to the root term plus the bias.
  With every index word in range the gather reads the source's row and a scatter lands on the edge's target.
-/
import proofs.«404525_j62474594287730_1_alg».proof.Proof.Gen.ReferenceIdeal.Read
import proofs.«404525_j62474594287730_1_alg».proof.Proof.Spec
import proofs.«404525_j62474594287730_1_alg».proof.Proof.LibGatherScatter
import Idealize.ShloMosaic.Lib.Pipeline.Value
import Idealize.ShloMosaic.Lib.ValueLayout
import Idealize.ShloMosaic.PureOps.Ideal.Laws

open scoped BigOperators

noncomputable section

namespace Cert.ReferenceIdeal.Hand

open Idealize.ShloMosaic Idealize.ShloMosaic.TcCoe Idealize.ShloMosaic.ValueIdx Idealize.SL.Sem
open Cert.ReferenceIdeal Cert.ReferenceIdeal.Gen Cert.ReferenceIdeal.Read Cert.Proof

/-- The f32 pattern of the number one. -/
private theorem one_f32 : Ideal.ofBits .f32 0x3F800000#32 = 1 := by
  rw [show (1 : EReal) = ((1 : ℝ) : EReal) by norm_cast]
  simp [Ideal.ofBits, Ideal.ieee, -EReal.coe_mul]; norm_num

/-- The row gather of the program, with every start word a row number: row `s e` of the operand. -/
private theorem gatherRow (h : FVec Ideal S50000x128 .f32) (idx : IVec S800000x1 32) (s : Fin 800000 → Fin 50000)
    (hs : ∀ e : Fin 800000, (idx (ix2 e (0 : Fin 1))).toInt = ((s e).val : Int)) (e : Fin 800000) (q : Fin 128) :
    Host.gather gather_S50000x128_S800000x1_S800000x128_1_0_n_n_0_1_1128 h idx (ix2 e q) = h (ix2 (s e) q) := by
  have hg : gather_S50000x128_S800000x1_S800000x128_1_0_n_n_0_1_1128
      = GS.gathD 50000 800000 128 gather_S50000x128_S800000x1_S800000x128_1_0_n_n_0_1_1128_wf := rfl
  rw [hg, GS.gather_gathD_apply (by decide), GS.row_of_toInt _ _ _ (hs e)]

/-- The row scatter-add of the program into zeros, with every index word a row number: the sum of the updates of
    the edges into the row. -/
private theorem scatRow (z : FVec Ideal S50000x128 .f32) (idx : IVec S800000x1 32) (upd : FVec Ideal S800000x128 .f32)
    (d : Fin 800000 → Fin 50000) (hz : ∀ i, z i = 0)
    (hd : ∀ e : Fin 800000, (idx (ix2 e (0 : Fin 1))).toInt = ((d e).val : Int)) (n : Fin 50000) (f : Fin 128) :
    Host.scatterAdd scatter_S50000x128_S800000x1_S800000x128_1_0_0_1 z idx upd (ix2 n f)
      = ∑ e ∈ Spec.into d n, upd (ix2 e f) := by
  have hg : scatter_S50000x128_S800000x1_S800000x128_1_0_0_1
      = GS.scatD 50000 800000 128 scatter_S50000x128_S800000x1_S800000x128_1_0_0_1_wf := rfl
  rw [hg, GS.scatterAdd_scatD_apply, hz, zero_add]
  unfold Spec.into
  refine Finset.sum_congr (Finset.filter_congr fun e _ => ?_) fun _ _ => rfl
  rw [hd e]
  constructor
  · intro h; exact Fin.ext (by exact_mod_cast h)
  · intro h; rw [h]

/-- The entry scatter-add of the program into zeros: the sum of the updates of the edges into the entry. -/
private theorem scatEntry (z : FVec Ideal S50000 .f32) (idx : IVec S800000x1 32) (upd : FVec Ideal S800000 .f32)
    (d : Fin 800000 → Fin 50000) (hz : ∀ i, z i = 0)
    (hd : ∀ e : Fin 800000, (idx (ix2 e (0 : Fin 1))).toInt = ((d e).val : Int)) (n : Fin 50000) :
    Host.scatterAdd scatter_S50000_S800000x1_S800000_n_0_0_1 z idx upd (ix1 n)
      = ∑ e ∈ Spec.into d n, upd (ix1 e) := by
  have hg : scatter_S50000_S800000x1_S800000_n_0_0_1
      = GS.scat1 50000 800000 scatter_S50000_S800000x1_S800000_n_0_0_1_wf := rfl
  rw [hg, GS.scatterAdd_scat1_apply, hz, zero_add]
  unfold Spec.into
  refine Finset.sum_congr (Finset.filter_congr fun e _ => ?_) fun _ _ => rfl
  rw [hd e]
  constructor
  · intro h; exact Fin.ext (by exact_mod_cast h)
  · intro h; rw [h]

/-! ## Words -/

/-- The indicator word of "the relation word is `c`", read unsigned into a float: one when the relations agree. -/
private theorem maskWord (w c : BitVec 32) (t r : Fin 3) (hc : c.toInt = ((r.val : Nat) : Int))
    (hw : w.toInt = ((t.val : Nat) : Int)) :
    FloatOps.uitofp (F := Ideal) .f32 (IntOp.cmpi .eq w c) = if t = r then (1 : EReal) else 0 := by
  show (((BitVec.ofBool (w == c)).toNat : ℝ) : EReal) = _
  by_cases h : t = r
  · have hwc : w = c := BitVec.eq_of_toInt_eq (by rw [hw, hc, h])
    subst hwc
    simp [h]
  · have hwc : ¬ w = c := fun hwc => h (Fin.ext (by
      have h2 := hw; rw [hwc, hc] at h2; exact_mod_cast h2.symm))
    simp [h, hwc]

/-- A word that is not negative is left alone by "if negative add the extent". -/
private theorem selWord (w a : BitVec 32) (hw : 0 ≤ w.toInt) :
    Scalar.select (IntOp.cmpi .slt w 0#32) a w = w := by
  have h0 : IntOp.cmpi .slt w 0#32 = 0#1 := by
    show BitVec.ofBool (w.slt 0#32) = 0#1
    have : w.slt 0#32 = false := by
      rw [BitVec.slt]
      simp
      exact hw
    rw [this]; rfl
  rw [h0]; exact select_zero _ _

/-! ## The two rows of the edge array -/

private theorem v1_at (x1 : IVec S2x800000 32) (e : Fin 800000) :
    val_main_v1 (F := Ideal) x1 (ix1 e) = x1 (ix2 (0 : Fin 2) e) := by
  rw [val_main_v1_apply, val_main_v0_apply]
  congr 1
  funext a
  refine Fin.ext ?_
  match a with
  | ⟨0, _⟩ => rfl
  | ⟨1, _⟩ => exact Nat.mod_eq_of_lt e.isLt

private theorem v3_at (x1 : IVec S2x800000 32) (e : Fin 800000) :
    val_main_v3 (F := Ideal) x1 (ix1 e) = x1 (ix2 (1 : Fin 2) e) := by
  rw [val_main_v3_apply, val_main_v2_apply]
  congr 1
  funext a
  refine Fin.ext ?_
  match a with
  | ⟨0, _⟩ => rfl
  | ⟨1, _⟩ => exact Nat.mod_eq_of_lt e.isLt

/-! ## The root term and the bias -/

/-- Every node's row times the root matrix. -/
private theorem root_at (x0 : FVec Ideal S50000x128 .f32) (x4 : FVec Ideal S128x128 .f32) (n : Fin 50000) (f : Fin 128) :
    val_main_v4 (F := Ideal) x0 x4 (ix2 n f) = Spec.lin (Spec.m2 x0) (Spec.m2 x4) n f := by
  rw [val_main_v4_apply]
  unfold Spec.lin Spec.m2
  refine Finset.sum_congr rfl fun k _ => ?_
  have el : lidx_main_v4 (ix2 n f) k = ix2 n k := funext fun a => Fin.ext (by
    match a with
    | ⟨0, _⟩ => rfl
    | ⟨1, _⟩ => rfl)
  have er : ridx_main_v4 (ix2 n f) k = ix2 k f := funext fun a => Fin.ext (by
    match a with
    | ⟨0, _⟩ => rfl
    | ⟨1, _⟩ => rfl)
  rw [el, er]

/-- The bias, broadcast along the nodes. -/
private theorem bias_at (x5 : FVec Ideal S128 .f32) (n : Fin 50000) (f : Fin 128) :
    val_main_v6 (F := Ideal) x5 (ix2 n f) = Spec.m1 x5 f := by
  have ei : idx_main_v5 (idx_main_v6 (ix2 n f)) = ix1 f := funext fun a => Fin.ext (by
    match a with
    | ⟨0, _⟩ => rfl)
  rw [val_main_v6_apply, val_main_v5_apply, ei]
  rfl

/-! ## The first relation -/

/-- The first relation's matrix: the slice of the weights, reshaped. -/
private theorem w0_at (x3 : FVec Ideal S3x128x128 .f32) (k f : Fin 128) :
    val_main_v9 (F := Ideal) x3 (ix2 k f) = x3 (ix3 (0 : Fin 3) k f) := by
  rw [val_main_v9_apply, val_main_v8_apply]
  congr 1
  funext a
  refine Fin.ext ?_
  have hk := k.isLt
  have hf := f.isLt
  match a with
  | ⟨0, _⟩ => rfl
  | ⟨1, _⟩ => show (k.val * 128 + f.val) / 128 % 128 = k.val; omega
  | ⟨2, _⟩ => show (k.val * 128 + f.val) % 128 = f.val; omega

/-- Every node's row times the first relation's matrix. -/
private theorem h0_at (x0 : FVec Ideal S50000x128 .f32) (x3 : FVec Ideal S3x128x128 .f32) (n : Fin 50000) (f : Fin 128) :
    val_main_v10 (F := Ideal) x0 x3 (ix2 n f) = Spec.lin (Spec.m2 x0) (Spec.m3 x3 (0 : Fin 3)) n f := by
  rw [val_main_v10_apply]
  unfold Spec.lin Spec.m2 Spec.m3
  refine Finset.sum_congr rfl fun k _ => ?_
  have el : lidx_main_v10 (ix2 n f) k = ix2 n k := funext fun a => Fin.ext (by
    match a with
    | ⟨0, _⟩ => rfl
    | ⟨1, _⟩ => rfl)
  have er : ridx_main_v10 (ix2 n f) k = ix2 k f := funext fun a => Fin.ext (by
    match a with
    | ⟨0, _⟩ => rfl
    | ⟨1, _⟩ => rfl)
  rw [el, er, w0_at]

/-- The indicator of the first relation, as a float. -/
private theorem mask0_at (x1 : IVec S2x800000 32) (x2 : IVec S800000 32) (hr : Spec.InRange x1 x2) (e : Fin 800000) :
    val_main_v13 (F := Ideal) x2 (ix1 e) = Spec.mask (Spec.relOf x2) (0 : Fin 3) e := by
  rw [val_main_v13_apply, val_main_v12_apply, val_main_v11_apply, val_main_c_apply]
  unfold Spec.mask
  exact maskWord _ _ _ _ (by decide) (hr.rel e)

/-- The gather's start words: the source words, none negative, so left alone. -/
private theorem src0_at (x1 : IVec S2x800000 32) (x2 : IVec S800000 32) (hr : Spec.InRange x1 x2) (e : Fin 800000) :
    (val_main_v19 (F := Ideal) x1 (ix2 e (0 : Fin 1))).toInt = ((Spec.srcOf x1 e).val : Int) := by
  have ei : idx_main_v19 (ix2 e (0 : Fin 1)) = ix1 e := funext fun a => Fin.ext (by
    match a with
    | ⟨0, _⟩ => rfl)
  rw [val_main_v19_apply, ei, val_main_v18_apply, val_main_v15_apply, val_main_v14_apply, val_main_c_0_apply, v1_at,
    selWord _ _ (by rw [hr.src e]; exact Int.natCast_nonneg _)]
  exact hr.src e

/-- The two scatters' index words: the target words. -/
private theorem dst0a_at (x1 : IVec S2x800000 32) (x2 : IVec S800000 32) (hr : Spec.InRange x1 x2) (e : Fin 800000) :
    (val_main_v25 (F := Ideal) x1 (ix2 e (0 : Fin 1))).toInt = ((Spec.dstOf x1 e).val : Int) := by
  have ei : idx_main_v25 (ix2 e (0 : Fin 1)) = ix1 e := funext fun a => Fin.ext (by
    match a with
    | ⟨0, _⟩ => rfl)
  rw [val_main_v25_apply, ei, v3_at]
  exact hr.dst e

private theorem dst0b_at (x1 : IVec S2x800000 32) (x2 : IVec S800000 32) (hr : Spec.InRange x1 x2) (e : Fin 800000) :
    (val_main_v28 (F := Ideal) x1 (ix2 e (0 : Fin 1))).toInt = ((Spec.dstOf x1 e).val : Int) := by
  have ei : idx_main_v28 (ix2 e (0 : Fin 1)) = ix1 e := funext fun a => Fin.ext (by
    match a with
    | ⟨0, _⟩ => rfl)
  rw [val_main_v28_apply, ei, v3_at]
  exact hr.dst e

/-- The summed messages of the first relation into a node. -/
private theorem num0_at (x0 : FVec Ideal S50000x128 .f32) (x1 : IVec S2x800000 32) (x2 : IVec S800000 32)
    (x3 : FVec Ideal S3x128x128 .f32) (hr : Spec.InRange x1 x2) (n : Fin 50000) (f : Fin 128) :
    val_main_v26 (F := Ideal) x0 x1 x2 x3 (ix2 n f)
      = ∑ e ∈ Spec.into (Spec.dstOf x1) n,
          Spec.lin (Spec.m2 x0) (Spec.m3 x3 (0 : Fin 3)) (Spec.srcOf x1 e) f * Spec.mask (Spec.relOf x2) (0 : Fin 3) e := by
  unfold val_main_v26
  rw [scatRow _ _ _ (Spec.dstOf x1)
    (fun i => by rw [val_main_v24_apply, val_main_cst_apply, Ideal.ofBits_def, Ideal.ofBits_zero_f32]) (dst0a_at x1 x2 hr)]
  refine Finset.sum_congr rfl fun e _ => ?_
  have ei : idx_main_v21 (idx_main_v22 (ix2 e f)) = ix1 e := funext fun a => Fin.ext (by
    match a with
    | ⟨0, _⟩ => rfl)
  rw [val_main_v23_apply, Ideal.mulf_def, val_main_v22_apply, val_main_v21_apply, ei, mask0_at x1 x2 hr]
  unfold val_main_v20
  rw [gatherRow _ _ (Spec.srcOf x1) (src0_at x1 x2 hr), h0_at]

/-- The number of edges of the first relation into a node. -/
private theorem cnt0_at (x1 : IVec S2x800000 32) (x2 : IVec S800000 32) (hr : Spec.InRange x1 x2) (n : Fin 50000) :
    val_main_v29 (F := Ideal) x1 x2 (ix1 n) = ∑ e ∈ Spec.into (Spec.dstOf x1) n, Spec.mask (Spec.relOf x2) (0 : Fin 3) e := by
  unfold val_main_v29
  rw [scatEntry _ _ _ (Spec.dstOf x1)
    (fun i => by rw [val_main_v27_apply, val_main_cst_2_apply, Ideal.ofBits_def, Ideal.ofBits_zero_f32]) (dst0b_at x1 x2 hr)]
  exact Finset.sum_congr rfl fun e _ => mask0_at x1 x2 hr e

/-- The first relation's mean message, as the program computes it. -/
private theorem msg0_at (x0 : FVec Ideal S50000x128 .f32) (x1 : IVec S2x800000 32) (x2 : IVec S800000 32)
    (x3 : FVec Ideal S3x128x128 .f32) (hr : Spec.InRange x1 x2) (n : Fin 50000) (f : Fin 128) :
    val_main_v34 (F := Ideal) x0 x1 x2 x3 (ix2 n f)
      = Spec.msgR (Spec.m2 x0) (Spec.srcOf x1) (Spec.dstOf x1) (Spec.relOf x2) (Spec.m3 x3 (0 : Fin 3)) (0 : Fin 3) n f := by
  have ei : idx_main_v32 (idx_main_v33 (ix2 n f)) = ix1 n := funext fun a => Fin.ext (by
    match a with
    | ⟨0, _⟩ => rfl)
  rw [val_main_v34_apply, Ideal.hostDivf_def, num0_at x0 x1 x2 x3 hr, val_main_v33_apply, val_main_v32_apply, ei, val_main_v31_apply,
    Ideal.maximumf_def, cnt0_at x1 x2 hr, val_main_v30_apply, val_main_cst_3_apply, Ideal.ofBits_def, one_f32]
  rfl

/-! ## The second relation -/

/-- The second relation's matrix: the slice of the weights, reshaped. -/
private theorem w1_at (x3 : FVec Ideal S3x128x128 .f32) (k f : Fin 128) :
    val_main_v37 (F := Ideal) x3 (ix2 k f) = x3 (ix3 (1 : Fin 3) k f) := by
  rw [val_main_v37_apply, val_main_v36_apply]
  congr 1
  funext a
  refine Fin.ext ?_
  have hk := k.isLt
  have hf := f.isLt
  match a with
  | ⟨0, _⟩ => rfl
  | ⟨1, _⟩ => show (k.val * 128 + f.val) / 128 % 128 = k.val; omega
  | ⟨2, _⟩ => show (k.val * 128 + f.val) % 128 = f.val; omega

/-- Every node's row times the second relation's matrix. -/
private theorem h1_at (x0 : FVec Ideal S50000x128 .f32) (x3 : FVec Ideal S3x128x128 .f32) (n : Fin 50000) (f : Fin 128) :
    val_main_v38 (F := Ideal) x0 x3 (ix2 n f) = Spec.lin (Spec.m2 x0) (Spec.m3 x3 (1 : Fin 3)) n f := by
  rw [val_main_v38_apply]
  unfold Spec.lin Spec.m2 Spec.m3
  refine Finset.sum_congr rfl fun k _ => ?_
  have el : lidx_main_v38 (ix2 n f) k = ix2 n k := funext fun a => Fin.ext (by
    match a with
    | ⟨0, _⟩ => rfl
    | ⟨1, _⟩ => rfl)
  have er : ridx_main_v38 (ix2 n f) k = ix2 k f := funext fun a => Fin.ext (by
    match a with
    | ⟨0, _⟩ => rfl
    | ⟨1, _⟩ => rfl)
  rw [el, er, w1_at]

/-- The indicator of the second relation, as a float. -/
private theorem mask1_at (x1 : IVec S2x800000 32) (x2 : IVec S800000 32) (hr : Spec.InRange x1 x2) (e : Fin 800000) :
    val_main_v41 (F := Ideal) x2 (ix1 e) = Spec.mask (Spec.relOf x2) (1 : Fin 3) e := by
  rw [val_main_v41_apply, val_main_v40_apply, val_main_v39_apply, val_main_c_4_apply]
  unfold Spec.mask
  exact maskWord _ _ _ _ (by decide) (hr.rel e)

/-- The gather's start words: the source words, none negative, so left alone. -/
private theorem src1_at (x1 : IVec S2x800000 32) (x2 : IVec S800000 32) (hr : Spec.InRange x1 x2) (e : Fin 800000) :
    (val_main_v47 (F := Ideal) x1 (ix2 e (0 : Fin 1))).toInt = ((Spec.srcOf x1 e).val : Int) := by
  have ei : idx_main_v47 (ix2 e (0 : Fin 1)) = ix1 e := funext fun a => Fin.ext (by
    match a with
    | ⟨0, _⟩ => rfl)
  rw [val_main_v47_apply, ei, val_main_v46_apply, val_main_v43_apply, val_main_v42_apply, val_main_c_5_apply, v1_at,
    selWord _ _ (by rw [hr.src e]; exact Int.natCast_nonneg _)]
  exact hr.src e

/-- The two scatters' index words: the target words. -/
private theorem dst1a_at (x1 : IVec S2x800000 32) (x2 : IVec S800000 32) (hr : Spec.InRange x1 x2) (e : Fin 800000) :
    (val_main_v53 (F := Ideal) x1 (ix2 e (0 : Fin 1))).toInt = ((Spec.dstOf x1 e).val : Int) := by
  have ei : idx_main_v53 (ix2 e (0 : Fin 1)) = ix1 e := funext fun a => Fin.ext (by
    match a with
    | ⟨0, _⟩ => rfl)
  rw [val_main_v53_apply, ei, v3_at]
  exact hr.dst e

private theorem dst1b_at (x1 : IVec S2x800000 32) (x2 : IVec S800000 32) (hr : Spec.InRange x1 x2) (e : Fin 800000) :
    (val_main_v56 (F := Ideal) x1 (ix2 e (0 : Fin 1))).toInt = ((Spec.dstOf x1 e).val : Int) := by
  have ei : idx_main_v56 (ix2 e (0 : Fin 1)) = ix1 e := funext fun a => Fin.ext (by
    match a with
    | ⟨0, _⟩ => rfl)
  rw [val_main_v56_apply, ei, v3_at]
  exact hr.dst e

/-- The summed messages of the second relation into a node. -/
private theorem num1_at (x0 : FVec Ideal S50000x128 .f32) (x1 : IVec S2x800000 32) (x2 : IVec S800000 32)
    (x3 : FVec Ideal S3x128x128 .f32) (hr : Spec.InRange x1 x2) (n : Fin 50000) (f : Fin 128) :
    val_main_v54 (F := Ideal) x0 x1 x2 x3 (ix2 n f)
      = ∑ e ∈ Spec.into (Spec.dstOf x1) n,
          Spec.lin (Spec.m2 x0) (Spec.m3 x3 (1 : Fin 3)) (Spec.srcOf x1 e) f * Spec.mask (Spec.relOf x2) (1 : Fin 3) e := by
  unfold val_main_v54
  rw [scatRow _ _ _ (Spec.dstOf x1)
    (fun i => by rw [val_main_v52_apply, val_main_cst_7_apply, Ideal.ofBits_def, Ideal.ofBits_zero_f32]) (dst1a_at x1 x2 hr)]
  refine Finset.sum_congr rfl fun e _ => ?_
  have ei : idx_main_v49 (idx_main_v50 (ix2 e f)) = ix1 e := funext fun a => Fin.ext (by
    match a with
    | ⟨0, _⟩ => rfl)
  rw [val_main_v51_apply, Ideal.mulf_def, val_main_v50_apply, val_main_v49_apply, ei, mask1_at x1 x2 hr]
  unfold val_main_v48
  rw [gatherRow _ _ (Spec.srcOf x1) (src1_at x1 x2 hr), h1_at]

/-- The number of edges of the second relation into a node. -/
private theorem cnt1_at (x1 : IVec S2x800000 32) (x2 : IVec S800000 32) (hr : Spec.InRange x1 x2) (n : Fin 50000) :
    val_main_v57 (F := Ideal) x1 x2 (ix1 n) = ∑ e ∈ Spec.into (Spec.dstOf x1) n, Spec.mask (Spec.relOf x2) (1 : Fin 3) e := by
  unfold val_main_v57
  rw [scatEntry _ _ _ (Spec.dstOf x1)
    (fun i => by rw [val_main_v55_apply, val_main_cst_8_apply, Ideal.ofBits_def, Ideal.ofBits_zero_f32]) (dst1b_at x1 x2 hr)]
  exact Finset.sum_congr rfl fun e _ => mask1_at x1 x2 hr e

/-- The second relation's mean message, as the program computes it. -/
private theorem msg1_at (x0 : FVec Ideal S50000x128 .f32) (x1 : IVec S2x800000 32) (x2 : IVec S800000 32)
    (x3 : FVec Ideal S3x128x128 .f32) (hr : Spec.InRange x1 x2) (n : Fin 50000) (f : Fin 128) :
    val_main_v62 (F := Ideal) x0 x1 x2 x3 (ix2 n f)
      = Spec.msgR (Spec.m2 x0) (Spec.srcOf x1) (Spec.dstOf x1) (Spec.relOf x2) (Spec.m3 x3 (1 : Fin 3)) (1 : Fin 3) n f := by
  have ei : idx_main_v60 (idx_main_v61 (ix2 n f)) = ix1 n := funext fun a => Fin.ext (by
    match a with
    | ⟨0, _⟩ => rfl)
  rw [val_main_v62_apply, Ideal.hostDivf_def, num1_at x0 x1 x2 x3 hr, val_main_v61_apply, val_main_v60_apply, ei, val_main_v59_apply,
    Ideal.maximumf_def, cnt1_at x1 x2 hr, val_main_v58_apply, val_main_cst_9_apply, Ideal.ofBits_def, one_f32]
  rfl

/-! ## The third relation -/

/-- The third relation's matrix: the slice of the weights, reshaped. -/
private theorem w2_at (x3 : FVec Ideal S3x128x128 .f32) (k f : Fin 128) :
    val_main_v65 (F := Ideal) x3 (ix2 k f) = x3 (ix3 (2 : Fin 3) k f) := by
  rw [val_main_v65_apply, val_main_v64_apply]
  congr 1
  funext a
  refine Fin.ext ?_
  have hk := k.isLt
  have hf := f.isLt
  match a with
  | ⟨0, _⟩ => rfl
  | ⟨1, _⟩ => show (k.val * 128 + f.val) / 128 % 128 = k.val; omega
  | ⟨2, _⟩ => show (k.val * 128 + f.val) % 128 = f.val; omega

/-- Every node's row times the third relation's matrix. -/
private theorem h2_at (x0 : FVec Ideal S50000x128 .f32) (x3 : FVec Ideal S3x128x128 .f32) (n : Fin 50000) (f : Fin 128) :
    val_main_v66 (F := Ideal) x0 x3 (ix2 n f) = Spec.lin (Spec.m2 x0) (Spec.m3 x3 (2 : Fin 3)) n f := by
  rw [val_main_v66_apply]
  unfold Spec.lin Spec.m2 Spec.m3
  refine Finset.sum_congr rfl fun k _ => ?_
  have el : lidx_main_v66 (ix2 n f) k = ix2 n k := funext fun a => Fin.ext (by
    match a with
    | ⟨0, _⟩ => rfl
    | ⟨1, _⟩ => rfl)
  have er : ridx_main_v66 (ix2 n f) k = ix2 k f := funext fun a => Fin.ext (by
    match a with
    | ⟨0, _⟩ => rfl
    | ⟨1, _⟩ => rfl)
  rw [el, er, w2_at]

/-- The indicator of the third relation, as a float. -/
private theorem mask2_at (x1 : IVec S2x800000 32) (x2 : IVec S800000 32) (hr : Spec.InRange x1 x2) (e : Fin 800000) :
    val_main_v69 (F := Ideal) x2 (ix1 e) = Spec.mask (Spec.relOf x2) (2 : Fin 3) e := by
  rw [val_main_v69_apply, val_main_v68_apply, val_main_v67_apply, val_main_c_10_apply]
  unfold Spec.mask
  exact maskWord _ _ _ _ (by decide) (hr.rel e)

/-- The gather's start words: the source words, none negative, so left alone. -/
private theorem src2_at (x1 : IVec S2x800000 32) (x2 : IVec S800000 32) (hr : Spec.InRange x1 x2) (e : Fin 800000) :
    (val_main_v75 (F := Ideal) x1 (ix2 e (0 : Fin 1))).toInt = ((Spec.srcOf x1 e).val : Int) := by
  have ei : idx_main_v75 (ix2 e (0 : Fin 1)) = ix1 e := funext fun a => Fin.ext (by
    match a with
    | ⟨0, _⟩ => rfl)
  rw [val_main_v75_apply, ei, val_main_v74_apply, val_main_v71_apply, val_main_v70_apply, val_main_c_11_apply, v1_at,
    selWord _ _ (by rw [hr.src e]; exact Int.natCast_nonneg _)]
  exact hr.src e

/-- The two scatters' index words: the target words. -/
private theorem dst2a_at (x1 : IVec S2x800000 32) (x2 : IVec S800000 32) (hr : Spec.InRange x1 x2) (e : Fin 800000) :
    (val_main_v81 (F := Ideal) x1 (ix2 e (0 : Fin 1))).toInt = ((Spec.dstOf x1 e).val : Int) := by
  have ei : idx_main_v81 (ix2 e (0 : Fin 1)) = ix1 e := funext fun a => Fin.ext (by
    match a with
    | ⟨0, _⟩ => rfl)
  rw [val_main_v81_apply, ei, v3_at]
  exact hr.dst e

private theorem dst2b_at (x1 : IVec S2x800000 32) (x2 : IVec S800000 32) (hr : Spec.InRange x1 x2) (e : Fin 800000) :
    (val_main_v84 (F := Ideal) x1 (ix2 e (0 : Fin 1))).toInt = ((Spec.dstOf x1 e).val : Int) := by
  have ei : idx_main_v84 (ix2 e (0 : Fin 1)) = ix1 e := funext fun a => Fin.ext (by
    match a with
    | ⟨0, _⟩ => rfl)
  rw [val_main_v84_apply, ei, v3_at]
  exact hr.dst e

/-- The summed messages of the third relation into a node. -/
private theorem num2_at (x0 : FVec Ideal S50000x128 .f32) (x1 : IVec S2x800000 32) (x2 : IVec S800000 32)
    (x3 : FVec Ideal S3x128x128 .f32) (hr : Spec.InRange x1 x2) (n : Fin 50000) (f : Fin 128) :
    val_main_v82 (F := Ideal) x0 x1 x2 x3 (ix2 n f)
      = ∑ e ∈ Spec.into (Spec.dstOf x1) n,
          Spec.lin (Spec.m2 x0) (Spec.m3 x3 (2 : Fin 3)) (Spec.srcOf x1 e) f * Spec.mask (Spec.relOf x2) (2 : Fin 3) e := by
  unfold val_main_v82
  rw [scatRow _ _ _ (Spec.dstOf x1)
    (fun i => by rw [val_main_v80_apply, val_main_cst_13_apply, Ideal.ofBits_def, Ideal.ofBits_zero_f32]) (dst2a_at x1 x2 hr)]
  refine Finset.sum_congr rfl fun e _ => ?_
  have ei : idx_main_v77 (idx_main_v78 (ix2 e f)) = ix1 e := funext fun a => Fin.ext (by
    match a with
    | ⟨0, _⟩ => rfl)
  rw [val_main_v79_apply, Ideal.mulf_def, val_main_v78_apply, val_main_v77_apply, ei, mask2_at x1 x2 hr]
  unfold val_main_v76
  rw [gatherRow _ _ (Spec.srcOf x1) (src2_at x1 x2 hr), h2_at]

/-- The number of edges of the third relation into a node. -/
private theorem cnt2_at (x1 : IVec S2x800000 32) (x2 : IVec S800000 32) (hr : Spec.InRange x1 x2) (n : Fin 50000) :
    val_main_v85 (F := Ideal) x1 x2 (ix1 n) = ∑ e ∈ Spec.into (Spec.dstOf x1) n, Spec.mask (Spec.relOf x2) (2 : Fin 3) e := by
  unfold val_main_v85
  rw [scatEntry _ _ _ (Spec.dstOf x1)
    (fun i => by rw [val_main_v83_apply, val_main_cst_14_apply, Ideal.ofBits_def, Ideal.ofBits_zero_f32]) (dst2b_at x1 x2 hr)]
  exact Finset.sum_congr rfl fun e _ => mask2_at x1 x2 hr e

/-- The third relation's mean message, as the program computes it. -/
private theorem msg2_at (x0 : FVec Ideal S50000x128 .f32) (x1 : IVec S2x800000 32) (x2 : IVec S800000 32)
    (x3 : FVec Ideal S3x128x128 .f32) (hr : Spec.InRange x1 x2) (n : Fin 50000) (f : Fin 128) :
    val_main_v90 (F := Ideal) x0 x1 x2 x3 (ix2 n f)
      = Spec.msgR (Spec.m2 x0) (Spec.srcOf x1) (Spec.dstOf x1) (Spec.relOf x2) (Spec.m3 x3 (2 : Fin 3)) (2 : Fin 3) n f := by
  have ei : idx_main_v88 (idx_main_v89 (ix2 n f)) = ix1 n := funext fun a => Fin.ext (by
    match a with
    | ⟨0, _⟩ => rfl)
  rw [val_main_v90_apply, Ideal.hostDivf_def, num2_at x0 x1 x2 x3 hr, val_main_v89_apply, val_main_v88_apply, ei, val_main_v87_apply,
    Ideal.maximumf_def, cnt2_at x1 x2 hr, val_main_v86_apply, val_main_cst_15_apply, Ideal.ofBits_def, one_f32]
  rfl

/-! ## The layer -/

theorem ref_layer1 (x0 : FVec Ideal S50000x128 .f32) (x1 : IVec S2x800000 32) (x2 : IVec S800000 32)
    (x3 : FVec Ideal S3x128x128 .f32) (x4 : FVec Ideal S128x128 .f32) (x5 : FVec Ideal S128 .f32)
    (hr : Spec.InRange x1 x2) (n : Fin 50000) (f : Fin 128) :
    val_main_v92 (F := Ideal) x0 x1 x2 x3 x4 x5 (ix2 n f)
      = Spec.layerR true (Spec.m2 x0) (Spec.srcOf x1) (Spec.dstOf x1) (Spec.relOf x2) (Spec.m3 x3) (Spec.m2 x4) (Spec.m1 x5) n f := by
  rw [val_main_v92_apply, Ideal.maximumf_def, val_main_call0_v0_apply, val_main_call0_cst_apply, Ideal.ofBits_def,
    Ideal.ofBits_zero_f32, val_main_v91_apply, Ideal.addf_def, val_main_v63_apply, Ideal.addf_def, val_main_v35_apply,
    Ideal.addf_def, val_main_v7_apply, Ideal.addf_def, root_at, bias_at, msg0_at x0 x1 x2 x3 hr, msg1_at x0 x1 x2 x3 hr,
    msg2_at x0 x1 x2 x3 hr]
  rfl

end Cert.ReferenceIdeal.Hand

end
-- ==== Proof.Ref.Layer2.lean ====
/-
  The reference's second layer, read at an index: the transform-first arrangement, without the positive part, of the
  first layer's result (whatever it is), to 64 output features.
-/
import proofs.«404525_j62474594287730_1_alg».proof.Proof.Gen.ReferenceIdeal.Read
import proofs.«404525_j62474594287730_1_alg».proof.Proof.Spec
import proofs.«404525_j62474594287730_1_alg».proof.Proof.LibGatherScatter
import Idealize.ShloMosaic.Lib.Pipeline.Value
import Idealize.ShloMosaic.Lib.ValueLayout
import Idealize.ShloMosaic.PureOps.Ideal.Laws

open scoped BigOperators

noncomputable section

namespace Cert.ReferenceIdeal.Hand

open Idealize.ShloMosaic Idealize.ShloMosaic.TcCoe Idealize.ShloMosaic.ValueIdx Idealize.SL.Sem
open Cert.ReferenceIdeal Cert.ReferenceIdeal.Gen Cert.ReferenceIdeal.Read Cert.Proof

/-- The f32 pattern of one. -/
private theorem one_f32 : Ideal.ofBits .f32 0x3F800000#32 = (1 : EReal) := by
  rw [show (1 : EReal) = ((1 : ℝ) : EReal) by norm_cast]
  simp [Ideal.ofBits, Ideal.ieee, -EReal.coe_mul]; norm_num

/-- One relation's mean message, from the pieces the program computes it from. -/
private theorem rel_generic
    (x1 : IVec S2x800000 32) (x2 : IVec S800000 32) (hr : Spec.InRange x1 x2)
    (Y : Fin 50000 → Fin 128 → EReal) (W : Fin 128 → Fin 64 → EReal) (r : Fin 3)
    (hw : FVec Ideal S50000x64 .f32) (hh : ∀ (n : Fin 50000) (h : Fin 64), hw (ix2 n h) = Spec.lin Y W n h)
    (si di di' : IVec S800000x1 32)
    (hs : ∀ e : Fin 800000, si (ix2 e (0 : Fin 1)) = x1 (ix2 (0 : Fin 2) e))
    (hd : ∀ e : Fin 800000, di (ix2 e (0 : Fin 1)) = x1 (ix2 (1 : Fin 2) e))
    (hd' : ∀ e : Fin 800000, di' (ix2 e (0 : Fin 1)) = x1 (ix2 (1 : Fin 2) e))
    (mk : FVec Ideal S800000 .f32) (hm : ∀ e : Fin 800000, mk (ix1 e) = Spec.mask (Spec.relOf x2) r e)
    (z2 : FVec Ideal S50000x64 .f32) (hz2 : ∀ i, z2 i = 0)
    (z1 : FVec Ideal S50000 .f32) (hz1 : ∀ i, z1 i = 0)
    (upd : FVec Ideal S800000x64 .f32)
    (hu : ∀ (e : Fin 800000) (q : Fin 64), upd (ix2 e q)
        = Host.gather gather_S50000x64_S800000x1_S800000x64_1_0_n_n_0_1_164 hw si (ix2 e q) * mk (ix1 e))
    (n : Fin 50000) (h : Fin 64) :
    Ideal.div (Host.scatterAdd scatter_S50000x64_S800000x1_S800000x64_1_0_0_1 z2 di upd (ix2 n h))
      (max (Host.scatterAdd scatter_S50000_S800000x1_S800000_n_0_0_1 z1 di' mk (ix1 n)) 1)
     = Spec.msgR Y (Spec.srcOf x1) (Spec.dstOf x1) (Spec.relOf x2) W r n h := by
  have e1 : Host.scatterAdd scatter_S50000x64_S800000x1_S800000x64_1_0_0_1 z2 di upd (ix2 n h)
      = z2 (ix2 n h) + ∑ e ∈ Finset.univ.filter (fun e : Fin 800000 => (di (ix2 e (0 : Fin 1))).toInt = (n.val : Int)), upd (ix2 e h) :=
    GS.scatterAdd_scatD_apply (N := 50000) (E := 800000) (D := 64)
      Facts₀.scatter_S50000x64_S800000x1_S800000x64_1_0_0_1_wf z2 di upd n h
  have e2 : Host.scatterAdd scatter_S50000_S800000x1_S800000_n_0_0_1 z1 di' mk (ix1 n)
      = z1 (ix1 n) + ∑ e ∈ Finset.univ.filter (fun e : Fin 800000 => (di' (ix2 e (0 : Fin 1))).toInt = (n.val : Int)), mk (ix1 e) :=
    GS.scatterAdd_scat1_apply (N := 50000) (E := 800000)
      Facts₀.scatter_S50000_S800000x1_S800000_n_0_0_1_wf z1 di' mk n
  have f1 : Finset.univ.filter (fun e : Fin 800000 => (di (ix2 e (0 : Fin 1))).toInt = (n.val : Int)) = Spec.into (Spec.dstOf x1) n := by
    unfold Spec.into
    refine Finset.filter_congr fun e _ => ?_
    rw [hd e, hr.dst e]
    constructor
    · intro hh; exact Fin.ext (by exact_mod_cast hh)
    · intro hh; rw [hh]
  have f2 : Finset.univ.filter (fun e : Fin 800000 => (di' (ix2 e (0 : Fin 1))).toInt = (n.val : Int)) = Spec.into (Spec.dstOf x1) n := by
    unfold Spec.into
    refine Finset.filter_congr fun e _ => ?_
    rw [hd' e, hr.dst e]
    constructor
    · intro hh; exact Fin.ext (by exact_mod_cast hh)
    · intro hh; rw [hh]
  have g : ∀ e : Fin 800000, upd (ix2 e h) = Spec.lin Y W (Spec.srcOf x1 e) h * Spec.mask (Spec.relOf x2) r e := by
    intro e
    rw [hu e h, hm e]
    have := GS.gather_gathD_apply (N := 50000) (E := 800000) (D := 64) (by decide)
      Facts₀.gather_S50000x64_S800000x1_S800000x64_1_0_n_n_0_1_164_wf hw si e h
    rw [show Host.gather gather_S50000x64_S800000x1_S800000x64_1_0_n_n_0_1_164 hw si (ix2 e h)
        = hw (ix2 (GS.row (N := 50000) (by decide) (si (ix2 e (0 : Fin 1)))) h) from this, hs e, hh]
    rfl
  rw [e1, e2, f1, f2, hz2, hz1, zero_add, zero_add]
  unfold Spec.msgR
  rw [Finset.sum_congr rfl (fun e _ => g e), Finset.sum_congr rfl (fun e _ => hm e)]

/-- The relation word compared with a constant, as a number: the indicator of the relation. -/
private theorem mask_word (x1 : IVec S2x800000 32) (x2 : IVec S800000 32) (hr : Spec.InRange x1 x2) (e : Fin 800000)
    (c : BitVec 32) (r : Fin 3) (hc : c.toInt = (r.val : Int)) :
    FloatOps.uitofp (F := Ideal) .f32 (IntOp.cmpi .eq (x2 (ix1 e)) c) = Spec.mask (Spec.relOf x2) r e := by
  show (((IntOp.cmpi .eq (x2 (ix1 e)) c).toNat : ℝ) : EReal) = _
  unfold Spec.mask IntOp.cmpi
  by_cases h : Spec.relOf x2 e = r
  · have hx : x2 (ix1 e) = c := BitVec.eq_of_toInt_eq (by rw [hr.rel e, hc, h])
    rw [if_pos h, hx]
    simp
  · have hx : ¬ x2 (ix1 e) = c := fun hx => h (Fin.ext (by
      have := hr.rel e; rw [hx, hc] at this; exact_mod_cast this.symm))
    rw [if_neg h]
    simp [hx]

/-- A source word in range is not negative: the wrap-around select keeps it. -/
private theorem src_word (x1 : IVec S2x800000 32) (x2 : IVec S800000 32) (hr : Spec.InRange x1 x2) (e : Fin 800000) :
    Scalar.select (IntOp.cmpi .slt (x1 (ix2 (0 : Fin 2) e)) 0#32) (IntOp.addi (x1 (ix2 (0 : Fin 2) e)) 50000#32)
      (x1 (ix2 (0 : Fin 2) e)) = x1 (ix2 (0 : Fin 2) e) := by
  have h0 : IntOp.cmpi .slt (x1 (ix2 (0 : Fin 2) e)) 0#32 = 0#1 := by
    unfold IntOp.cmpi
    have : (x1 (ix2 (0 : Fin 2) e)).slt 0#32 = false := by
      rw [BitVec.slt_eq_decide, hr.src e]
      simp
    rw [this]; rfl
  rw [h0, select_zero]

private theorem v94_at (x1 : IVec S2x800000 32) (e : Fin 800000) :
    val_main_v94 (F := Ideal) x1 (ix1 e) = x1 (ix2 (0 : Fin 2) e) := by
  rw [val_main_v94_apply, val_main_v93_apply]
  refine congrArg x1 ?_
  funext a; refine Fin.ext ?_
  match a with
  | ⟨0, _⟩ => rfl
  | ⟨1, _⟩ => exact Nat.mod_eq_of_lt e.isLt

private theorem v96_at (x1 : IVec S2x800000 32) (e : Fin 800000) :
    val_main_v96 (F := Ideal) x1 (ix1 e) = x1 (ix2 (1 : Fin 2) e) := by
  rw [val_main_v96_apply, val_main_v95_apply]
  refine congrArg x1 ?_
  funext a; refine Fin.ext ?_
  match a with
  | ⟨0, _⟩ => rfl
  | ⟨1, _⟩ => exact Nat.mod_eq_of_lt e.isLt

/-! ## Relation 0 -/

/-- Relation 0's indicator. -/
private theorem mask0_at (x1 : IVec S2x800000 32) (x2 : IVec S800000 32) (hr : Spec.InRange x1 x2) (e : Fin 800000) :
    val_main_v106 (F := Ideal) x2 (ix1 e) = Spec.mask (Spec.relOf x2) 0 e := by
  rw [val_main_v106_apply, val_main_v105_apply, val_main_v104_apply, val_main_c_16_apply]
  exact mask_word x1 x2 hr e 0#32 0 rfl

/-- The source column of relation 0's gather. -/
private theorem srccol0_at (x1 : IVec S2x800000 32) (x2 : IVec S800000 32) (hr : Spec.InRange x1 x2) (e : Fin 800000) :
    val_main_v112 (F := Ideal) x1 (ix2 e (0 : Fin 1)) = x1 (ix2 (0 : Fin 2) e) := by
  rw [val_main_v112_apply]
  rw [show idx_main_v112 (ix2 e (0 : Fin 1)) = ix1 e from by
    funext a; match a with | ⟨0, _⟩ => rfl]
  rw [val_main_v111_apply, val_main_v108_apply, val_main_v107_apply, val_main_c_17_apply, val_main_v110_apply,
    val_main_v109_apply, val_main_c_18_apply, v94_at]
  exact src_word x1 x2 hr e

/-- The target column of relation 0's row scatter. -/
private theorem dstcolD0_at (x1 : IVec S2x800000 32) (e : Fin 800000) :
    val_main_v118 (F := Ideal) x1 (ix2 e (0 : Fin 1)) = x1 (ix2 (1 : Fin 2) e) := by
  rw [val_main_v118_apply]
  rw [show idx_main_v118 (ix2 e (0 : Fin 1)) = ix1 e from by
    funext a; match a with | ⟨0, _⟩ => rfl]
  exact v96_at x1 e

/-- The target column of relation 0's count scatter. -/
private theorem dstcol10_at (x1 : IVec S2x800000 32) (e : Fin 800000) :
    val_main_v121 (F := Ideal) x1 (ix2 e (0 : Fin 1)) = x1 (ix2 (1 : Fin 2) e) := by
  rw [val_main_v121_apply]
  rw [show idx_main_v121 (ix2 e (0 : Fin 1)) = ix1 e from by
    funext a; match a with | ⟨0, _⟩ => rfl]
  exact v96_at x1 e

private theorem zeroD0_at (i : S50000x64.Idx) : val_main_v117 (F := Ideal) i = 0 := by
  rw [val_main_v117_apply, val_main_cst_19_apply, Ideal.ofBits_def, Ideal.ofBits_zero_f32]

private theorem zero10_at (i : S50000.Idx) : val_main_v120 (F := Ideal) i = 0 := by
  rw [val_main_v120_apply, val_main_cst_20_apply, Ideal.ofBits_def, Ideal.ofBits_zero_f32]

private theorem one0_at (i : S50000.Idx) : val_main_v123 (F := Ideal) i = 1 := by
  rw [val_main_v123_apply, val_main_cst_21_apply, Ideal.ofBits_def, one_f32]

/-- Every node's row times relation 0's matrix. -/
private theorem lin0_at (x0 : FVec Ideal S50000x128 .f32) (x1 : IVec S2x800000 32) (x2 : IVec S800000 32)
    (x3 : FVec Ideal S3x128x128 .f32) (x4 : FVec Ideal S128x128 .f32) (x5 : FVec Ideal S128 .f32)
    (x6 : FVec Ideal S3x128x64 .f32) (n : Fin 50000) (h : Fin 64) :
    val_main_v103 (F := Ideal) x0 x1 x2 x3 x4 x5 x6 (ix2 n h)
      = Spec.lin (Spec.m2 (val_main_v92 (F := Ideal) x0 x1 x2 x3 x4 x5)) (Spec.m3 x6 0) n h := by
  rw [val_main_v103_apply]
  generalize val_main_v92 (F := Ideal) x0 x1 x2 x3 x4 x5 = y
  unfold Spec.lin Spec.m2 Spec.m3
  refine Finset.sum_congr rfl fun k _ => ?_
  rw [val_main_v102_apply, val_main_v101_apply]
  refine congrArg₂ (· * ·) (congrArg y ?_) (congrArg x6 ?_)
  · funext a; match a with | ⟨0, _⟩ => rfl | ⟨1, _⟩ => rfl
  · funext a; refine Fin.ext ?_
    have hk := k.isLt
    have hh := h.isLt
    match a with
    | ⟨0, _⟩ => rfl
    | ⟨1, _⟩ => show (k.val * 64 + h.val) / 64 % 128 = k.val; omega
    | ⟨2, _⟩ => show (k.val * 64 + h.val) % 64 = h.val; omega

/-- Relation 0's messages: the gathered rows times the indicator. -/
private theorem msg0_at (x0 : FVec Ideal S50000x128 .f32) (x1 : IVec S2x800000 32) (x2 : IVec S800000 32)
    (x3 : FVec Ideal S3x128x128 .f32) (x4 : FVec Ideal S128x128 .f32) (x5 : FVec Ideal S128 .f32)
    (x6 : FVec Ideal S3x128x64 .f32) (e : Fin 800000) (q : Fin 64) :
    val_main_v116 (F := Ideal) x0 x1 x2 x3 x4 x5 x6 (ix2 e q)
      = Host.gather gather_S50000x64_S800000x1_S800000x64_1_0_n_n_0_1_164 (val_main_v103 (F := Ideal) x0 x1 x2 x3 x4 x5 x6)
          (val_main_v112 (F := Ideal) x1) (ix2 e q) * val_main_v106 (F := Ideal) x2 (ix1 e) := by
  rw [val_main_v116_apply, Ideal.mulf_def, val_main_v115_apply, val_main_v114_apply]
  unfold val_main_v113
  refine congrArg₂ (· * ·) rfl (congrArg _ ?_)
  funext a; match a with | ⟨0, _⟩ => rfl

/-- Relation 0's quotient is its mean message. -/
private theorem rel0_at (x0 : FVec Ideal S50000x128 .f32) (x1 : IVec S2x800000 32) (x2 : IVec S800000 32)
    (x3 : FVec Ideal S3x128x128 .f32) (x4 : FVec Ideal S128x128 .f32) (x5 : FVec Ideal S128 .f32)
    (x6 : FVec Ideal S3x128x64 .f32) (hr : Spec.InRange x1 x2) (n : Fin 50000) (h : Fin 64) :
    val_main_v127 (F := Ideal) x0 x1 x2 x3 x4 x5 x6 (ix2 n h)
      = Spec.msgR (Spec.m2 (val_main_v92 (F := Ideal) x0 x1 x2 x3 x4 x5)) (Spec.srcOf x1) (Spec.dstOf x1) (Spec.relOf x2)
          (Spec.m3 x6 0) 0 n h := by
  rw [val_main_v127_apply, Ideal.hostDivf_def, val_main_v126_apply, val_main_v125_apply]
  rw [show idx_main_v125 (idx_main_v126 (ix2 n h)) = ix1 n from by
    funext a; match a with | ⟨0, _⟩ => rfl]
  rw [val_main_v124_apply, Ideal.maximumf_def, one0_at]
  unfold val_main_v119 val_main_v122
  exact rel_generic x1 x2 hr _ _ 0 _ (lin0_at x0 x1 x2 x3 x4 x5 x6) _ _ _ (srccol0_at x1 x2 hr) (dstcolD0_at x1)
    (dstcol10_at x1) _ (mask0_at x1 x2 hr) _ zeroD0_at _ zero10_at _ (msg0_at x0 x1 x2 x3 x4 x5 x6) n h

/-! ## Relation 1 -/

/-- Relation 1's indicator. -/
private theorem mask1_at (x1 : IVec S2x800000 32) (x2 : IVec S800000 32) (hr : Spec.InRange x1 x2) (e : Fin 800000) :
    val_main_v134 (F := Ideal) x2 (ix1 e) = Spec.mask (Spec.relOf x2) 1 e := by
  rw [val_main_v134_apply, val_main_v133_apply, val_main_v132_apply, val_main_c_22_apply]
  exact mask_word x1 x2 hr e 1#32 1 rfl

/-- The source column of relation 1's gather. -/
private theorem srccol1_at (x1 : IVec S2x800000 32) (x2 : IVec S800000 32) (hr : Spec.InRange x1 x2) (e : Fin 800000) :
    val_main_v140 (F := Ideal) x1 (ix2 e (0 : Fin 1)) = x1 (ix2 (0 : Fin 2) e) := by
  rw [val_main_v140_apply]
  rw [show idx_main_v140 (ix2 e (0 : Fin 1)) = ix1 e from by
    funext a; match a with | ⟨0, _⟩ => rfl]
  rw [val_main_v139_apply, val_main_v136_apply, val_main_v135_apply, val_main_c_23_apply, val_main_v138_apply,
    val_main_v137_apply, val_main_c_24_apply, v94_at]
  exact src_word x1 x2 hr e

/-- The target column of relation 1's row scatter. -/
private theorem dstcolD1_at (x1 : IVec S2x800000 32) (e : Fin 800000) :
    val_main_v146 (F := Ideal) x1 (ix2 e (0 : Fin 1)) = x1 (ix2 (1 : Fin 2) e) := by
  rw [val_main_v146_apply]
  rw [show idx_main_v146 (ix2 e (0 : Fin 1)) = ix1 e from by
    funext a; match a with | ⟨0, _⟩ => rfl]
  exact v96_at x1 e

/-- The target column of relation 1's count scatter. -/
private theorem dstcol11_at (x1 : IVec S2x800000 32) (e : Fin 800000) :
    val_main_v149 (F := Ideal) x1 (ix2 e (0 : Fin 1)) = x1 (ix2 (1 : Fin 2) e) := by
  rw [val_main_v149_apply]
  rw [show idx_main_v149 (ix2 e (0 : Fin 1)) = ix1 e from by
    funext a; match a with | ⟨0, _⟩ => rfl]
  exact v96_at x1 e

private theorem zeroD1_at (i : S50000x64.Idx) : val_main_v145 (F := Ideal) i = 0 := by
  rw [val_main_v145_apply, val_main_cst_25_apply, Ideal.ofBits_def, Ideal.ofBits_zero_f32]

private theorem zero11_at (i : S50000.Idx) : val_main_v148 (F := Ideal) i = 0 := by
  rw [val_main_v148_apply, val_main_cst_26_apply, Ideal.ofBits_def, Ideal.ofBits_zero_f32]

private theorem one1_at (i : S50000.Idx) : val_main_v151 (F := Ideal) i = 1 := by
  rw [val_main_v151_apply, val_main_cst_27_apply, Ideal.ofBits_def, one_f32]

/-- Every node's row times relation 1's matrix. -/
private theorem lin1_at (x0 : FVec Ideal S50000x128 .f32) (x1 : IVec S2x800000 32) (x2 : IVec S800000 32)
    (x3 : FVec Ideal S3x128x128 .f32) (x4 : FVec Ideal S128x128 .f32) (x5 : FVec Ideal S128 .f32)
    (x6 : FVec Ideal S3x128x64 .f32) (n : Fin 50000) (h : Fin 64) :
    val_main_v131 (F := Ideal) x0 x1 x2 x3 x4 x5 x6 (ix2 n h)
      = Spec.lin (Spec.m2 (val_main_v92 (F := Ideal) x0 x1 x2 x3 x4 x5)) (Spec.m3 x6 1) n h := by
  rw [val_main_v131_apply]
  generalize val_main_v92 (F := Ideal) x0 x1 x2 x3 x4 x5 = y
  unfold Spec.lin Spec.m2 Spec.m3
  refine Finset.sum_congr rfl fun k _ => ?_
  rw [val_main_v130_apply, val_main_v129_apply]
  refine congrArg₂ (· * ·) (congrArg y ?_) (congrArg x6 ?_)
  · funext a; match a with | ⟨0, _⟩ => rfl | ⟨1, _⟩ => rfl
  · funext a; refine Fin.ext ?_
    have hk := k.isLt
    have hh := h.isLt
    match a with
    | ⟨0, _⟩ => rfl
    | ⟨1, _⟩ => show (k.val * 64 + h.val) / 64 % 128 = k.val; omega
    | ⟨2, _⟩ => show (k.val * 64 + h.val) % 64 = h.val; omega

/-- Relation 1's messages: the gathered rows times the indicator. -/
private theorem msg1_at (x0 : FVec Ideal S50000x128 .f32) (x1 : IVec S2x800000 32) (x2 : IVec S800000 32)
    (x3 : FVec Ideal S3x128x128 .f32) (x4 : FVec Ideal S128x128 .f32) (x5 : FVec Ideal S128 .f32)
    (x6 : FVec Ideal S3x128x64 .f32) (e : Fin 800000) (q : Fin 64) :
    val_main_v144 (F := Ideal) x0 x1 x2 x3 x4 x5 x6 (ix2 e q)
      = Host.gather gather_S50000x64_S800000x1_S800000x64_1_0_n_n_0_1_164 (val_main_v131 (F := Ideal) x0 x1 x2 x3 x4 x5 x6)
          (val_main_v140 (F := Ideal) x1) (ix2 e q) * val_main_v134 (F := Ideal) x2 (ix1 e) := by
  rw [val_main_v144_apply, Ideal.mulf_def, val_main_v143_apply, val_main_v142_apply]
  unfold val_main_v141
  refine congrArg₂ (· * ·) rfl (congrArg _ ?_)
  funext a; match a with | ⟨0, _⟩ => rfl

/-- Relation 1's quotient is its mean message. -/
private theorem rel1_at (x0 : FVec Ideal S50000x128 .f32) (x1 : IVec S2x800000 32) (x2 : IVec S800000 32)
    (x3 : FVec Ideal S3x128x128 .f32) (x4 : FVec Ideal S128x128 .f32) (x5 : FVec Ideal S128 .f32)
    (x6 : FVec Ideal S3x128x64 .f32) (hr : Spec.InRange x1 x2) (n : Fin 50000) (h : Fin 64) :
    val_main_v155 (F := Ideal) x0 x1 x2 x3 x4 x5 x6 (ix2 n h)
      = Spec.msgR (Spec.m2 (val_main_v92 (F := Ideal) x0 x1 x2 x3 x4 x5)) (Spec.srcOf x1) (Spec.dstOf x1) (Spec.relOf x2)
          (Spec.m3 x6 1) 1 n h := by
  rw [val_main_v155_apply, Ideal.hostDivf_def, val_main_v154_apply, val_main_v153_apply]
  rw [show idx_main_v153 (idx_main_v154 (ix2 n h)) = ix1 n from by
    funext a; match a with | ⟨0, _⟩ => rfl]
  rw [val_main_v152_apply, Ideal.maximumf_def, one1_at]
  unfold val_main_v147 val_main_v150
  exact rel_generic x1 x2 hr _ _ 1 _ (lin1_at x0 x1 x2 x3 x4 x5 x6) _ _ _ (srccol1_at x1 x2 hr) (dstcolD1_at x1)
    (dstcol11_at x1) _ (mask1_at x1 x2 hr) _ zeroD1_at _ zero11_at _ (msg1_at x0 x1 x2 x3 x4 x5 x6) n h

/-! ## Relation 2 -/

/-- Relation 2's indicator. -/
private theorem mask2_at (x1 : IVec S2x800000 32) (x2 : IVec S800000 32) (hr : Spec.InRange x1 x2) (e : Fin 800000) :
    val_main_v162 (F := Ideal) x2 (ix1 e) = Spec.mask (Spec.relOf x2) 2 e := by
  rw [val_main_v162_apply, val_main_v161_apply, val_main_v160_apply, val_main_c_28_apply]
  exact mask_word x1 x2 hr e 2#32 2 rfl

/-- The source column of relation 2's gather. -/
private theorem srccol2_at (x1 : IVec S2x800000 32) (x2 : IVec S800000 32) (hr : Spec.InRange x1 x2) (e : Fin 800000) :
    val_main_v168 (F := Ideal) x1 (ix2 e (0 : Fin 1)) = x1 (ix2 (0 : Fin 2) e) := by
  rw [val_main_v168_apply]
  rw [show idx_main_v168 (ix2 e (0 : Fin 1)) = ix1 e from by
    funext a; match a with | ⟨0, _⟩ => rfl]
  rw [val_main_v167_apply, val_main_v164_apply, val_main_v163_apply, val_main_c_29_apply, val_main_v166_apply,
    val_main_v165_apply, val_main_c_30_apply, v94_at]
  exact src_word x1 x2 hr e

/-- The target column of relation 2's row scatter. -/
private theorem dstcolD2_at (x1 : IVec S2x800000 32) (e : Fin 800000) :
    val_main_v174 (F := Ideal) x1 (ix2 e (0 : Fin 1)) = x1 (ix2 (1 : Fin 2) e) := by
  rw [val_main_v174_apply]
  rw [show idx_main_v174 (ix2 e (0 : Fin 1)) = ix1 e from by
    funext a; match a with | ⟨0, _⟩ => rfl]
  exact v96_at x1 e

/-- The target column of relation 2's count scatter. -/
private theorem dstcol12_at (x1 : IVec S2x800000 32) (e : Fin 800000) :
    val_main_v177 (F := Ideal) x1 (ix2 e (0 : Fin 1)) = x1 (ix2 (1 : Fin 2) e) := by
  rw [val_main_v177_apply]
  rw [show idx_main_v177 (ix2 e (0 : Fin 1)) = ix1 e from by
    funext a; match a with | ⟨0, _⟩ => rfl]
  exact v96_at x1 e

private theorem zeroD2_at (i : S50000x64.Idx) : val_main_v173 (F := Ideal) i = 0 := by
  rw [val_main_v173_apply, val_main_cst_31_apply, Ideal.ofBits_def, Ideal.ofBits_zero_f32]

private theorem zero12_at (i : S50000.Idx) : val_main_v176 (F := Ideal) i = 0 := by
  rw [val_main_v176_apply, val_main_cst_32_apply, Ideal.ofBits_def, Ideal.ofBits_zero_f32]

private theorem one2_at (i : S50000.Idx) : val_main_v179 (F := Ideal) i = 1 := by
  rw [val_main_v179_apply, val_main_cst_33_apply, Ideal.ofBits_def, one_f32]

/-- Every node's row times relation 2's matrix. -/
private theorem lin2_at (x0 : FVec Ideal S50000x128 .f32) (x1 : IVec S2x800000 32) (x2 : IVec S800000 32)
    (x3 : FVec Ideal S3x128x128 .f32) (x4 : FVec Ideal S128x128 .f32) (x5 : FVec Ideal S128 .f32)
    (x6 : FVec Ideal S3x128x64 .f32) (n : Fin 50000) (h : Fin 64) :
    val_main_v159 (F := Ideal) x0 x1 x2 x3 x4 x5 x6 (ix2 n h)
      = Spec.lin (Spec.m2 (val_main_v92 (F := Ideal) x0 x1 x2 x3 x4 x5)) (Spec.m3 x6 2) n h := by
  rw [val_main_v159_apply]
  generalize val_main_v92 (F := Ideal) x0 x1 x2 x3 x4 x5 = y
  unfold Spec.lin Spec.m2 Spec.m3
  refine Finset.sum_congr rfl fun k _ => ?_
  rw [val_main_v158_apply, val_main_v157_apply]
  refine congrArg₂ (· * ·) (congrArg y ?_) (congrArg x6 ?_)
  · funext a; match a with | ⟨0, _⟩ => rfl | ⟨1, _⟩ => rfl
  · funext a; refine Fin.ext ?_
    have hk := k.isLt
    have hh := h.isLt
    match a with
    | ⟨0, _⟩ => rfl
    | ⟨1, _⟩ => show (k.val * 64 + h.val) / 64 % 128 = k.val; omega
    | ⟨2, _⟩ => show (k.val * 64 + h.val) % 64 = h.val; omega

/-- Relation 2's messages: the gathered rows times the indicator. -/
private theorem msg2_at (x0 : FVec Ideal S50000x128 .f32) (x1 : IVec S2x800000 32) (x2 : IVec S800000 32)
    (x3 : FVec Ideal S3x128x128 .f32) (x4 : FVec Ideal S128x128 .f32) (x5 : FVec Ideal S128 .f32)
    (x6 : FVec Ideal S3x128x64 .f32) (e : Fin 800000) (q : Fin 64) :
    val_main_v172 (F := Ideal) x0 x1 x2 x3 x4 x5 x6 (ix2 e q)
      = Host.gather gather_S50000x64_S800000x1_S800000x64_1_0_n_n_0_1_164 (val_main_v159 (F := Ideal) x0 x1 x2 x3 x4 x5 x6)
          (val_main_v168 (F := Ideal) x1) (ix2 e q) * val_main_v162 (F := Ideal) x2 (ix1 e) := by
  rw [val_main_v172_apply, Ideal.mulf_def, val_main_v171_apply, val_main_v170_apply]
  unfold val_main_v169
  refine congrArg₂ (· * ·) rfl (congrArg _ ?_)
  funext a; match a with | ⟨0, _⟩ => rfl

/-- Relation 2's quotient is its mean message. -/
private theorem rel2_at (x0 : FVec Ideal S50000x128 .f32) (x1 : IVec S2x800000 32) (x2 : IVec S800000 32)
    (x3 : FVec Ideal S3x128x128 .f32) (x4 : FVec Ideal S128x128 .f32) (x5 : FVec Ideal S128 .f32)
    (x6 : FVec Ideal S3x128x64 .f32) (hr : Spec.InRange x1 x2) (n : Fin 50000) (h : Fin 64) :
    val_main_v183 (F := Ideal) x0 x1 x2 x3 x4 x5 x6 (ix2 n h)
      = Spec.msgR (Spec.m2 (val_main_v92 (F := Ideal) x0 x1 x2 x3 x4 x5)) (Spec.srcOf x1) (Spec.dstOf x1) (Spec.relOf x2)
          (Spec.m3 x6 2) 2 n h := by
  rw [val_main_v183_apply, Ideal.hostDivf_def, val_main_v182_apply, val_main_v181_apply]
  rw [show idx_main_v181 (idx_main_v182 (ix2 n h)) = ix1 n from by
    funext a; match a with | ⟨0, _⟩ => rfl]
  rw [val_main_v180_apply, Ideal.maximumf_def, one2_at]
  unfold val_main_v175 val_main_v178
  exact rel_generic x1 x2 hr _ _ 2 _ (lin2_at x0 x1 x2 x3 x4 x5 x6) _ _ _ (srccol2_at x1 x2 hr) (dstcolD2_at x1)
    (dstcol12_at x1) _ (mask2_at x1 x2 hr) _ zeroD2_at _ zero12_at _ (msg2_at x0 x1 x2 x3 x4 x5 x6) n h

/-! ## The root term, the bias, and the sum -/

/-- The root term: a node's row times the root matrix. -/
private theorem root_at (x0 : FVec Ideal S50000x128 .f32) (x1 : IVec S2x800000 32) (x2 : IVec S800000 32)
    (x3 : FVec Ideal S3x128x128 .f32) (x4 : FVec Ideal S128x128 .f32) (x5 : FVec Ideal S128 .f32)
    (x7 : FVec Ideal S128x64 .f32) (n : Fin 50000) (h : Fin 64) :
    val_main_v97 (F := Ideal) x0 x1 x2 x3 x4 x5 x7 (ix2 n h)
      = Spec.lin (Spec.m2 (val_main_v92 (F := Ideal) x0 x1 x2 x3 x4 x5)) (Spec.m2 x7) n h := by
  rw [val_main_v97_apply]
  generalize val_main_v92 (F := Ideal) x0 x1 x2 x3 x4 x5 = y
  unfold Spec.lin Spec.m2
  refine Finset.sum_congr rfl fun k _ => ?_
  refine congrArg₂ (· * ·) (congrArg y ?_) (congrArg x7 ?_)
  · funext a; match a with | ⟨0, _⟩ => rfl | ⟨1, _⟩ => rfl
  · funext a; match a with | ⟨0, _⟩ => rfl | ⟨1, _⟩ => rfl

/-- The bias, broadcast over the nodes. -/
private theorem bias_at (x8 : FVec Ideal S64 .f32) (n : Fin 50000) (h : Fin 64) :
    val_main_v99 (F := Ideal) x8 (ix2 n h) = Spec.m1 x8 h := by
  rw [val_main_v99_apply, val_main_v98_apply]
  unfold Spec.m1
  refine congrArg x8 ?_
  funext a; match a with | ⟨0, _⟩ => rfl

theorem ref_layer2 (x0 : FVec Ideal S50000x128 .f32) (x1 : IVec S2x800000 32) (x2 : IVec S800000 32)
    (x3 : FVec Ideal S3x128x128 .f32) (x4 : FVec Ideal S128x128 .f32) (x5 : FVec Ideal S128 .f32)
    (x6 : FVec Ideal S3x128x64 .f32) (x7 : FVec Ideal S128x64 .f32) (x8 : FVec Ideal S64 .f32)
    (hr : Spec.InRange x1 x2) (n : Fin 50000) (h : Fin 64) :
    val_main_v184 (F := Ideal) x0 x1 x2 x3 x4 x5 x6 x7 x8 (ix2 n h)
      = Spec.layerR false (Spec.m2 (val_main_v92 (F := Ideal) x0 x1 x2 x3 x4 x5)) (Spec.srcOf x1) (Spec.dstOf x1) (Spec.relOf x2)
          (Spec.m3 x6) (Spec.m2 x7) (Spec.m1 x8) n h := by
  rw [val_main_v184_apply, val_main_v156_apply, val_main_v128_apply, val_main_v100_apply]
  simp only [Ideal.addf_def]
  rw [rel0_at x0 x1 x2 x3 x4 x5 x6 hr, rel1_at x0 x1 x2 x3 x4 x5 x6 hr, rel2_at x0 x1 x2 x3 x4 x5 x6 hr,
    root_at, bias_at]
  unfold Spec.layerR Spec.act
  rw [if_neg (by decide)]

end Cert.ReferenceIdeal.Hand

end
-- ==== Proof.Ref.Value.lean ====
/-
  The idealized reference program's result, entry by entry: both layers in the transform-first arrangement. The
  program's result term is its last stage; that stage is the second layer of the first layer's result, and the first
  layer's result is the first layer (with the positive part) of the node features.
-/
import proofs.«404525_j62474594287730_1_alg».proof.Proof.Ref.Layer1
import proofs.«404525_j62474594287730_1_alg».proof.Proof.Ref.Layer2

open scoped BigOperators

noncomputable section

namespace Cert.ReferenceIdeal.Hand

open Idealize.ShloMosaic Idealize.ShloMosaic.TcCoe Idealize.ShloMosaic.ValueIdx Idealize.SL.Sem
open Cert.ReferenceIdeal Cert.ReferenceIdeal.Gen Cert.ReferenceIdeal.Read Cert.Proof

variable (m : (ℓ : Loc nD τ sig) → Buf (Elt Ideal) ℓ) (c : Dev nD)

abbrev rX : FVec Ideal S50000x128 .f32 := m ((c.tc : Thread nD τ).loc main_arg0)
abbrev rEI : IVec S2x800000 32 := m ((c.tc : Thread nD τ).loc main_arg1)
abbrev rET : IVec S800000 32 := m ((c.tc : Thread nD τ).loc main_arg2)
abbrev rW1 : FVec Ideal S3x128x128 .f32 := m ((c.tc : Thread nD τ).loc main_arg3)
abbrev rR1 : FVec Ideal S128x128 .f32 := m ((c.tc : Thread nD τ).loc main_arg4)
abbrev rB1 : FVec Ideal S128 .f32 := m ((c.tc : Thread nD τ).loc main_arg5)
abbrev rW2 : FVec Ideal S3x128x64 .f32 := m ((c.tc : Thread nD τ).loc main_arg6)
abbrev rR2 : FVec Ideal S128x64 .f32 := m ((c.tc : Thread nD τ).loc main_arg7)
abbrev rB2 : FVec Ideal S64 .f32 := m ((c.tc : Thread nD τ).loc main_arg8)

theorem refOut_apply (hr : Spec.InRange (rEI m c) (rET m c)) (n : Fin 50000) (h : Fin 64) :
    (Cert.ReferenceIdeal.Value.res_main_v184 (F := Ideal) m c : FVec Ideal S50000x64 .f32) (ix2 n h)
      = Spec.netR (Spec.m2 (rX m c)) (Spec.srcOf (rEI m c)) (Spec.dstOf (rEI m c)) (Spec.relOf (rET m c))
          (Spec.m3 (rW1 m c)) (Spec.m2 (rR1 m c)) (Spec.m1 (rB1 m c)) (Spec.m3 (rW2 m c)) (Spec.m2 (rR2 m c)) (Spec.m1 (rB2 m c)) n h := by
  rw [val_main_v184_eq m c]
  refine (ref_layer2 (rX m c) (rEI m c) (rET m c) (rW1 m c) (rR1 m c) (rB1 m c) (rW2 m c) (rR2 m c) (rB2 m c) hr n h).trans ?_
  unfold Spec.netR
  have hin : Spec.m2 (val_main_v92 (F := Ideal) (rX m c) (rEI m c) (rET m c) (rW1 m c) (rR1 m c) (rB1 m c))
      = Spec.layerR true (Spec.m2 (rX m c)) (Spec.srcOf (rEI m c)) (Spec.dstOf (rEI m c)) (Spec.relOf (rET m c))
          (Spec.m3 (rW1 m c)) (Spec.m2 (rR1 m c)) (Spec.m1 (rB1 m c)) := by
    funext p q
    exact ref_layer1 (rX m c) (rEI m c) (rET m c) (rW1 m c) (rR1 m c) (rB1 m c) hr p q
  rw [hin]

end Cert.ReferenceIdeal.Hand

end
-- ==== Proof.Pre.lean ====
/-
  What the precondition says of the argument arrays: every entry of every float array is a real number (its absolute
  value is below +∞, and it is not −∞), and every index word is in range: both rows of the edge array in [0, 50000)
  and every relation in [0, 3).
-/
import proofs.«404525_j62474594287730_1_alg».proof.Defs
import proofs.«404525_j62474594287730_1_alg».proof.Proof.Gen.Pre_finite_inputs
import proofs.«404525_j62474594287730_1_alg».proof.Proof.KI.Args
import Idealize.ShloMosaic.Lib.ReduceAll
import Idealize.ShloMosaic.Lib.StableHlo.Predicate

open scoped BigOperators

noncomputable section

namespace Cert.KernelIdeal.Hand

open Idealize.ShloMosaic Idealize.ShloMosaic.TcCoe Idealize.ShloMosaic.ValueIdx Idealize.SL.Sem
open Cert.KernelIdeal Cert.KernelIdeal.Gen Cert.Proof

/-- The pattern with all exponent bits set and no fraction bit is +∞. -/
private theorem inf_bits : (Ideal.ofBits .f32 0x7F800000#32 : EReal) = ⊤ := by
  simp [Ideal.ofBits, Ideal.ieee]

/-- An extended real whose absolute value max x (−x) is below +∞ is a real number: at ⊤ the maximum is ⊤, and at ⊥
    it is −⊥ = ⊤ too. -/
private theorem isReal_of_abs_lt (x : EReal)
    (h : Ideal.cmp .olt (max x (-x)) (Ideal.ofBits .f32 0x7F800000#32) = 1#1) : Spec.IsReal x := by
  rw [inf_bits] at h
  induction x using EReal.rec with
  | bot => simp [Ideal.cmp] at h
  | coe r => exact ⟨r, rfl⟩
  | top => simp [Ideal.cmp] at h

private instance : Subsingleton Cert.Pre_finite_inputs.S_.Idx := ⟨fun a b => funext fun d => d.elim0⟩

/-- A word whose signed value lies in [0, N) is its own clamp into [0, N − 1]. -/
private theorem toInt_eq_row {N : Nat} (hN : 0 < N) (b : BitVec 32) (h0 : 0 ≤ b.toInt) (h1 : b.toInt < (N : Int)) :
    b.toInt = ((GS.row hN b).val : Int) := by
  show b.toInt = ((min b.toInt.toNat (N - 1) : Nat) : Int)
  omega

/-- The facts of the argument arrays the value proof uses. -/
structure ArgFacts (m : (ℓ : Loc nD τ sig) → Buf (Elt Ideal) ℓ) (c : Dev nD) : Prop where
  x : ∀ i, Spec.IsReal (aX m c i)
  w1 : ∀ i, Spec.IsReal (aW1 m c i)
  r1 : ∀ i, Spec.IsReal (aR1 m c i)
  b1 : ∀ i, Spec.IsReal (aB1 m c i)
  w2 : ∀ i, Spec.IsReal (aW2 m c i)
  r2 : ∀ i, Spec.IsReal (aR2 m c i)
  b2 : ∀ i, Spec.IsReal (aB2 m c i)
  idx : Spec.InRange (aEI m c) (aET m c)

/-- The precondition gives them, on every core. -/
theorem argFacts_of_pre (hF : Cert.Pre_finite_inputs.Facts) (m : (ℓ : Loc nD τ sig) → Buf (Elt Ideal) ℓ)
    (hpre : Cert.Pre_KernelIdeal (hPre_finite_inputs := hF) m) (c : Dev nD) : ArgFacts m c := by
  haveI := hF
  -- the predicate at this core, at its one index: a conjunction of eleven all-reductions
  have h := congrFun (hpre c) ValueIdx.ix0
  dsimp only [Cert.Pre_finite_inputs.fn, Cert.Pre_finite_inputs.fn_part1, Cert.Pre_finite_inputs.fn_part2] at h
  simp only [andi, IntOp.andi_eq_one] at h
  obtain ⟨⟨⟨⟨⟨⟨⟨⟨⟨⟨h0, h3⟩, h4⟩, h5⟩, h6⟩, h7⟩, h8⟩, hge1⟩, hlt1⟩, hge2⟩, hlt2⟩ := h
  -- the index words: 0 ≤ word < bound, signed
  have z0 : (0#32 : BitVec 32).toInt = 0 := by decide
  have zN : (50000#32 : BitVec 32).toInt = 50000 := by decide
  have zR : (3#32 : BitVec 32).toInt = 3 := by decide
  have ei0 : ∀ i, 0 ≤ (aEI m c i).toInt := fun i => by
    have t : (0#32 : BitVec 32).toInt ≤ (aEI m c i).toInt := IntOp.cmpi_sge.1 (Host.reduce_andi_all _ _ _ _ _ hge1 i)
    rwa [z0] at t
  have ei1 : ∀ i, (aEI m c i).toInt < 50000 := fun i => by
    have t : (aEI m c i).toInt < (50000#32 : BitVec 32).toInt := IntOp.cmpi_slt.1 (Host.reduce_andi_all _ _ _ _ _ hlt1 i)
    rwa [zN] at t
  have et0 : ∀ i, 0 ≤ (aET m c i).toInt := fun i => by
    have t : (0#32 : BitVec 32).toInt ≤ (aET m c i).toInt := IntOp.cmpi_sge.1 (Host.reduce_andi_all _ _ _ _ _ hge2 i)
    rwa [z0] at t
  have et1 : ∀ i, (aET m c i).toInt < 3 := fun i => by
    have t : (aET m c i).toInt < (3#32 : BitVec 32).toInt := IntOp.cmpi_slt.1 (Host.reduce_andi_all _ _ _ _ _ hlt2 i)
    rwa [zR] at t
  exact
    { x := fun i => isReal_of_abs_lt _ (Host.reduce_andi_all _ _ _ _ _ h0 i)
      w1 := fun i => isReal_of_abs_lt _ (Host.reduce_andi_all _ _ _ _ _ h3 i)
      r1 := fun i => isReal_of_abs_lt _ (Host.reduce_andi_all _ _ _ _ _ h4 i)
      b1 := fun i => isReal_of_abs_lt _ (Host.reduce_andi_all _ _ _ _ _ h5 i)
      w2 := fun i => isReal_of_abs_lt _ (Host.reduce_andi_all _ _ _ _ _ h6 i)
      r2 := fun i => isReal_of_abs_lt _ (Host.reduce_andi_all _ _ _ _ _ h7 i)
      b2 := fun i => isReal_of_abs_lt _ (Host.reduce_andi_all _ _ _ _ _ h8 i)
      idx :=
        { src := fun e => toInt_eq_row _ _ (ei0 _) (ei1 _)
          dst := fun e => toInt_eq_row _ _ (ei0 _) (ei1 _)
          rel := fun e => toInt_eq_row _ _ (et0 _) (et1 _) } }

end Cert.KernelIdeal.Hand

end
-- ==== Proof.Algebra.lean ====
/-
  The two arrangements of the layer agree on real data. With every feature, weight and bias a real number, all sums
  are finite sums of reals, the divisors are counts (at least one), and the sum over the edges of a product with a
  weight is the product of the summed features with the weight; the edges of key `3 · target + relation` are the edges
  into the target that carry the relation. The layer's values are again real, so the law applies to the second layer.
-/
import proofs.«404525_j62474594287730_1_alg».proof.Proof.Spec
import Mathlib.Algebra.BigOperators.Fin
import Mathlib.Algebra.BigOperators.Ring.Finset
import Mathlib.Logic.Equiv.Fin.Basic
import Mathlib.Tactic.Ring

open scoped BigOperators

noncomputable section

namespace Cert.Proof.Spec

open Idealize.ShloMosaic Idealize.ShloMosaic.ValueIdx Finset

variable {H : ℕ}

/-! ## Coercions -/

/-- The coercion of the reals commutes with finite sums. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals commutes with the maximum. -/
private theorem coe_max (a b : ℝ) : ((max a b : ℝ) : EReal) = max (a : EReal) (b : EReal) :=
  (EReal.coe_strictMono.monotone).map_max

/-- The quotient of two reals, the divisor not zero, is the real quotient. -/
private theorem div_coe_coe (a c : ℝ) (hc : c ≠ 0) : Ideal.div (a : EReal) (c : EReal) = ((a / c : ℝ) : EReal) := by
  rw [Ideal.div_coe hc, ← EReal.coe_mul, mul_one_div]

/-- The positive part, or nothing, on the reals. -/
private def actReal (relu : Bool) (v : ℝ) : ℝ := if relu then max v 0 else v

private theorem act_coe (relu : Bool) (v : ℝ) : act relu (v : EReal) = ((actReal relu v : ℝ) : EReal) := by
  unfold act actReal
  cases relu
  · simp
  · simp [coe_max]

private theorem lin_coe (x : Fin 50000 → Fin 128 → EReal) (w : Fin 128 → Fin H → EReal)
    (xr : Fin 50000 → Fin 128 → ℝ) (wr : Fin 128 → Fin H → ℝ)
    (hx : ∀ n f, x n f = (xr n f : EReal)) (hw : ∀ f h, w f h = (wr f h : EReal)) (n : Fin 50000) (h : Fin H) :
    lin x w n h = ((∑ f : Fin 128, xr n f * wr f h : ℝ) : EReal) := by
  unfold lin
  rw [coe_sum]
  refine Finset.sum_congr rfl fun f _ => ?_
  rw [hx, hw, EReal.coe_mul]

private theorem mask_coe (t : Fin 800000 → Fin 3) (r : Fin 3) (e : Fin 800000) :
    mask t r e = ((if t e = r then (1 : ℝ) else 0 : ℝ) : EReal) := by
  unfold mask
  split_ifs <;> simp

/-! ## The edges into a node that carry a relation -/

/-- The edges into node `n` with relation `r`. -/
private def rel (d : Fin 800000 → Fin 50000) (t : Fin 800000 → Fin 3) (n : Fin 50000) (r : Fin 3) :
    Finset (Fin 800000) := (into d n).filter fun e => t e = r

/-- Their number, at least one. -/
private def cnt (d : Fin 800000 → Fin 50000) (t : Fin 800000 → Fin 3) (n : Fin 50000) (r : Fin 3) : ℝ :=
  max ((rel d t n r).card : ℝ) 1

private theorem cnt_ne_zero (d : Fin 800000 → Fin 50000) (t : Fin 800000 → Fin 3) (n : Fin 50000) (r : Fin 3) :
    cnt d t n r ≠ 0 :=
  ne_of_gt (lt_of_lt_of_le one_pos (le_max_right _ _))

/-- Division with remainder: the key `3 n + r` picks the edges into `n` with relation `r`. -/
private theorem keyed_eq (d : Fin 800000 → Fin 50000) (t : Fin 800000 → Fin 3) (n : Fin 50000) (r : Fin 3)
    (hg : 3 * n.val + r.val < 150000) : keyed d t ⟨3 * n.val + r.val, hg⟩ = rel d t n r := by
  ext e
  unfold keyed rel into
  simp only [Finset.mem_filter, Finset.mem_univ, true_and]
  constructor
  · intro h
    have h1 := (t e).isLt
    have h2 := r.isLt
    exact ⟨Fin.ext (by omega), Fin.ext (by omega)⟩
  · rintro ⟨h1, h2⟩
    rw [h1, h2]

/-! ## The means, as real numbers -/

private theorem meanK_coe (x : Fin 50000 → Fin 128 → EReal) (xr : Fin 50000 → Fin 128 → ℝ)
    (hx : ∀ n f, x n f = (xr n f : EReal)) (s d : Fin 800000 → Fin 50000) (t : Fin 800000 → Fin 3)
    (n : Fin 50000) (r : Fin 3) (hg : 3 * n.val + r.val < 150000) (f : Fin 128) :
    meanK x s d t ⟨3 * n.val + r.val, hg⟩ f
      = (((∑ e ∈ rel d t n r, xr (s e) f) / cnt d t n r : ℝ) : EReal) := by
  unfold meanK
  rw [keyed_eq]
  have hnum : ∑ e ∈ rel d t n r, x (s e) f = ((∑ e ∈ rel d t n r, xr (s e) f : ℝ) : EReal) := by
    rw [coe_sum]
    exact Finset.sum_congr rfl fun e _ => hx _ _
  have hcard : ((rel d t n r).card : ℝ) = ∑ _e ∈ rel d t n r, (1 : ℝ) := by
    rw [Finset.sum_const, nsmul_eq_mul, mul_one]
  have hden : max (∑ _e ∈ rel d t n r, (1 : EReal)) 1 = ((cnt d t n r : ℝ) : EReal) := by
    unfold cnt
    rw [coe_max, EReal.coe_one, hcard, coe_sum]
    simp only [EReal.coe_one]
  rw [hnum, hden, div_coe_coe _ _ (cnt_ne_zero d t n r)]

/-- Relation `r`'s mean message into node `n`, entry `h`, on the reals. -/
private def msgReal (xr : Fin 50000 → Fin 128 → ℝ) (s d : Fin 800000 → Fin 50000) (t : Fin 800000 → Fin 3)
    (wr : Fin 128 → Fin H → ℝ) (r : Fin 3) (n : Fin 50000) (h : Fin H) : ℝ :=
  (∑ e ∈ rel d t n r, ∑ f : Fin 128, xr (s e) f * wr f h) / cnt d t n r

private theorem msgR_coe (x : Fin 50000 → Fin 128 → EReal) (xr : Fin 50000 → Fin 128 → ℝ)
    (hx : ∀ n f, x n f = (xr n f : EReal)) (s d : Fin 800000 → Fin 50000) (t : Fin 800000 → Fin 3)
    (w : Fin 128 → Fin H → EReal) (wr : Fin 128 → Fin H → ℝ) (hw : ∀ f h, w f h = (wr f h : EReal))
    (r : Fin 3) (n : Fin 50000) (h : Fin H) :
    msgR x s d t w r n h = ((msgReal xr s d t wr r n h : ℝ) : EReal) := by
  unfold msgR msgReal
  have hnum : (∑ e ∈ into d n, lin x w (s e) h * mask t r e)
      = ((∑ e ∈ rel d t n r, ∑ f : Fin 128, xr (s e) f * wr f h : ℝ) : EReal) := by
    unfold rel
    rw [Finset.sum_filter, coe_sum]
    refine Finset.sum_congr rfl fun e _ => ?_
    rw [lin_coe x w xr wr hx hw, mask_coe, ← EReal.coe_mul, mul_ite, mul_one, mul_zero]
  have hcard : ((rel d t n r).card : ℝ) = ∑ e ∈ into d n, (if t e = r then (1 : ℝ) else 0) := by
    unfold rel
    exact (Finset.sum_boole _ _).symm
  have hden : max (∑ e ∈ into d n, mask t r e) 1 = ((cnt d t n r : ℝ) : EReal) := by
    have hm : ∑ e ∈ into d n, mask t r e
        = ∑ e ∈ into d n, (((if t e = r then (1 : ℝ) else 0) : ℝ) : EReal) :=
      Finset.sum_congr rfl fun e _ => mask_coe t r e
    unfold cnt
    rw [hm, coe_max, EReal.coe_one, hcard, coe_sum]
  rw [hnum, hden, div_coe_coe _ _ (cnt_ne_zero d t n r)]

/-! ## The long contraction, split into its four blocks -/

private theorem sum_split {M : Type} [AddCommMonoid M] (F : Fin 512 → M) :
    ∑ k : Fin 512, F k
      = (∑ i : Fin 128, F ⟨i.val, by have := i.isLt; omega⟩)
        + ∑ r : Fin 3, ∑ f : Fin 128,
            F ⟨128 + (f.val + 128 * r.val), by have := f.isLt; have := r.isLt; omega⟩ := by
  refine (Fin.sum_univ_add (a := 128) (b := 384) F).trans ?_
  congr 1
  refine ((Equiv.sum_comp (finProdFinEquiv (m := 3) (n := 128)) (fun j => F (Fin.natAdd 128 j))).symm).trans ?_
  rw [Fintype.sum_prod_type]
  rfl

private theorem xcat_lo (x : Fin 50000 → Fin 128 → EReal) (s d : Fin 800000 → Fin 50000) (t : Fin 800000 → Fin 3)
    (n : Fin 50000) (i : Fin 128) (hk : i.val < 512) : xcat x s d t n ⟨i.val, hk⟩ = x n i := by
  unfold xcat
  rw [dif_pos (show (⟨i.val, hk⟩ : Fin 512).val < 128 from i.isLt)]

private theorem xcat_hi (x : Fin 50000 → Fin 128 → EReal) (s d : Fin 800000 → Fin 50000) (t : Fin 800000 → Fin 3)
    (n : Fin 50000) (r : Fin 3) (f : Fin 128) (hk : 128 + (f.val + 128 * r.val) < 512)
    (hg : 3 * n.val + r.val < 150000) :
    xcat x s d t n ⟨128 + (f.val + 128 * r.val), hk⟩ = meanK x s d t ⟨3 * n.val + r.val, hg⟩ f := by
  have hf := f.isLt
  have hr := r.isLt
  unfold xcat
  rw [dif_neg (by simp only; omega)]
  have e1 : ∀ p, (⟨3 * n.val + (128 + (f.val + 128 * r.val) - 128) / 128, p⟩ : Fin 150000)
      = ⟨3 * n.val + r.val, hg⟩ := fun p => Fin.ext (by simp only; omega)
  have e2 : ∀ p, (⟨(128 + (f.val + 128 * r.val) - 128) % 128, p⟩ : Fin 128) = f :=
    fun p => Fin.ext (by simp only; omega)
  simp only [e1, e2]

private theorem wcat_lo (W : Fin 3 → Fin 128 → Fin H → EReal) (root : Fin 128 → Fin H → EReal)
    (i : Fin 128) (hk : i.val < 512) (h : Fin H) : wcat W root ⟨i.val, hk⟩ h = root i h := by
  unfold wcat
  rw [dif_pos (show (⟨i.val, hk⟩ : Fin 512).val < 128 from i.isLt)]

private theorem wcat_hi (W : Fin 3 → Fin 128 → Fin H → EReal) (root : Fin 128 → Fin H → EReal)
    (r : Fin 3) (f : Fin 128) (hk : 128 + (f.val + 128 * r.val) < 512) (h : Fin H) :
    wcat W root ⟨128 + (f.val + 128 * r.val), hk⟩ h = W r f h := by
  have hf := f.isLt
  have hr := r.isLt
  unfold wcat
  rw [dif_neg (by simp only; omega)]
  have e1 : ∀ p, (⟨(128 + (f.val + 128 * r.val) - 128) / 128, p⟩ : Fin 3) = r :=
    fun p => Fin.ext (by simp only; omega)
  have e2 : ∀ p, (⟨(128 + (f.val + 128 * r.val) - 128) % 128, p⟩ : Fin 128) = f :=
    fun p => Fin.ext (by simp only; omega)
  simp only [e1, e2]

/-! ## The layer, as a real number -/

/-- The transform-first layer on the reals. -/
private def layerReal (relu : Bool) (xr : Fin 50000 → Fin 128 → ℝ) (s d : Fin 800000 → Fin 50000)
    (t : Fin 800000 → Fin 3) (Wr : Fin 3 → Fin 128 → Fin H → ℝ) (rootr : Fin 128 → Fin H → ℝ) (br : Fin H → ℝ)
    (n : Fin 50000) (h : Fin H) : ℝ :=
  actReal relu (((((∑ f : Fin 128, xr n f * rootr f h) + br h) + msgReal xr s d t (Wr 0) 0 n h)
    + msgReal xr s d t (Wr 1) 1 n h) + msgReal xr s d t (Wr 2) 2 n h)

private theorem layerR_coe (relu : Bool) (x : Fin 50000 → Fin 128 → EReal) (s d : Fin 800000 → Fin 50000)
    (t : Fin 800000 → Fin 3) (W : Fin 3 → Fin 128 → Fin H → EReal) (root : Fin 128 → Fin H → EReal) (b : Fin H → EReal)
    (xr : Fin 50000 → Fin 128 → ℝ) (Wr : Fin 3 → Fin 128 → Fin H → ℝ) (rootr : Fin 128 → Fin H → ℝ) (br : Fin H → ℝ)
    (hx : ∀ n f, x n f = (xr n f : EReal)) (hW : ∀ r f h, W r f h = (Wr r f h : EReal))
    (hroot : ∀ f h, root f h = (rootr f h : EReal)) (hb : ∀ h, b h = (br h : EReal))
    (n : Fin 50000) (h : Fin H) :
    layerR relu x s d t W root b n h = ((layerReal relu xr s d t Wr rootr br n h : ℝ) : EReal) := by
  unfold layerR layerReal
  rw [lin_coe x root xr rootr hx hroot, hb,
    msgR_coe x xr hx s d t (W 0) (Wr 0) (hW 0) 0 n h,
    msgR_coe x xr hx s d t (W 1) (Wr 1) (hW 1) 1 n h,
    msgR_coe x xr hx s d t (W 2) (Wr 2) (hW 2) 2 n h,
    ← EReal.coe_add, ← EReal.coe_add, ← EReal.coe_add, ← EReal.coe_add, act_coe]

/-- The mean of the products is the product with the means: the sum over the edges and the sum over the features
    change places, and the divisor and the weight come out of the inner sum. -/
private theorem mean_mul_real (xr : Fin 50000 → Fin 128 → ℝ) (s d : Fin 800000 → Fin 50000) (t : Fin 800000 → Fin 3)
    (wr : Fin 128 → Fin H → ℝ) (r : Fin 3) (n : Fin 50000) (h : Fin H) :
    msgReal xr s d t wr r n h
      = ∑ f : Fin 128, ((∑ e ∈ rel d t n r, xr (s e) f) / cnt d t n r) * wr f h := by
  unfold msgReal
  rw [Finset.sum_comm, Finset.sum_div]
  refine Finset.sum_congr rfl fun f _ => ?_
  rw [← Finset.sum_mul, div_mul_eq_mul_div]

private theorem layerK_coe (relu : Bool) (x : Fin 50000 → Fin 128 → EReal) (s d : Fin 800000 → Fin 50000)
    (t : Fin 800000 → Fin 3) (W : Fin 3 → Fin 128 → Fin H → EReal) (root : Fin 128 → Fin H → EReal) (b : Fin H → EReal)
    (xr : Fin 50000 → Fin 128 → ℝ) (Wr : Fin 3 → Fin 128 → Fin H → ℝ) (rootr : Fin 128 → Fin H → ℝ) (br : Fin H → ℝ)
    (hx : ∀ n f, x n f = (xr n f : EReal)) (hW : ∀ r f h, W r f h = (Wr r f h : EReal))
    (hroot : ∀ f h, root f h = (rootr f h : EReal)) (hb : ∀ h, b h = (br h : EReal))
    (n : Fin 50000) (h : Fin H) :
    layerK relu x s d t W root b n h = ((layerReal relu xr s d t Wr rootr br n h : ℝ) : EReal) := by
  unfold layerK layerReal
  rw [sum_split]
  have hlo : (∑ i : Fin 128, xcat x s d t n ⟨i.val, by have := i.isLt; omega⟩
        * wcat W root ⟨i.val, by have := i.isLt; omega⟩ h)
      = ((∑ f : Fin 128, xr n f * rootr f h : ℝ) : EReal) := by
    rw [coe_sum]
    refine Finset.sum_congr rfl fun i _ => ?_
    rw [xcat_lo, wcat_lo, hx, hroot, EReal.coe_mul]
  have hhi : ∀ r : Fin 3,
      (∑ f : Fin 128, xcat x s d t n ⟨128 + (f.val + 128 * r.val), by have := f.isLt; have := r.isLt; omega⟩
        * wcat W root ⟨128 + (f.val + 128 * r.val), by have := f.isLt; have := r.isLt; omega⟩ h)
      = ((msgReal xr s d t (Wr r) r n h : ℝ) : EReal) := by
    intro r
    have hg : 3 * n.val + r.val < 150000 := by have := n.isLt; have := r.isLt; omega
    rw [mean_mul_real, coe_sum]
    refine Finset.sum_congr rfl fun f _ => ?_
    rw [xcat_hi x s d t n r f _ hg, wcat_hi, meanK_coe x xr hx, hW, EReal.coe_mul]
  rw [hlo, Fin.sum_univ_three, hhi 0, hhi 1, hhi 2, hb,
    ← EReal.coe_add, ← EReal.coe_add, ← EReal.coe_add, ← EReal.coe_add, act_coe]
  refine congrArg _ (congrArg _ ?_)
  ring

/-! ## The interface -/

/-- On real data the transform-first layer is real. -/
theorem layerR_isReal (relu : Bool) (x : Fin 50000 → Fin 128 → EReal) (s d : Fin 800000 → Fin 50000) (t : Fin 800000 → Fin 3)
    (W : Fin 3 → Fin 128 → Fin H → EReal) (root : Fin 128 → Fin H → EReal) (b : Fin H → EReal)
    (hx : ∀ n f, IsReal (x n f)) (hW : ∀ r f h, IsReal (W r f h)) (hroot : ∀ f h, IsReal (root f h)) (hb : ∀ h, IsReal (b h))
    (n : Fin 50000) (h : Fin H) : IsReal (layerR relu x s d t W root b n h) := by
  choose xr hxr using hx
  choose Wr hWr using hW
  choose rootr hrootr using hroot
  choose br hbr using hb
  exact ⟨_, layerR_coe relu x s d t W root b xr Wr rootr br hxr hWr hrootr hbr n h⟩

/-- On real data the two arrangements of the layer agree. -/
theorem layerK_eq_layerR (relu : Bool) (x : Fin 50000 → Fin 128 → EReal) (s d : Fin 800000 → Fin 50000) (t : Fin 800000 → Fin 3)
    (W : Fin 3 → Fin 128 → Fin H → EReal) (root : Fin 128 → Fin H → EReal) (b : Fin H → EReal)
    (hx : ∀ n f, IsReal (x n f)) (hW : ∀ r f h, IsReal (W r f h)) (hroot : ∀ f h, IsReal (root f h)) (hb : ∀ h, IsReal (b h))
    (n : Fin 50000) (h : Fin H) : layerK relu x s d t W root b n h = layerR relu x s d t W root b n h := by
  choose xr hxr using hx
  choose Wr hWr using hW
  choose rootr hrootr using hroot
  choose br hbr using hb
  rw [layerK_coe relu x s d t W root b xr Wr rootr br hxr hWr hrootr hbr n h,
    layerR_coe relu x s d t W root b xr Wr rootr br hxr hWr hrootr hbr n h]

/-- On real data the two arrangements of the two-layer network agree. -/
theorem netK_eq_netR (x : Fin 50000 → Fin 128 → EReal) (s d : Fin 800000 → Fin 50000) (t : Fin 800000 → Fin 3)
    (W1 : Fin 3 → Fin 128 → Fin 128 → EReal) (root1 : Fin 128 → Fin 128 → EReal) (b1 : Fin 128 → EReal)
    (W2 : Fin 3 → Fin 128 → Fin 64 → EReal) (root2 : Fin 128 → Fin 64 → EReal) (b2 : Fin 64 → EReal)
    (hx : ∀ n f, IsReal (x n f)) (hW1 : ∀ r f h, IsReal (W1 r f h)) (hroot1 : ∀ f h, IsReal (root1 f h)) (hb1 : ∀ h, IsReal (b1 h))
    (hW2 : ∀ r f h, IsReal (W2 r f h)) (hroot2 : ∀ f h, IsReal (root2 f h)) (hb2 : ∀ h, IsReal (b2 h))
    (n : Fin 50000) (h : Fin 64) :
    netK x s d t W1 root1 b1 W2 root2 b2 n h = netR x s d t W1 root1 b1 W2 root2 b2 n h := by
  unfold netK netR
  have hin : layerK true x s d t W1 root1 b1 = layerR true x s d t W1 root1 b1 := by
    funext m f
    exact layerK_eq_layerR true x s d t W1 root1 b1 hx hW1 hroot1 hb1 m f
  rw [hin]
  exact layerK_eq_layerR false _ s d t W2 root2 b2
    (fun m f => layerR_isReal true x s d t W1 root1 b1 hx hW1 hroot1 hb1 m f) hW2 hroot2 hb2 n h

end Cert.Proof.Spec

end
-- ==== Proof.lean ====
/-
  A two-layer relational graph convolution with mean aggregation (50000 nodes, 800000 typed edges, 3 relations;
  128 → 128 → 64 features), computed two ways.

  The kernel program aggregates first: per layer it gathers every edge's source row, sums the rows by the joint key
  3 · target + relation, divides by the counts, lays the three mean rows beside the node's own row and multiplies the
  long row by the four stacked weight matrices in one tiled matrix product on the chip (with the bias, and in the first
  layer the positive part). The reference transforms first: per relation it multiplies every row by the relation's
  matrix, sums the transformed source rows over the edges into each node that carry the relation, divides by their
  number, and adds the three means to the root term.

  Over real numbers the two are one function: a sum of products with a fixed matrix is the product of the sum, and the
  edges of key 3 n + r are the edges into n of relation r. That needs every feature, weight and bias to be a real
  number and every index word to be in range (a source or target in [0, 50000), a relation in [0, 3)): outside that
  range the two programs treat an edge differently (the joint key of an out-of-range relation is another node's key;
  an out-of-range source is filled on one side and clamped on the other), so the range is part of the precondition.

  The frames: the kernel program runs as host operations around two pipelined regions, each region's body checked
  once at a generic grid point; the reference is host operations only. The idealization rewrote nothing, so the
  kernel program's idealization is its own text read over the extended reals.
-/
import proofs.«404525_j62474594287730_1_alg».proof.Defs
import proofs.«404525_j62474594287730_1_alg».proof.Proof.K.Run
import proofs.«404525_j62474594287730_1_alg».proof.Proof.KI.Value
import proofs.«404525_j62474594287730_1_alg».proof.Proof.Ref.Value
import proofs.«404525_j62474594287730_1_alg».proof.Proof.Pre
import proofs.«404525_j62474594287730_1_alg».proof.Proof.Algebra
import proofs.«404525_j62474594287730_1_alg».proof.Proof.Gen.Pre_finite_inputs

noncomputable section

namespace Cert.Proof

open Idealize.ShloMosaic Idealize.ShloMosaic.ValueIdx Idealize.SL.Sem

/-- The word-level kernel program runs and leaves its arguments alone. -/
theorem frame_k : Cert.frame_Kernel (hKernel := Cert.Kernel.Gen.facts) (hPre_finite_inputs := Cert.Pre_finite_inputs.Gen.facts) :=
  fun m ρ _ => Cert.Kernel.Hand.frame m ρ

/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference is host operations only: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Both programs end with the same array: entry (n, h) of the kernel program's result is the network in the
    aggregate-first arrangement, of the reference's the network in the transform-first arrangement, of the same
    arguments; on real data with in-range indices these agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.kernelOut (F := Ideal) m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  have hf := Cert.KernelIdeal.Hand.argFacts_of_pre Cert.Pre_finite_inputs.Gen.facts m hpre c
  obtain ⟨h0, h1, h2, h3, h4, h5, h6, h7, h8⟩ := hagree c
  have e0 : Cert.ReferenceIdeal.Hand.rX m' c = Cert.KernelIdeal.Hand.aX m c := h0
  have e1 : Cert.ReferenceIdeal.Hand.rEI m' c = Cert.KernelIdeal.Hand.aEI m c := h1
  have e2 : Cert.ReferenceIdeal.Hand.rET m' c = Cert.KernelIdeal.Hand.aET m c := h2
  have e3 : Cert.ReferenceIdeal.Hand.rW1 m' c = Cert.KernelIdeal.Hand.aW1 m c := h3
  have e4 : Cert.ReferenceIdeal.Hand.rR1 m' c = Cert.KernelIdeal.Hand.aR1 m c := h4
  have e5 : Cert.ReferenceIdeal.Hand.rB1 m' c = Cert.KernelIdeal.Hand.aB1 m c := h5
  have e6 : Cert.ReferenceIdeal.Hand.rW2 m' c = Cert.KernelIdeal.Hand.aW2 m c := h6
  have e7 : Cert.ReferenceIdeal.Hand.rR2 m' c = Cert.KernelIdeal.Hand.aR2 m c := h7
  have e8 : Cert.ReferenceIdeal.Hand.rB2 m' c = Cert.KernelIdeal.Hand.aB2 m c := h8
  have hr' : Spec.InRange (Cert.ReferenceIdeal.Hand.rEI m' c) (Cert.ReferenceIdeal.Hand.rET m' c) := by
    rw [e1, e2]; exact hf.idx
  funext i
  obtain ⟨n, h, rfl⟩ : ∃ (n : Fin 50000) (h : Fin 64), i = ix2 n h := ⟨i 0, i 1, eq_ix2 i⟩
  refine (Cert.ReferenceIdeal.Hand.refOut_apply m' c hr' n h).trans ?_
  refine Eq.trans ?_ (Cert.KernelIdeal.Hand.kernelOut_apply m c hf.idx n h).symm
  rw [e0, e1, e2, e3, e4, e5, e6, e7, e8]
  exact (Spec.netK_eq_netR _ _ _ _ _ _ _ _ _ _
    (fun p q => hf.x _) (fun r p q => hf.w1 _) (fun p q => hf.r1 _) (fun p => hf.b1 _)
    (fun r p q => hf.w2 _) (fun p q => hf.r2 _) (fun p => hf.b2 _) n h).symm

/-- The claim. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
